-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x6400000 : Shape := ⟨2, ![2, 6400000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x6400000 : S_.BroadcastsInDim S2x6400000 (![] : Fin 0 → Fin S2x6400000.rank)
  reducesTo_S2x6400000_S_d0_1 : S2x6400000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x2 .f32) (main_arg1 : FVec F S100000x2 .f32) (main_arg2 : IVec S2x6400000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_c_2 : IVec S_ 32 := constantI S_ 32 0#32
  let main_v9 : IVec S2x6400000 32 := broadcastInDim S2x6400000 ![] bcast_S_S2x6400000 main_c_2
  let main_v10 : IVec S2x6400000 1 := cmpi .sge main_arg2 main_v9
  let main_c_3 : IVec S_ 1 := constantI S_ 1 1#1
  let main_v11 : IVec S_ 1 := (fun x v => Host.reduce IntOp.andi x v reducesTo_S2x6400000_S_d0_1 h_S_) main_v10 main_c_3
  let main_v12 : IVec S_ 1 := andi main_v8 main_v11
  let main_c_4 : IVec S_ 32 := constantI S_ 32 100000#32
  let main_v13 : IVec S2x6400000 32 := broadcastInDim S2x6400000 ![] bcast_S_S2x6400000 main_c_4
  let main_v14 : IVec S2x6400000 1 := cmpi .slt main_arg2 main_v13
  let main_c_5 : IVec S_ 1 := constantI S_ 1 1#1
  let main_v15 : IVec S_ 1 := (fun x v => Host.reduce IntOp.andi x v reducesTo_S2x6400000_S_d0_1 h_S_) main_v14 main_c_5
  fn_part1 (F := F) main_v12 main_v15
-- ==== Kernel.lean ====
abbrev S100000x2 : Shape := ⟨2, ![100000, 2]⟩
abbrev S2x6400000 : Shape := ⟨2, ![2, 6400000]⟩
abbrev S100000x4 : Shape := ⟨2, ![100000, 4]⟩
abbrev S4x100000 : Shape := ⟨2, ![4, 100000]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S4x6400000 : Shape := ⟨2, ![4, 6400000]⟩
abbrev S4x50000x128 : Shape := ⟨3, ![4, 50000, 128]⟩
abbrev S5x50000x128 : Shape := ⟨3, ![5, 50000, 128]⟩
abbrev S4x2000x128 : Shape := ⟨3, ![4, 2000, 128]⟩
abbrev S5x2000x128 : Shape := ⟨3, ![5, 2000, 128]⟩
abbrev S1x2000x128 : Shape := ⟨3, ![1, 2000, 128]⟩
abbrev S2000x128 : Shape := ⟨2, ![2000, 128]⟩
abbrev S5x6400000 : Shape := ⟨2, ![5, 6400000]⟩
abbrev S100000 : Shape := ⟨1, ![100000]⟩
abbrev S1x100000 : Shape := ⟨2, ![1, 100000]⟩
abbrev S5x100000 : Shape := ⟨2, ![5, 100000]⟩
abbrev S2x100000 : Shape := ⟨2, ![2, 100000]⟩
abbrev S5x16384 : Shape := ⟨2, ![5, 16384]⟩
abbrev S2x16384 : Shape := ⟨2, ![2, 16384]⟩
abbrev S1x16384 : Shape := ⟨2, ![1, 16384]⟩

abbrev nBuf : Space → Nat
  | .hbm => 97
  | .vmem => 8
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S2x6400000, .i32⟩
  | .hbm, ⟨3, _⟩ => ⟨S100000x4, .f32⟩
  | .hbm, ⟨4, _⟩ => ⟨S4x100000, .f32⟩
  | .hbm, ⟨5, _⟩ => ⟨S1x6400000, .i32⟩
  | .hbm, ⟨6, _⟩ => ⟨S6400000, .i32⟩
  | .hbm, ⟨7, _⟩ => ⟨S1x6400000, .i32⟩
  | .hbm, ⟨8, _⟩ => ⟨S6400000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S1, .i32⟩
  | .hbm, ⟨18, _⟩ => ⟨S_, .i32⟩
  | .hbm, ⟨19, _⟩ => ⟨S6400000x1, .i32⟩
  | .hbm, ⟨20, _⟩ => ⟨S6400000x1, .i1⟩
  | .hbm, ⟨21, _⟩ => ⟨S1x1, .i32⟩
  | .hbm, ⟨22, _⟩ => ⟨S6400000x1, .i32⟩
  | .hbm, ⟨23, _⟩ => ⟨S6400000x1, .i1⟩
  | .hbm, ⟨24, _⟩ => ⟨S6400000x1, .i1⟩
  | .hbm, ⟨25, _⟩ => ⟨S_, .i1⟩
  | .hbm, ⟨26, _⟩ => ⟨S6400000, .i1⟩
  | .hbm, ⟨27, _⟩ => ⟨S4x6400000, .f32⟩
  | .hbm, ⟨28, _⟩ => ⟨S4x6400000, .i1⟩
  | .hbm, ⟨29, _⟩ => ⟨S_, .f32⟩
  | .hbm, ⟨30, _⟩ => ⟨S4x6400000, .f32⟩
  | .hbm, ⟨31, _⟩ => ⟨S4x6400000, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S1, .i32⟩
  | .hbm, ⟨41, _⟩ => ⟨S_, .i32⟩
  | .hbm, ⟨42, _⟩ => ⟨S6400000x1, .i32⟩
  | .hbm, ⟨43, _⟩ => ⟨S6400000x1, .i1⟩
  | .hbm, ⟨44, _⟩ => ⟨S1x1, .i32⟩
  | .hbm, ⟨45, _⟩ => ⟨S6400000x1, .i32⟩
  | .hbm, ⟨46, _⟩ => ⟨S6400000x1, .i1⟩
  | .hbm, ⟨47, _⟩ => ⟨S6400000x1, .i1⟩
  | .hbm, ⟨48, _⟩ => ⟨S_, .i1⟩
  | .hbm, ⟨49, _⟩ => ⟨S6400000, .i1⟩
  | .hbm, ⟨50, _⟩ => ⟨S4x6400000, .f32⟩
  | .hbm, ⟨51, _⟩ => ⟨S4x6400000, .i1⟩
  | .hbm, ⟨52, _⟩ => ⟨S_, .f32⟩
  | .hbm, ⟨53, _⟩ => ⟨S4x6400000, .f32⟩
  | .hbm, ⟨54, _⟩ => ⟨S4x6400000, .f32⟩
  | .hbm, ⟨55, _⟩ => ⟨S4x6400000, .f32⟩
  | .hbm, ⟨56, _⟩ => ⟨S4x50000x128, .f32⟩
  | .hbm, ⟨57, _⟩ => ⟨S5x50000x128, .f32⟩
  | .hbm, ⟨58, _⟩ => ⟨S5x6400000, .f32⟩
  | .hbm, ⟨59, _⟩ => ⟨S1x6400000, .f32⟩
  | .hbm, ⟨60, _⟩ => ⟨S6400000, .f32⟩
  | .hbm, ⟨61, _⟩ => ⟨S_, .f32⟩
  | .hbm, ⟨62, _⟩ => ⟨S100000, .f32⟩
  | .hbm, ⟨63, _⟩ => ⟨S6400000x1, .i32⟩
  | .hbm, ⟨64, _⟩ => ⟨S100000, .f32⟩
  | .hbm, ⟨65, _⟩ => ⟨S1x6400000, .f32⟩
  | .hbm, ⟨66, _⟩ => ⟨S6400000, .f32⟩
  | .hbm, ⟨67, _⟩ => ⟨S_, .f32⟩
  | .hbm, ⟨68, _⟩ => ⟨S100000, .f32⟩
  | .hbm, ⟨69, _⟩ => ⟨S6400000x1, .i32⟩
  | .hbm, ⟨70, _⟩ => ⟨S100000, .f32⟩
  | .hbm, ⟨71, _⟩ => ⟨S1x6400000, .f32⟩
  | .hbm, ⟨72, _⟩ => ⟨S6400000, .f32⟩
  | .hbm, ⟨73, _⟩ => ⟨S_, .f32⟩
  | .hbm, ⟨74, _⟩ => ⟨S100000, .f32⟩
  | .hbm, ⟨75, _⟩ => ⟨S6400000x1, .i32⟩
  | .hbm, ⟨76, _⟩ => ⟨S100000, .f32⟩
  | .hbm, ⟨77, _⟩ => ⟨S1x6400000, .f32⟩
  | .hbm, ⟨78, _⟩ => ⟨S6400000, .f32⟩
  | .hbm, ⟨79, _⟩ => ⟨S_, .f32⟩
  | .hbm, ⟨80, _⟩ => ⟨S100000, .f32⟩
  | .hbm, ⟨81, _⟩ => ⟨S6400000x1, .i32⟩
  | .hbm, ⟨82, _⟩ => ⟨S100000, .f32⟩
  | .hbm, ⟨83, _⟩ => ⟨S1x6400000, .f32⟩
  | .hbm, ⟨84, _⟩ => ⟨S6400000, .f32⟩
  | .hbm, ⟨85, _⟩ => ⟨S_, .f32⟩
  | .hbm, ⟨86, _⟩ => ⟨S100000, .f32⟩
  | .hbm, ⟨87, _⟩ => ⟨S6400000x1, .i32⟩
  | .hbm, ⟨88, _⟩ => ⟨S100000, .f32⟩
  | .hbm, ⟨89, _⟩ => ⟨S1x100000, .f32⟩
  | .hbm, ⟨90, _⟩ => ⟨S1x100000, .f32⟩
  | .hbm, ⟨91, _⟩ => ⟨S1x100000, .f32⟩
  | .hbm, ⟨92, _⟩ => ⟨S1x100000, .f32⟩
  | .hbm, ⟨93, _⟩ => ⟨S1x100000, .f32⟩
  | .hbm, ⟨94, _⟩ => ⟨S5x100000, .f32⟩
  | .hbm, ⟨95, _⟩ => ⟨S2x100000, .f32⟩
  | .hbm, ⟨96, _⟩ => ⟨S100000x2, .f32⟩
  | .local _ .vmem, ⟨0, _⟩ => ⟨S4x2000x128, .f32⟩
  | .local _ .vmem, ⟨1, _⟩ => ⟨S4x2000x128, .f32⟩
  | .local _ .vmem, ⟨2, _⟩ => ⟨S5x2000x128, .f32⟩
  | .local _ .vmem, ⟨3, _⟩ => ⟨S5x2000x128, .f32⟩
  | .local _ .vmem, ⟨4, _⟩ => ⟨S5x16384, .f32⟩
  | .local _ .vmem, ⟨5, _⟩ => ⟨S5x16384, .f32⟩
  | .local _ .vmem, ⟨6, _⟩ => ⟨S2x16384, .f32⟩
  | .local _ .vmem, ⟨7, _⟩ => ⟨S2x16384, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_0 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_cst_2 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_3 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S5x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  concatenates_S100000x2_S100000x2_S100000x4_d1 : Shape.Concatenates [S100000x2, S100000x2] S100000x4 1
  transposes_S100000x4_S4x100000_1_0 : S100000x4.Transposes [1, 0] S4x100000
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S4x6400000_1 : S6400000.BroadcastsInDim S4x6400000 (![1] : Fin 1 → Fin S4x6400000.rank)
  bcast_S_S4x6400000 : S_.BroadcastsInDim S4x6400000 (![] : Fin 0 → Fin S4x6400000.rank)
  shapeCasts_S4x6400000_S4x50000x128 : S4x6400000.ShapeCasts S4x50000x128
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x2000x128_S1x2000x128_1_0_0 : ∀ a, (![1, 0, 0] : Fin 3 → Nat) a + S1x2000x128.size a ≤ S4x2000x128.size a
  inb_S4x2000x128_S1x2000x128_2_0_0 : ∀ a, (![2, 0, 0] : Fin 3 → Nat) a + S1x2000x128.size a ≤ S4x2000x128.size a
  inb_S4x2000x128_S1x2000x128_3_0_0 : ∀ a, (![3, 0, 0] : Fin 3 → Nat) a + S1x2000x128.size a ≤ S4x2000x128.size a
  inb_S5x2000x128_S1x2000x128_0_0_0 : ∀ a, (![0, 0, 0] : Fin 3 → Nat) a + S1x2000x128.size a ≤ S5x2000x128.size a
  shapeCasts_S2000x128_S1x2000x128 : S2000x128.ShapeCasts S1x2000x128
  inb_S5x2000x128_S1x2000x128_1_0_0 : ∀ a, (![1, 0, 0] : Fin 3 → Nat) a + S1x2000x128.size a ≤ S5x2000x128.size a
  inb_S5x2000x128_S1x2000x128_2_0_0 : ∀ a, (![2, 0, 0] : Fin 3 → Nat) a + S1x2000x128.size a ≤ S5x2000x128.size a
  inb_S5x2000x128_S1x2000x128_3_0_0 : ∀ a, (![3, 0, 0] : Fin 3 → Nat) a + S1x2000x128.size a ≤ S5x2000x128.size a
  inb_S5x2000x128_S1x2000x128_4_0_0 : ∀ a, (![4, 0, 0] : Fin 3 → Nat) a + S1x2000x128.size a ≤ S5x2000x128.size a
  shapeCasts_S5x50000x128_S5x6400000 : S5x50000x128.ShapeCasts S5x6400000
  slices_S5x6400000_S1x6400000_0_0 : S5x6400000.Slices ![0, 0] S1x6400000
  bcast_S_S100000 : S_.BroadcastsInDim S100000 (![] : Fin 0 → Fin S100000.rank)
  slices_S5x6400000_S1x6400000_1_0 : S5x6400000.Slices ![1, 0] S1x6400000
  slices_S5x6400000_S1x6400000_2_0 : S5x6400000.Slices ![2, 0] S1x6400000
  slices_S5x6400000_S1x6400000_3_0 : S5x6400000.Slices ![3, 0] S1x6400000
  slices_S5x6400000_S1x6400000_4_0 : S5x6400000.Slices ![4, 0] S1x6400000
  bcast_S100000_S1x100000_1 : S100000.BroadcastsInDim S1x100000 (![1] : Fin 1 → Fin S1x100000.rank)
  concatenates_S1x100000_S1x100000_S1x100000_S1x100000_S1x100000_S5x100000_d0 : Shape.Concatenates [S1x100000, S1x100000, S1x100000, S1x100000, S1x100000] S5x100000 0
  inb_S5x16384_S1x16384_0_0 : ∀ a, (![0, 0] : Fin 2 → Nat) a + S1x16384.size a ≤ S5x16384.size a
  h_S1x16384 : 0 < S1x16384.numel
  shapeCasts_S1x16384_S1x16384 : S1x16384.ShapeCasts S1x16384
  inb_S5x16384_S1x16384_1_0 : ∀ a, (![1, 0] : Fin 2 → Nat) a + S1x16384.size a ≤ S5x16384.size a
  inb_S5x16384_S1x16384_2_0 : ∀ a, (![2, 0] : Fin 2 → Nat) a + S1x16384.size a ≤ S5x16384.size a
  inb_S5x16384_S1x16384_3_0 : ∀ a, (![3, 0] : Fin 2 → Nat) a + S1x16384.size a ≤ S5x16384.size a
  inb_S5x16384_S1x16384_4_0 : ∀ a, (![4, 0] : Fin 2 → Nat) a + S1x16384.size a ≤ S5x16384.size a
  inb_S2x16384_S1x16384_0_0 : ∀ a, (![0, 0] : Fin 2 → Nat) a + S1x16384.size a ≤ S2x16384.size a
  inb_S2x16384_S1x16384_1_0 : ∀ a, (![1, 0] : Fin 2 → Nat) a + S1x16384.size a ≤ S2x16384.size a
  transposes_S2x100000_S100000x2_1_0 : S2x100000.Transposes [1, 0] S100000x2
  gather_S4x100000_S6400000x1_S4x6400000_0_1_n_n_1_1_41_wf : GatherDims.WF S4x100000 S6400000x1 S4x6400000 [0] [1] [] [1] [] 1 ![4, 1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x128.size a ≤ S4x50000x128.size a
  hwx0_0 : ∀ i : grid0.Coords, EltTy.bits .f32 = 32 ∨ (Rect.block (s := S4x50000x128) S4x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x2000x128.size a ≤ S5x50000x128.size a
  hwx0_1 : ∀ i : grid0.Coords, EltTy.bits .f32 = 32 ∨ (Rect.block (s := S5x50000x128) S5x2000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S5x16384.size a < S5x100000.size a
  hwx1_0 : ∀ i : grid1.Coords, EltTy.bits .f32 = 32 ∨ (Rect.unit (s := S5x100000) (fun a => cc1_transform_0 i a * S5x16384.size a) (fun a => (Pipeline.Clip.of (cc1_transform_0 i a) (S5x16384.size a) (S5x100000.size a)).extent (S5x16384.size a)) fun a => Pipeline.Clip.inb (Pipeline.Clip.ok_of (hstart1_0 i a))).WholeWords (EltTy.packing .f32)
  hwxs1_0 : ∀ i : grid1.Coords, EltTy.bits .f32 = 32 ∨ (Rect.unit (s := S5x16384) (fun _ => 0) (fun a => (Pipeline.Clip.of (cc1_transform_0 i a) (S5x16384.size a) (S5x100000.size a)).extent (S5x16384.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2x16384.size a < S2x100000.size a
  hwx1_1 : ∀ i : grid1.Coords, EltTy.bits .f32 = 32 ∨ (Rect.unit (s := S2x100000) (fun a => cc1_transform_1 i a * S2x16384.size a) (fun a => (Pipeline.Clip.of (cc1_transform_1 i a) (S2x16384.size a) (S2x100000.size a)).extent (S2x16384.size a)) fun a => Pipeline.Clip.inb (Pipeline.Clip.ok_of (hstart1_1 i a))).WholeWords (EltTy.packing .f32)
  hwxs1_1 : ∀ i : grid1.Coords, EltTy.bits .f32 = 32 ∨ (Rect.unit (s := S2x16384) (fun _ => 0) (fun a => (Pipeline.Clip.of (cc1_transform_1 i a) (S2x16384.size a) (S2x100000.size a)).extent (S2x16384.size a)) fun a => (Nat.zero_add _).trans_le (Pipeline.Clip.extent_le (Pipeline.Clip.ok_of (hstart1_1 i a)))).WholeWords (EltTy.packing .f32)

variable [Facts₀]

def gather_S4x100000_S6400000x1_S4x6400000_0_1_n_n_1_1_41 : GatherDims S4x100000 S6400000x1 S4x6400000 where
  offsetDims := [0]
  collapsedSliceDims := [1]
  operandBatchingDims := []
  startIndicesBatchingDims := []
  startIndexMap := [1]
  indexVectorDim := 1
  sliceSizes := ![4, 1]
  wf := gather_S4x100000_S6400000x1_S4x6400000_0_1_n_n_1_1_41_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v9) S4x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5x2000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v42) S5x16384.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v43) S2x16384.size cc1_transform_1 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x6400000 : Shape := ⟨2, ![2, 6400000]⟩
abbrev S100000x4 : Shape := ⟨2, ![100000, 4]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S6400000x2 : Shape := ⟨2, ![6400000, 2]⟩
abbrev S100000 : Shape := ⟨1, ![100000]⟩
abbrev S100000x1 : Shape := ⟨2, ![100000, 1]⟩

abbrev nBuf : Space → Nat
  | .hbm => 172
  | .vmem => 0
  | .smem => 0
  | _ => 0

abbrev hbmTy0_0 (i : Nat) : BufTy := match i % 128 with
  | 0 => ⟨S100000x2, .f32⟩
  | 1 => ⟨S100000x2, .f32⟩
  | 2 => ⟨S2x6400000, .i32⟩
  | 3 => ⟨S100000x4, .f32⟩
  | 4 => ⟨S1x6400000, .i32⟩
  | 5 => ⟨S6400000, .i32⟩
  | 6 => ⟨S1x6400000, .i32⟩
  | 7 => ⟨S6400000, .i32⟩
  | 8 => ⟨S_, .i32⟩
  | 9 => ⟨S6400000, .i32⟩
  | 10 => ⟨S6400000, .i1⟩
  | 11 => ⟨S_, .i32⟩
  | 12 => ⟨S6400000, .i32⟩
  | 13 => ⟨S6400000, .i32⟩
  | 14 => ⟨S6400000, .i32⟩
  | 15 => ⟨S6400000x1, .i32⟩
  | 16 => ⟨S6400000x4, .f32⟩
  | 17 => ⟨S_, .i32⟩
  | 18 => ⟨S6400000, .i32⟩
  | 19 => ⟨S6400000, .i1⟩
  | 20 => ⟨S_, .i32⟩
  | 21 => ⟨S6400000, .i32⟩
  | 22 => ⟨S6400000, .i32⟩
  | 23 => ⟨S6400000, .i32⟩
  | 24 => ⟨S6400000x1, .i32⟩
  | 25 => ⟨S6400000x4, .f32⟩
  | 26 => ⟨S6400000x4, .f32⟩
  | 27 => ⟨S6400000x1, .f32⟩
  | 28 => ⟨S6400000x1, .f32⟩
  | 29 => ⟨S_, .f32⟩
  | 30 => ⟨S6400000x1, .f32⟩
  | 31 => ⟨S6400000x1, .f32⟩
  | 32 => ⟨S6400000x1, .f32⟩
  | 33 => ⟨S_, .f32⟩
  | 34 => ⟨S6400000x1, .f32⟩
  | 35 => ⟨S6400000x1, .f32⟩
  | 36 => ⟨S6400000x1, .f32⟩
  | 37 => ⟨S6400000x1, .f32⟩
  | 38 => ⟨S_, .f32⟩
  | 39 => ⟨S6400000x1, .f32⟩
  | 40 => ⟨S6400000x1, .f32⟩
  | 41 => ⟨S_, .f32⟩
  | 42 => ⟨S6400000x1, .f32⟩
  | 43 => ⟨S6400000x1, .f32⟩
  | 44 => ⟨S6400000x1, .f32⟩
  | 45 => ⟨S_, .f32⟩
  | 46 => ⟨S6400000x1, .f32⟩
  | 47 => ⟨S6400000x1, .f32⟩
  | 48 => ⟨S6400000x1, .f32⟩
  | 49 => ⟨S6400000x1, .f32⟩
  | 50 => ⟨S_, .f32⟩
  | 51 => ⟨S6400000x1, .f32⟩
  | 52 => ⟨S6400000x1, .f32⟩
  | 53 => ⟨S_, .f32⟩
  | 54 => ⟨S6400000x1, .f32⟩
  | 55 => ⟨S6400000x1, .f32⟩
  | 56 => ⟨S6400000x1, .f32⟩
  | 57 => ⟨S6400000x1, .f32⟩
  | 58 => ⟨S_, .f32⟩
  | 59 => ⟨S6400000x1, .f32⟩
  | 60 => ⟨S6400000x1, .f32⟩
  | 61 => ⟨S_, .f32⟩
  | 62 => ⟨S6400000x1, .f32⟩
  | 63 => ⟨S6400000x1, .f32⟩
  | 64 => ⟨S_, .f32⟩
  | 65 => ⟨S6400000x1, .f32⟩
  | 66 => ⟨S6400000x1, .f32⟩
  | 67 => ⟨S_, .f32⟩
  | 68 => ⟨S6400000x1, .f32⟩
  | 69 => ⟨S6400000x1, .f32⟩
  | 70 => ⟨S6400000x1, .f32⟩
  | 71 => ⟨S_, .f32⟩
  | 72 => ⟨S6400000x1, .f32⟩
  | 73 => ⟨S6400000x1, .f32⟩
  | 74 => ⟨S6400000x4, .f32⟩
  | 75 => ⟨S_, .f32⟩
  | 76 => ⟨S6400000x4, .f32⟩
  | 77 => ⟨S6400000x4, .i1⟩
  | 78 => ⟨S_, .i1⟩
  | 79 => ⟨S6400000, .i1⟩
  | 80 => ⟨S6400000x1, .i1⟩
  | 81 => ⟨S_, .f32⟩
  | 82 => ⟨S_, .f32⟩
  | 83 => ⟨S6400000x4, .i1⟩
  | 84 => ⟨S6400000x4, .f32⟩
  | 85 => ⟨S6400000x4, .f32⟩
  | 86 => ⟨S6400000x2, .f32⟩
  | 87 => ⟨S_, .f32⟩
  | 88 => ⟨S100000x2, .f32⟩
  | 89 => ⟨S6400000x1, .i32⟩
  | 90 => ⟨S100000x2, .f32⟩
  | 91 => ⟨S6400000x2, .f32⟩
  | 92 => ⟨S_, .f32⟩
  | 93 => ⟨S100000x2, .f32⟩
  | 94 => ⟨S6400000x1, .i32⟩
  | 95 => ⟨S100000x2, .f32⟩
  | 96 => ⟨S_, .f32⟩
  | 97 => ⟨S6400000, .f32⟩
  | 98 => ⟨S_, .f32⟩
  | 99 => ⟨S100000, .f32⟩
  | 100 => ⟨S6400000x1, .i32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x2, .f32⟩
  | 107 => ⟨S100000x2, .f32⟩
  | 108 => ⟨S100000x4, .f32⟩
  | 109 => ⟨S100000x1, .f32⟩
  | 110 => ⟨S100000x1, .f32⟩
  | 111 => ⟨S100000x1, .f32⟩
  | 112 => ⟨S100000x1, .f32⟩
  | 113 => ⟨S_, .f32⟩
  | 114 => ⟨S100000x1, .f32⟩
  | 115 => ⟨S100000x1, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x1, .f32⟩
  | 122 => ⟨S100000x1, .f32⟩
  | 123 => ⟨S_, .f32⟩
  | 124 => ⟨S100000x1, .f32⟩
  | 125 => ⟨S100000x1, .f32⟩
  | 126 => ⟨S_, .f32⟩
  | 127 => ⟨S100000x1, .f32⟩
  | _ => ⟨S100000x2, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x1, .f32⟩
  | 4 => ⟨S100000x1, .f32⟩
  | 5 => ⟨S100000x1, .f32⟩
  | 6 => ⟨S_, .f32⟩
  | 7 => ⟨S100000x1, .f32⟩
  | 8 => ⟨S100000x1, .f32⟩
  | 9 => ⟨S100000x1, .f32⟩
  | 10 => ⟨S_, .f32⟩
  | 11 => ⟨S100000x1, .f32⟩
  | 12 => ⟨S100000x1, .f32⟩
  | 13 => ⟨S100000x1, .f32⟩
  | 14 => ⟨S_, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000x1, .f32⟩
  | 25 => ⟨S100000x1, .f32⟩
  | 26 => ⟨S_, .f32⟩
  | 27 => ⟨S100000x1, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x1, .f32⟩
  | 38 => ⟨S_, .f32⟩
  | 39 => ⟨S100000x1, .f32⟩
  | 40 => ⟨S100000x1, .f32⟩
  | 41 => ⟨S100000x1, .f32⟩
  | 42 => ⟨S100000x1, .f32⟩
  | 43 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_c_15 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_19 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_v92 : Ref sig .tc := ⟨.hbm, 125, rfl⟩
abbrev main_cst_25 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_26 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_27 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_28 : Ref sig .tc := ⟨.hbm, 142, rfl⟩
abbrev main_v106 : Ref sig .tc := ⟨.hbm, 143, rfl⟩
abbrev main_v107 : Ref sig .tc := ⟨.hbm, 144, rfl⟩
abbrev main_cst_29 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_30 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_31 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_32 : Ref sig .tc := ⟨.hbm, 159, rfl⟩
abbrev main_v119 : Ref sig .tc := ⟨.hbm, 160, rfl⟩
abbrev main_v120 : Ref sig .tc := ⟨.hbm, 161, rfl⟩
abbrev main_cst_33 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_34 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩

abbrev nD : Nat := 1
abbrev τ : Topo := Topo.v7x

variable {F : FTy → Type} [FloatOps F]

class Facts₀ : Prop where
  concatenates_S100000x2_S100000x2_S100000x4_d1 : Shape.Concatenates [S100000x2, S100000x2] S100000x4 1
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x4_S6400000x1_0_0 : S6400000x4.Slices ![0, 0] S6400000x1
  slices_S6400000x4_S6400000x1_0_1 : S6400000x4.Slices ![0, 1] S6400000x1
  bcast_S_S6400000x1 : S_.BroadcastsInDim S6400000x1 (![] : Fin 0 → Fin S6400000x1.rank)
  concatenates_S6400000x1_S6400000x1_S6400000x1_S6400000x1_S6400000x4_d1 : Shape.Concatenates [S6400000x1, S6400000x1, S6400000x1, S6400000x1] S6400000x4 1
  bcast_S_S6400000x4 : S_.BroadcastsInDim S6400000x4 (![] : Fin 0 → Fin S6400000x4.rank)
  reducesTo_S6400000x4_S6400000_d1 : S6400000x4.ReducesTo [1] S6400000
  h_S_ : 0 < S_.numel
  bcast_S6400000x1_S6400000x4_0_1 : S6400000x1.BroadcastsInDim S6400000x4 (![0, 1] : Fin 2 → Fin S6400000x4.rank)
  slices_S6400000x4_S6400000x2_0_2 : S6400000x4.Slices ![0, 2] S6400000x2
  bcast_S_S100000x2 : S_.BroadcastsInDim S100000x2 (![] : Fin 0 → Fin S100000x2.rank)
  slices_S6400000x4_S6400000x2_0_0 : S6400000x4.Slices ![0, 0] S6400000x2
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x2_0_1 : S100000x1.BroadcastsInDim S100000x2 (![0, 1] : Fin 2 → Fin S100000x2.rank)
  slices_S100000x4_S100000x1_0_0 : S100000x4.Slices ![0, 0] S100000x1
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  concatenates_S100000x1_S100000x1_S100000x2_d1 : Shape.Concatenates [S100000x1, S100000x1] S100000x2 1
  gather_S100000x4_S6400000x1_S6400000x4_1_0_n_n_0_1_14_wf : GatherDims.WF S100000x4 S6400000x1 S6400000x4 [1] [0] [] [0] [] 1 ![1, 4]
  scatter_S100000x2_S6400000x1_S6400000x2_1_0_0_1_wf : ScatterDims.WF S100000x2 S6400000x1 S6400000x2 [1] [0] [0] 1
  scatter_S100000_S6400000x1_S6400000_n_0_0_1_wf : ScatterDims.WF S100000 S6400000x1 S6400000 [] [0] [0] 1

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.KIEdge.lean ====
import proofs.«402730_j53644141527384_3_alg».proof.Proof.Gen.KernelIdeal.Launch
import proofs.«402730_j53644141527384_3_alg».proof.Proof.Gen.KernelIdeal.Skeleton
import proofs.«402730_j53644141527384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The edge-message region: the body obligation of the first pipelined call

The first pipelined call walks a grid of 25 points.  At a point the body finds a block of four channel
slabs of 2000 x 128 words in its input window, and leaves five slabs of the same extent in its output
window: every one of the five is stored whole, and each stored value is a function of the four input
slabs alone.  (The body also loads each output slab before it overwrites it; no stored value depends on
what such a load returns.)  So what the body leaves in the output buffer is a closed function of the input
block, the five stored slabs laid side by side, and the body's triple follows by running the body's
memory operations in order.
-/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    array is the entry contents and whose body leaves the block in place: the window is never cut and
    never idle, and an unfetched point has the block index of the point before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the four channel slabs it reads, the five it writes -/

abbrev rin0 : Rect S4x2000x128 := Rect.unit (s := S4x2000x128) ![0, 0, 0] S1x2000x128.size inb_S4x2000x128_S1x2000x128_0_0_0
abbrev rin1 : Rect S4x2000x128 := Rect.unit (s := S4x2000x128) ![1, 0, 0] S1x2000x128.size inb_S4x2000x128_S1x2000x128_1_0_0
abbrev rin2 : Rect S4x2000x128 := Rect.unit (s := S4x2000x128) ![2, 0, 0] S1x2000x128.size inb_S4x2000x128_S1x2000x128_2_0_0
abbrev rin3 : Rect S4x2000x128 := Rect.unit (s := S4x2000x128) ![3, 0, 0] S1x2000x128.size inb_S4x2000x128_S1x2000x128_3_0_0

abbrev rout0 : Rect S5x2000x128 := Rect.unit (s := S5x2000x128) ![0, 0, 0] S1x2000x128.size inb_S5x2000x128_S1x2000x128_0_0_0
abbrev rout1 : Rect S5x2000x128 := Rect.unit (s := S5x2000x128) ![1, 0, 0] S1x2000x128.size inb_S5x2000x128_S1x2000x128_1_0_0
abbrev rout2 : Rect S5x2000x128 := Rect.unit (s := S5x2000x128) ![2, 0, 0] S1x2000x128.size inb_S5x2000x128_S1x2000x128_2_0_0
abbrev rout3 : Rect S5x2000x128 := Rect.unit (s := S5x2000x128) ![3, 0, 0] S1x2000x128.size inb_S5x2000x128_S1x2000x128_3_0_0
abbrev rout4 : Rect S5x2000x128 := Rect.unit (s := S5x2000x128) ![4, 0, 0] S1x2000x128.size inb_S5x2000x128_S1x2000x128_4_0_0

/-! ## What the body leaves in the output window's buffer -/

/-- The output staging buffer after the body, from the input block: its five stores as pieces, the last
    store first.  Slab 4 is the constant one; slabs 3, 2, 1, 0 are the four messages, each zeroed where the
    four input channels are all zero. -/
def out0_1 (x0 : Vec F S4x2000x128 .f32) : Vec F S5x2000x128 .f32 :=
  View.canon
    [⟨rout4, k0_pay1 (k0_pay12 (F := F))⟩,
     ⟨rout3, k0_pay11 (k0_pay2 (View.ld x0 rin0)) (k0_pay3 (View.ld x0 rin1))
        (k0_pay4 (View.ld x0 rin0) (View.ld x0 rin1) (View.ld x0 rin2) (View.ld x0 rin3))⟩,
     ⟨rout2, k0_pay10 (k0_pay2 (View.ld x0 rin0))
        (k0_pay4 (View.ld x0 rin0) (View.ld x0 rin1) (View.ld x0 rin2) (View.ld x0 rin3))⟩,
     ⟨rout1, k0_pay9 (k0_pay4 (View.ld x0 rin0) (View.ld x0 rin1) (View.ld x0 rin2) (View.ld x0 rin3))
        (k0_pay6 (View.ld x0 rin0) (View.ld x0 rin1))⟩,
     ⟨rout0, k0_pay8 (k0_pay4 (View.ld x0 rin0) (View.ld x0 rin1) (View.ld x0 rin2) (View.ld x0 rin3))
        (k0_pay5 (View.ld x0 rin0) (View.ld x0 rin1))⟩]

/-- The five stored slabs tile the buffer, so they cover it. -/
theorem cover0_1 (p4 p3 p2 p1 p0 : Vec F S1x2000x128 .f32) (y : S5x2000x128.Idx) :
    ∃ pc ∈ ([⟨rout4, p4⟩, ⟨rout3, p3⟩, ⟨rout2, p2⟩, ⟨rout1, p1⟩, ⟨rout0, p0⟩] : List (View.Piece (Elt F) S5x2000x128 .f32)), y ∈ pc.1.set :=
  View.cover_of_tiled [⟨rout4, p4⟩, ⟨rout3, p3⟩, ⟨rout2, p2⟩, ⟨rout1, p1⟩, ⟨rout0, p0⟩] S1x2000x128.size (by rfl) y

/-! ## The body's triple -/

set_option maxHeartbeats 1000000 in
/-- The kernel body on whole staging memrefs, the input's at read contents x0 and the output's at anything,
    runs to the continuation holding the input's as it was and the output's at out0_1 x0: the printed
    functions are their skeletons, whose memory operations run in order through both part calls.  The five
    loads of the output buffer return values no store's payload reads. -/
theorem sound_kernel0 (c : Dev nD) (E : Set ℕ) (i : grid0.Coords)
    (arg1 : Memref sig .tc .vmem S4x2000x128 .f32) (harg1 : arg1.IsWhole)
    (arg2 : Memref sig .tc .vmem S5x2000x128 .f32) (harg2 : arg2.IsWhole)
    (x0 : Vec F S4x2000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__edge_msg_kernel i arg1 harg1 arg2 harg2) K := by
  simp only [cc0__edge_msg_kernel_eq_skeleton]; unfold cc0__edge_msg_kernel_skel
  simp only [k0_part1_eq_skeleton, k0_part2_eq_skeleton]; unfold k0_part1_skel k0_part2_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _ _)

/-! ## The pipeline's proof data -/

/-- The proof data of the first pipeline on core c: the arrays as the region finds them; after the body at
    point t the input's buffer at its block and the output's at out0_1 of the input block; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the kernel's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KINode.lean ====
/-
  Region 1 of @main, the node-update kernel: its body obligation on the pipeline's two windows, both of whose last
  block overhangs the array (100000 columns in blocks of 16384: six whole blocks and one of 1696 columns).

  The body reads the five rows of its input block and writes two rows, every operation pointwise: column j of the
  output block depends on column j of the input block only (`out1_1_congr_col`). A fetch of an overhanging block
  leaves, past the array's end, contents nothing names; what the body computes from them stays in the columns past
  the array's end, which no write-back moves. So the obligation is stated on the columns inside the array only: each
  staging buffer is handed back as its stated contents filled out, past the array's end, with whatever is there.
-/
import proofs.«402730_j53644141527384_3_alg».proof.Proof.Gen.KernelIdeal.Launch
import proofs.«402730_j53644141527384_3_alg».proof.Proof.Gen.KernelIdeal.Skeleton
import proofs.«402730_j53644141527384_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic
import Idealize.ShloMosaic.Lib.ValueIdx
import Idealize.ShloMosaic.Lib.Pipeline.Value

-- the blocks are 16384 columns wide
set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it: the block's part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: row `k` of the input block, row `k` of the output block -/

abbrev rI0 : Rect S5x16384 := Rect.unit (s := S5x16384) ![0, 0] S1x16384.size inb_S5x16384_S1x16384_0_0
abbrev rI1 : Rect S5x16384 := Rect.unit (s := S5x16384) ![1, 0] S1x16384.size inb_S5x16384_S1x16384_1_0
abbrev rI2 : Rect S5x16384 := Rect.unit (s := S5x16384) ![2, 0] S1x16384.size inb_S5x16384_S1x16384_2_0
abbrev rI3 : Rect S5x16384 := Rect.unit (s := S5x16384) ![3, 0] S1x16384.size inb_S5x16384_S1x16384_3_0
abbrev rI4 : Rect S5x16384 := Rect.unit (s := S5x16384) ![4, 0] S1x16384.size inb_S5x16384_S1x16384_4_0
abbrev rO0 : Rect S2x16384 := Rect.unit (s := S2x16384) ![0, 0] S1x16384.size inb_S2x16384_S1x16384_0_0
abbrev rO1 : Rect S2x16384 := Rect.unit (s := S2x16384) ![1, 0] S1x16384.size inb_S2x16384_S1x16384_1_0

/-! ## What the body leaves in the output window's buffer -/

/-- Row 0 of the output block, from the input block's five rows. -/
def row0 (x0 : Vec F S5x16384 .f32) : FVec F S1x16384 .f32 :=
  k1_pay2 (k1_pay6 (View.ld x0 rI0) (View.ld x0 rI4)) (k1_pay8 (View.ld x0 rI0) (View.ld x0 rI1) (View.ld x0 rI2) (View.ld x0 rI4))
    (k1_pay9 (View.ld x0 rI0) (View.ld x0 rI1) (View.ld x0 rI3) (View.ld x0 rI4)) (k1_pay10 (View.ld x0 rI1) (View.ld x0 rI2) (View.ld x0 rI4))
    (k1_pay11 (View.ld x0 rI0) (View.ld x0 rI4)) (k1_pay12 (F := F))

/-- Row 1 of the output block. -/
def row1 (x0 : Vec F S5x16384 .f32) : FVec F S1x16384 .f32 :=
  k1_pay3 (k1_pay6 (View.ld x0 rI0) (View.ld x0 rI4)) (k1_pay8 (View.ld x0 rI0) (View.ld x0 rI1) (View.ld x0 rI2) (View.ld x0 rI4))
    (k1_pay9 (View.ld x0 rI0) (View.ld x0 rI1) (View.ld x0 rI3) (View.ld x0 rI4)) (k1_pay10 (View.ld x0 rI1) (View.ld x0 rI2) (View.ld x0 rI4))
    (k1_pay11 (View.ld x0 rI0) (View.ld x0 rI4)) (k1_pay12 (F := F))

/-- The output window's staging buffer after the body, from the input window's block: its two row stores as pieces,
    the last store first. -/
def out1_1 (x0 : Vec F S5x16384 .f32) : Vec F S2x16384 .f32 :=
  View.canon [⟨rO1, row1 x0⟩, ⟨rO0, row0 x0⟩]

/-- The two row stores tile the buffer, so they cover it. -/
theorem cover1_1 (p1 p0 : Vec F S1x16384 .f32) (y : S2x16384.Idx) :
    ∃ pc ∈ ([⟨rO1, p1⟩, ⟨rO0, p0⟩] : List (View.Piece (Elt F) S2x16384 .f32)), y ∈ pc.1.set :=
  View.cover_of_tiled [⟨rO1, p1⟩, ⟨rO0, p0⟩] S1x16384.size (by rfl) y

/-! ## The body's triple -/

set_option maxHeartbeats 1000000 in
/-- The kernel body on whole staging memrefs, the input's at read contents `x0` and the output's at anything, runs to
    the continuation holding the input's as it was and the output's at `out1_1 x0`: the printed functions are their
    skeletons, five row loads, then per output row a load nothing reads and the row's store. -/
theorem sound_kernel1 (c : Dev nD) (E : Set ℕ) (i : grid1.Coords) (arg1 : Memref sig .tc .vmem S5x16384 .f32) (harg1 : arg1.IsWhole)
    (arg2 : Memref sig .tc .vmem S2x16384 .f32) (harg2 : arg2.IsWhole)
    (x0 : Vec F S5x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__node_final_kernel i arg1 harg1 arg2 harg2) K := by
  simp only [cc1__node_final_kernel_eq_skeleton, k1_part1_eq_skeleton]
  unfold cc1__node_final_kernel_skel
  simp only [k1_part1_eq_skeleton]
  unfold k1_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _ _)

/-! ## The output block at an index: row by row -/

section AtIndex
open Idealize.ShloMosaic.ValueIdx

/-- Row `k` of the input block at column `j` is the block at `(k, j)`. -/
theorem idx_rI0 (j : Fin 16384) : rI0.idx (ix2 (0 : Fin 1) j) = ix2 (0 : Fin 5) j :=
  Shape.idx_ext₂ (by rw [LoadRect.idx_apply]; show 0 + 1 * 0 = (0 : ℕ); rfl) (by rw [LoadRect.idx_apply]; show 0 + 1 * j.val = j.val; omega)
theorem idx_rI1 (j : Fin 16384) : rI1.idx (ix2 (0 : Fin 1) j) = ix2 (1 : Fin 5) j :=
  Shape.idx_ext₂ (by rw [LoadRect.idx_apply]; show 1 + 1 * 0 = (1 : ℕ); rfl) (by rw [LoadRect.idx_apply]; show 0 + 1 * j.val = j.val; omega)
theorem idx_rI2 (j : Fin 16384) : rI2.idx (ix2 (0 : Fin 1) j) = ix2 (2 : Fin 5) j :=
  Shape.idx_ext₂ (by rw [LoadRect.idx_apply]; show 2 + 1 * 0 = (2 : ℕ); rfl) (by rw [LoadRect.idx_apply]; show 0 + 1 * j.val = j.val; omega)
theorem idx_rI3 (j : Fin 16384) : rI3.idx (ix2 (0 : Fin 1) j) = ix2 (3 : Fin 5) j :=
  Shape.idx_ext₂ (by rw [LoadRect.idx_apply]; show 3 + 1 * 0 = (3 : ℕ); rfl) (by rw [LoadRect.idx_apply]; show 0 + 1 * j.val = j.val; omega)
theorem idx_rI4 (j : Fin 16384) : rI4.idx (ix2 (0 : Fin 1) j) = ix2 (4 : Fin 5) j :=
  Shape.idx_ext₂ (by rw [LoadRect.idx_apply]; show 4 + 1 * 0 = (4 : ℕ); rfl) (by rw [LoadRect.idx_apply]; show 0 + 1 * j.val = j.val; omega)

theorem emb_rO0 (j : Fin 16384) : rO0.emb (ix2 (0 : Fin 1) j) = ix2 (0 : Fin 2) j :=
  Shape.idx_ext₂ (by rw [Rect.emb_apply]; show 0 + 1 * 0 = (0 : ℕ); rfl) (by rw [Rect.emb_apply]; show 0 + 1 * j.val = j.val; omega)
theorem emb_rO1 (j : Fin 16384) : rO1.emb (ix2 (0 : Fin 1) j) = ix2 (1 : Fin 2) j :=
  Shape.idx_ext₂ (by rw [Rect.emb_apply]; show 1 + 1 * 0 = (1 : ℕ); rfl) (by rw [Rect.emb_apply]; show 0 + 1 * j.val = j.val; omega)

/-- Row 1 of the output block is the last store's payload. -/
theorem out1_1_row1 (x0 : Vec F S5x16384 .f32) (j : Fin 16384) :
    out1_1 x0 (ix2 (1 : Fin 2) j) = row1 x0 (ix2 (0 : Fin 1) j) := by
  have h := View.canon_cons_emb (Val := Elt F) (s := S2x16384) (e := .f32) rO1 (row1 x0) [⟨rO0, row0 x0⟩] (ix2 (0 : Fin 1) j)
  rw [emb_rO1] at h
  exact h

/-- Row 0 lies off the last store and is the first store's payload. -/
theorem out1_1_row0 (x0 : Vec F S5x16384 .f32) (j : Fin 16384) :
    out1_1 x0 (ix2 (0 : Fin 2) j) = row0 x0 (ix2 (0 : Fin 1) j) := by
  have hn : ix2 (0 : Fin 2) j ∉ (⟨rO1, row1 x0⟩ : View.Piece (Elt F) S2x16384 .f32).1.set := by
    show ix2 (0 : Fin 2) j ∉ rO1.set
    rw [Rect.mem_set_unit]
    intro h
    have h0 : (1 : ℕ) ≤ 0 := (h 0).1
    omega
  have h := View.canon_cons_emb (Val := Elt F) (s := S2x16384) (e := .f32) rO0 (row0 x0) [] (ix2 (0 : Fin 1) j)
  rw [emb_rO0] at h
  unfold out1_1
  rw [View.canon_cons_of_not_mem (Val := Elt F) (s := S2x16384) (e := .f32) _ _ hn]
  exact h

end AtIndex

/-! ## The body is column-local -/

section ColumnLocal
open Idealize.ShloMosaic.ValueIdx

/-- Every operation of the body is pointwise, so at an index of a row the two output rows depend on the five input
    rows at that index only. -/
theorem row0_congr (x x' : Vec F S5x16384 .f32) (i : S1x16384.Idx)
    (h0 : x (rI0.idx i) = x' (rI0.idx i)) (h1 : x (rI1.idx i) = x' (rI1.idx i)) (h2 : x (rI2.idx i) = x' (rI2.idx i))
    (h3 : x (rI3.idx i) = x' (rI3.idx i)) (h4 : x (rI4.idx i) = x' (rI4.idx i)) : row0 x i = row0 x' i := by
  simp only [row0, k1_pay1, k1_pay2, k1_pay4, k1_pay5, k1_pay6, k1_pay7, k1_pay8, k1_pay9, k1_pay10, k1_pay11, k1_pay12,
    shapeCast_self, mulf, addf, subf, divf, maximumf, broadcast, View.ld, h0, h1, h2, h3, h4]

theorem row1_congr (x x' : Vec F S5x16384 .f32) (i : S1x16384.Idx)
    (h0 : x (rI0.idx i) = x' (rI0.idx i)) (h1 : x (rI1.idx i) = x' (rI1.idx i)) (h2 : x (rI2.idx i) = x' (rI2.idx i))
    (h3 : x (rI3.idx i) = x' (rI3.idx i)) (h4 : x (rI4.idx i) = x' (rI4.idx i)) : row1 x i = row1 x' i := by
  simp only [row1, k1_pay1, k1_pay3, k1_pay4, k1_pay5, k1_pay6, k1_pay7, k1_pay8, k1_pay9, k1_pay10, k1_pay11, k1_pay12,
    shapeCast_self, mulf, addf, subf, divf, maximumf, broadcast, View.ld, h0, h1, h2, h3, h4]

/-- Column `j` of the output block depends on column `j` of the input block only. -/
theorem out1_1_congr_col (x x' : Vec F S5x16384 .f32) (j : Fin 16384)
    (h : ∀ k : Fin 5, x (ix2 k j) = x' (ix2 k j)) (k' : Fin 2) : out1_1 x (ix2 k' j) = out1_1 x' (ix2 k' j) := by
  have h0 := h 0; have h1 := h 1; have h2 := h 2; have h3 := h 3; have h4 := h 4
  rw [← idx_rI0] at h0; rw [← idx_rI1] at h1; rw [← idx_rI2] at h2; rw [← idx_rI3] at h3; rw [← idx_rI4] at h4
  match k' with
  | ⟨0, _⟩ => exact (out1_1_row0 x j).trans ((row0_congr x x' _ h0 h1 h2 h3 h4).trans (out1_1_row0 x' j).symm)
  | ⟨1, _⟩ => exact (out1_1_row1 x j).trans ((row1_congr x x' _ h0 h1 h2 h3 h4).trans (out1_1_row1 x' j).symm)

end ColumnLocal

/-! ## The two windows cut alike -/

section Cut
open Idealize.ShloMosaic.ValueIdx

/-- At every point the input window's block keeps its five rows, and the two windows' blocks keep the same leading
    columns (one index map, one block width, one array width): decided over the grid. -/
theorem xsize_facts (t : Fin cfg1.N) :
    (cfg1.win 0).xsize (cfg1.grid.coords t) 0 = 5
      ∧ (cfg1.win 1).xsize (cfg1.grid.coords t) 1 = (cfg1.win 0).xsize (cfg1.grid.coords t) 1 :=
  (by decide +kernel : ∀ t : Fin grid1.N, win1_0.xsize (grid1.coords t) 0 = 5
      ∧ win1_1.xsize (grid1.coords t) 1 = win1_0.xsize (grid1.coords t) 1) t

/-- The output block's columns inside the array do not see what fills the input block out past the array's end: a
    column the write-back moves is a column the fetch filled, and the body is column-local. -/
theorem cut_out1_1_fill (t : Fin cfg1.N) (d d' : S5x16384.Idx → Elt F .f32)
    (X : ((cfg1.win 0).xblock (cfg1.grid.coords t)).Idx → Elt F .f32) :
    (cfg1.win 1).cut (cfg1.grid.coords t) (out1_1 ((cfg1.win 0).fill (cfg1.grid.coords t) d X))
      = (cfg1.win 1).cut (cfg1.grid.coords t) (out1_1 ((cfg1.win 0).fill (cfg1.grid.coords t) d' X)) := by
  funext j
  obtain ⟨h5, hc⟩ := xsize_facts t
  have hj1 : (j 1).val < (cfg1.win 0).xsize (cfg1.grid.coords t) 1 := hc ▸ (j 1).isLt
  show out1_1 _ ((cfg1.win 1).xinj (cfg1.grid.coords t) j) = out1_1 _ ((cfg1.win 1).xinj (cfg1.grid.coords t) j)
  rw [eq_ix2 ((cfg1.win 1).xinj (cfg1.grid.coords t) j)]
  refine out1_1_congr_col _ _ _ (fun k => ?_) _
  have hm : (cfg1.win 0).moved (cfg1.grid.coords t) (ix2 k (((cfg1.win 1).xinj (cfg1.grid.coords t) j) 1)) = true :=
    ((cfg1.win 0).moved_iff _ _).mpr fun a => match a with
      | ⟨0, _⟩ => lt_of_lt_of_eq k.isLt h5.symm
      | ⟨1, _⟩ => hj1
  unfold Window.fill
  rw [dif_pos hm, dif_pos hm]

end Cut

/-! ## The pipeline's proof data -/

/-- The proof data of pipeline 1 on core `c`: the arrays as the region finds them; after the body at point `t` the
    input's buffer at its block and the output's at `out1_1` of it, the block filled out past the array's end with the
    zero word (a filler the proof picks and nothing reads: both windows are stated on the columns inside the array
    only); the invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => (cfg1.win 0).fill (cfg1.grid.coords t) (fun _ => Scalar.ofBits .f32 0#32) (iblk1 V c 0 t)
    | ⟨1, _⟩ => out1_1 ((cfg1.win 0).fill (cfg1.grid.coords t) (fun _ => Scalar.ofBits .f32 0#32) (iblk1 V c 0 t))
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) :
    (dat1 V c).after 0 t = (cfg1.win 0).fill (cfg1.grid.coords t) (fun _ => Scalar.ofBits .f32 0#32) (iblk1 V c 0 t) := by
  dsimp only [dat1]
theorem after1_1 (c : Dev nD) (t : Fin cfg1.N) :
    (dat1 V c).after 1 t = out1_1 ((cfg1.win 0).fill (cfg1.grid.coords t) (fun _ => Scalar.ofBits .f32 0#32) (iblk1 V c 0 t)) := by
  dsimp only [dat1]

/-- What the body finds in the input's buffer: just fetched at every point, the block on the columns inside the
    array and `d`, anything, past its end. -/
theorem before1_0 (c : Dev nD) (t : Fin cfg1.N) (d) :
    (dat1 V c).before 0 t d = (cfg1.win 0).fill (cfg1.grid.coords t) d (iblk1 V c 0 t) := by
  unfold Dat.before; rw [if_pos (fetch1_0 t)]
  unfold Dat.fetched Dat.blockOf iblk1; rw [A_eq1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns: each buffer stated on the columns inside the array, anything past its end. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ (∃ d, owns (c : Thread nD τ) (st1_1 t) fullShare
        ((cfg1.win 1).fill (cfg1.grid.coords t) d ((cfg1.win 1).cut (cfg1.grid.coords t) ((dat1 V c).after 1 t)))))

/-- The body at any point. The input's buffer holds its block filled out with some `d₀`; the body leaves it so and the
    output's buffer at `out1_1` of that. On the columns inside the array these are the stated contents: the input's by
    cutting what was filled, the output's because those columns do not depend on `d₀` (`cut_out1_1_fill`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ ((cfg1.win 0).fill (cfg1.grid.coords t) d0 (iblk1 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [(cfg1.win 0).cut_fill]
    iexact H0
  · iexists out1_1 ((cfg1.win 0).fill (cfg1.grid.coords t) d0 (iblk1 V c 0 t))
    rw [(cfg1.win 1).fill_congr_cut (cfg1.grid.coords t) (cut_out1_1_fill t d0 _ (iblk1 V c 0 t))]
    iexact H1

/-- The library's body obligation, at every point: no point is idle and both windows are stated on the part their
    transfers move. -/
theorem body_obligation1 (c : Dev nD) : BodyObligationLoose (dat1 (F := F) V c) (defs₀ (F := F)) Variants.none () Set.univ := fun t => by
  rw [bigSep_W1, bigSep_W1]
  exact sound_body1 V c t

end Cert.KernelIdeal.Hand

end
-- ==== Proof.KIRun.lean ====
import proofs.«402730_j53644141527384_3_alg».proof.Proof.KIEdge
import proofs.«402730_j53644141527384_3_alg».proof.Proof.KINode
import proofs.«402730_j53644141527384_3_alg».proof.Proof.Gen.KernelIdeal.Regions
import Idealize.ShloMosaic.Lib.Pipeline.Kit

/-!
# The run of the whole program

@main is eight items in a row: four stretches of host operations, the first pipelined call, a stretch, the
second pipelined call, a last stretch.  Between two items every buffer the program does not scope holds a
value that is a function of the launch memory: after a host stretch the fold of its operations' results, after
a pipelined call the call's arrays at what its write-backs leave and every other buffer as the call found it.
The launch theorem for a list of items threads these contents through, each pipelined call entered with its
arrays split off the rest and left with them put back.  Its conclusion is read two ways: every argument array
ends as launched (no item writes one), and the result buffer ends at the last fold.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev B0 : Dev nD → Valuation τ sig (Elt F) := fun c b => m ((c : Dev nD), b)
/-- After the first stretch (the node features, their transpose, the two rows of the edge table). -/
abbrev B1 : Dev nD → Valuation τ sig (Elt F) := fun c => StableHlo.after hostOps0 (B0 m c)
/-- After the second (the features picked at each edge's dst word). -/
abbrev B2 : Dev nD → Valuation τ sig (Elt F) := fun c => StableHlo.after hostOps0_1 (B1 m c)
/-- After the third (the features picked at each edge's src word). -/
abbrev B3 : Dev nD → Valuation τ sig (Elt F) := fun c => StableHlo.after hostOps0_2 (B2 m c)
/-- After the fourth (their difference, laid out for the first pipelined call). -/
abbrev B4 : Dev nD → Valuation τ sig (Elt F) := fun c => StableHlo.after hostOps0_3 (B3 m c)
/-- The same read at the core's references: what the first call's proof data take. -/
abbrev R4 : (c : Dev nD) → (b : Ref sig .tc) → Buf (Elt F) ((c : Thread nD τ).loc b) := fun c b => B4 m c b
/-- At the first call's exit: its arrays at what its write-backs leave, every other buffer as it found it. -/
def B5 (c : Dev nD) : Valuation τ sig (Elt F) :=
  Pipeline.withArrays spec0 c (B4 m c) fun w => (dat0 (R4 m) c).arrAt w cfg0.N
theorem B5_arr (c : Dev nD) (w : Fin cfg0.W) :
    B5 m c (Proc.devRef .tc (Pipeline.arrRef spec0 w)) = (dat0 (R4 m) c).arrAt w cfg0.N := by
  unfold B5; exact Pipeline.withArrays_arr spec0 launch0.win.arr_inj c _ _ w
theorem B5_of_ne (c : Dev nD) (b : Ref sig .tc) (hb : ∀ w, Pipeline.arrRef spec0 w ≠ b) :
    B5 m c (Proc.devRef .tc b) = B4 m c (Proc.devRef .tc b) := by
  unfold B5; exact Pipeline.withArrays_of_ne spec0 c _ _ b hb
abbrev R5 : (c : Dev nD) → (b : Ref sig .tc) → Buf (Elt F) ((c : Thread nD τ).loc b) := fun c b => B5 m c b
theorem hF0 (c : Dev nD) (w : Fin cfg0.W) : (dat0 (R4 m) c).arrAt w cfg0.N = R5 m c (Pipeline.arrRef spec0 w) :=
  (B5_arr m c w).symm
theorem hrest0 (c : Dev nD) : ∀ b, b ∉ Finset.univ.image (Pipeline.arrRef spec0) → R5 m c b = R4 m c b :=
  fun b hb => B5_of_ne m c b fun w e => hb (Finset.mem_image.mpr ⟨w, Finset.mem_univ _, e⟩)

/-- After the fifth stretch (the five accumulations over the edges, stacked). -/
abbrev B6 : Dev nD → Valuation τ sig (Elt F) := fun c => StableHlo.after hostOps1 (B5 m c)
abbrev R6 : (c : Dev nD) → (b : Ref sig .tc) → Buf (Elt F) ((c : Thread nD τ).loc b) := fun c b => B6 m c b
/-- At the second call's exit. -/
def B7 (c : Dev nD) : Valuation τ sig (Elt F) :=
  Pipeline.withArrays spec1 c (B6 m c) fun w => (dat1 (R6 m) c).arrAt w cfg1.N
theorem B7_arr (c : Dev nD) (w : Fin cfg1.W) :
    B7 m c (Proc.devRef .tc (Pipeline.arrRef spec1 w)) = (dat1 (R6 m) c).arrAt w cfg1.N := by
  unfold B7; exact Pipeline.withArrays_arr spec1 launch1.win.arr_inj c _ _ w
theorem B7_of_ne (c : Dev nD) (b : Ref sig .tc) (hb : ∀ w, Pipeline.arrRef spec1 w ≠ b) :
    B7 m c (Proc.devRef .tc b) = B6 m c (Proc.devRef .tc b) := by
  unfold B7; exact Pipeline.withArrays_of_ne spec1 c _ _ b hb
abbrev R7 : (c : Dev nD) → (b : Ref sig .tc) → Buf (Elt F) ((c : Thread nD τ).loc b) := fun c b => B7 m c b
theorem hF1 (c : Dev nD) (w : Fin cfg1.W) : (dat1 (R6 m) c).arrAt w cfg1.N = R7 m c (Pipeline.arrRef spec1 w) :=
  (B7_arr m c w).symm
theorem hrest1 (c : Dev nD) : ∀ b, b ∉ Finset.univ.image (Pipeline.arrRef spec1) → R7 m c b = R6 m c b :=
  fun b hb => B7_of_ne m c b fun w e => hb (Finset.mem_image.mpr ⟨w, Finset.mem_univ _, e⟩)
/-- After the last stretch (the result, transposed). -/
abbrev B8 : Dev nD → Valuation τ sig (Elt F) := fun c => StableHlo.after hostOps2 (B7 m c)

/-! ## No item writes an argument -/

theorem B8_arg (c : Dev nD) (r : Ref sig .tc) (h0 : r ∉ hostOps0_W) (h1 : r ∉ hostOps0_1_W) (h2 : r ∉ hostOps0_2_W)
    (h3 : r ∉ hostOps0_3_W) (h5 : r ∉ hostOps1_W) (h7 : r ∉ hostOps2_W)
    (ha0 : ∀ w, Pipeline.arrRef spec0 w ≠ r) (ha1 : ∀ w, Pipeline.arrRef spec1 w ≠ r) :
    B8 m c (Proc.devRef .tc r) = m ((c : Thread nD τ).loc r) :=
  (StableHlo.after_of_writes_sub hostOps2 _ hostOps2_writes h7).trans <|
  (B7_of_ne m c r ha1).trans <|
  (StableHlo.after_of_writes_sub hostOps1 _ hostOps1_writes h5).trans <|
  (B5_of_ne m c r ha0).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem B8_main_arg0 (c : Dev nD) : B8 m c (Proc.devRef .tc main_arg0) = m ((c : Thread nD τ).loc main_arg0) :=
  B8_arg m c main_arg0 (by decide) (by decide) (by decide) (by decide) (by decide) (by decide) (by decide) (by decide)
theorem B8_main_arg1 (c : Dev nD) : B8 m c (Proc.devRef .tc main_arg1) = m ((c : Thread nD τ).loc main_arg1) :=
  B8_arg m c main_arg1 (by decide) (by decide) (by decide) (by decide) (by decide) (by decide) (by decide) (by decide)
theorem B8_main_arg2 (c : Dev nD) : B8 m c (Proc.devRef .tc main_arg2) = m ((c : Thread nD τ).loc main_arg2) :=
  B8_arg m c main_arg2 (by decide) (by decide) (by decide) (by decide) (by decide) (by decide) (by decide) (by decide)

/-! ## The proof data family and the thread state -/

/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (R4 m) c
  | ⟨1, _⟩ => fun c => dat1 (R6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its
    debts, none. -/
abbrev R (c : Dev nD) : sProp 𝕄 := iprop((∃ r, prngReg c r) ∗ ∃ W, owes (c : Thread nD τ) (0 : CellTallies nD τ sig Unit) W)
/-- A host stretch as an item, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The pipelined calls as items -/

set_option backward.isDefEq.respectTransparency.types false in
/-- The first call: entered from every unscoped buffer at B4, left at B5. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R4 m) c).loose
  hwaits := Pipeline.hwaits_of_owed_zero _ _ _ _ L lv 0 fun _ _ => rfl
  pre c := iprop(StableHlo.held (c : Thread nD τ) (Pipeline.ucRefs τ sig) (B4 m c) ∗ R c)
  post c := iprop(StableHlo.held (c : Thread nD τ) (Pipeline.ucRefs τ sig) (B5 m c) ∗ R c)
  X c := iprop(∃ r, prngReg c r)
  Y c := iprop(∃ r, prngReg c r)
  Z c := Pipeline.unscopedRest (Ix := Unit) (Name := ℕ) (U := UR sig nD τ) (Lvl := ℕ) spec0 c (R4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R4 m c) (R5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from every unscoped buffer at B6, left at B7. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (R6 m) c
  hwaits := Pipeline.hwaits_of_owed_zero _ _ _ _ L lv 1 fun _ _ => rfl
  pre c := iprop(StableHlo.held (c : Thread nD τ) (Pipeline.ucRefs τ sig) (B6 m c) ∗ R c)
  post c := iprop(StableHlo.held (c : Thread nD τ) (Pipeline.ucRefs τ sig) (B7 m c) ∗ R c)
  X c := iprop(∃ r, prngReg c r)
  Y c := iprop(∃ r, prngReg c r)
  Z c := Pipeline.unscopedRest (Ix := Unit) (Name := ℕ) (U := UR sig nD τ) (Lvl := ℕ) spec1 c (R6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R6 m c) fun w => A_eq1 (R6 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R6 m c) (R7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- The last thread state without the debts: every unscoped buffer at B8, the generator register at some state. -/
abbrev Tₙ (c : Dev nD) : sProp 𝕄 := iprop(StableHlo.held (c : Thread nD τ) (Pipeline.ucRefs τ sig) (B8 m c) ∗ ∃ r, prngReg c r)

/-- @main's eight items in order. -/
abbrev mainSegs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .region (reg0 m),
    .host (hseg hostOps1 hostOps1_sub hostOps1_fresh (B5 m)),
    .region (reg1 m),
    .host (hseg hostOps2 hostOps2_sub hostOps2_fresh (B7 m)) ]

theorem main_run (c : Dev nD) : main (F := F) c = Pipeline.Seg.run (mainSegs m) := (main_chain c).trans (by chain_rfl)

set_option backward.isDefEq.respectTransparency.types false in
/-- From any memory with zero counters every weakly fair execution of @main terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B8 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m c b)
    (hfin := fun c s' => by
      iintro ⟨⟨Hh, -⟩, HSI⟩
      unfold StableHlo.held
      imodintro
      iapply (pointsTo_read_all (Pipeline.ucRefs τ sig) (fun b => (((c : Thread nD τ)).1, b)) (B8 m c) s')
      isplitl [Hh] <;> iassumption)
    (hQ := fun s h c => h c)

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (B8_main_arg0 m c),
     (h c _ (mem_uc main_arg1 (by decide))).trans (B8_main_arg1 m c),
     (h c _ (mem_uc main_arg2 (by decide))).trans (B8_main_arg2 m c)⟩) (run_all m ρ)

end Cert.KernelIdeal.Hand

end
-- ==== Proof.RefFrame.lean ====
import proofs.«402730_j53644141527384_3_alg».proof.Proof.RefRun

/-!
# The reference program runs and leaves its arguments alone

The reference is a straight line of host operations; its run ends with every buffer at the fold of the operations'
results over the launch memory.  No operation writes an argument buffer, so the fold at an argument is the launch
contents.
-/

noncomputable section

namespace Cert.ReferenceIdeal.RefFrame

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

set_option maxRecDepth 8192 in
set_option maxHeartbeats 8000000 in
/-- No operation writes the first argument. -/
theorem kept_arg0 (V : Valuation τ sig (Elt F)) : after ops V (Proc.devRef .tc main_arg0) = V (Proc.devRef .tc main_arg0) := by
  after_results_simp

set_option maxRecDepth 8192 in
set_option maxHeartbeats 8000000 in
/-- No operation writes the second argument. -/
theorem kept_arg1 (V : Valuation τ sig (Elt F)) : after ops V (Proc.devRef .tc main_arg1) = V (Proc.devRef .tc main_arg1) := by
  after_results_simp

set_option maxRecDepth 8192 in
set_option maxHeartbeats 8000000 in
/-- No operation writes the third argument. -/
theorem kept_arg2 (V : Valuation τ sig (Elt F)) : after ops V (Proc.devRef .tc main_arg2) = V (Proc.devRef .tc main_arg2) := by
  after_results_simp

/-- Every weakly fair execution of the reference terminates, nothing faulting, with the argument arrays as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_arg0).trans (kept_arg0 _), (h c main_arg1).trans (kept_arg1 _),
    (h c main_arg2).trans (kept_arg2 _)⟩) (run m ρ)

end Cert.ReferenceIdeal.RefFrame

end
-- ==== Proof.Spec.lean ====
/-
  The arithmetic both programs perform, as scalar functions on the extended reals.

  An edge e from node src e to node dst e carries the difference d = h(dst e) - h(src e) of the two nodes'
  four features (two position coordinates, two velocity coordinates). Its four message components are rational
  expressions in d's first two components, all four set to 0 when d is exactly the zero vector; a fifth component
  is the constant 1 (it counts the edge). A node n accumulates, over the edges whose dst is n, the five components;
  with a0, a1 the sums of the first two, a2, a3 of the next two and a4 the count, its two outputs are rational
  expressions in y0 = a2, y1 = a3, y2 = a0 / max a4 1, y3 = a1 / max a4 1.

  Every literal is kept as the f32 word it is printed with; no literal is evaluated.
-/
import Idealize.ShloMosaic.PureOps.Ideal
import Idealize.ShloMosaic.Lib.ValueIdx

noncomputable section

namespace Cert.Spec

open Idealize.ShloMosaic

/-- The extended real an f32 word denotes. -/
abbrev lit (w : BitVec 32) : EReal := Ideal.ofBits .f32 w

/-- First message component of an edge with feature difference (x0, x1, _, _), before the zero test. -/
def m0 (x0 x1 : EReal) : EReal :=
  (x0 - Ideal.div x1 ((x0 * lit 0x3D9180E5#32) * (x0 * lit 0x3D9180E5#32) + lit 0x3FC4BC49#32)) * lit 0xBCED370F#32

/-- Second message component. -/
def m1 (x0 x1 : EReal) : EReal :=
  (x0 - x1 * (lit 0x3F5439C8#32 - (x0 * lit 0xBCB429EF#32) * (x0 * lit 0xBCB429EF#32))) * lit 0x3CD04A08#32

/-- Third message component. -/
def m2 (x0 : EReal) : EReal :=
  (x0 - (x0 * lit 0xBDAA98E1#32) * (x0 * lit 0xBDAA98E1#32)) * lit 0xBCC4A00F#32 - lit 0x3E6455DD#32

/-- Fourth message component. -/
def m3 (x0 x1 : EReal) : EReal :=
  (x1 + lit 0x4027AEE3#32 + x0 * lit 0xBE241554#32) * lit 0x3CCD0F7A#32

/-- Component k of the message of an edge whose feature difference is (d0, d1, d2, d3): zero when the difference is
    the zero vector; the fifth component is the constant one. -/
def edgeMsg (k : Fin 5) (d0 d1 d2 d3 : EReal) : EReal :=
  match k with
  | ⟨0, _⟩ => if d0 = 0 ∧ d1 = 0 ∧ d2 = 0 ∧ d3 = 0 then 0 else m0 d0 d1
  | ⟨1, _⟩ => if d0 = 0 ∧ d1 = 0 ∧ d2 = 0 ∧ d3 = 0 then 0 else m1 d0 d1
  | ⟨2, _⟩ => if d0 = 0 ∧ d1 = 0 ∧ d2 = 0 ∧ d3 = 0 then 0 else m2 d0
  | ⟨3, _⟩ => if d0 = 0 ∧ d1 = 0 ∧ d2 = 0 ∧ d3 = 0 then 0 else m3 d0 d1
  | ⟨4, _⟩ => lit 0x3F800000#32

/-- The mean of the first accumulated component over the incident edges (the count floored at one). -/
def y2 (a0 a4 : EReal) : EReal := Ideal.div a0 (max a4 (lit 0x3F800000#32))
/-- The mean of the second accumulated component. -/
def y3 (a1 a4 : EReal) : EReal := Ideal.div a1 (max a4 (lit 0x3F800000#32))

def u0 (y0 y2 y3 : EReal) : EReal :=
  (y0 - Ideal.div (y3 + (y2 * lit 0x3E23C830#32) * (y2 * lit 0x3E23C830#32)) (lit 0x3FDA2C18#32) - y2) * lit 0x3E29F29F#32
def u1 (y1 y2 y3 : EReal) : EReal :=
  (y1 - (y2 * lit 0xBDB6A1D6#32) * (y2 * lit 0xBDB6A1D6#32) * y3 - y2 + y3) * lit 0xBD5FA2D0#32
def u2 (y0 y3 : EReal) : EReal := (y3 + y0) * lit 0x3D5CE546#32
def u3 (y2 : EReal) : EReal := y2 * Ideal.div (lit 0x4144E473#32) (y2 * y2 + lit 0x427C8483#32)

/-- First output of a node from its five accumulated components. -/
def p0 (a0 a1 a2 a3 a4 : EReal) : EReal :=
  Ideal.div
    ((Ideal.div (u0 a2 (y2 a0 a4) (y3 a1 a4)) (lit 0x3F06E1C7#32) + u3 (y2 a0 a4) - u2 a2 (y3 a1 a4)) * lit 0xBE3DF39F#32
      - (u1 a3 (y2 a0 a4) (y3 a1 a4) + u2 a2 (y3 a1 a4)))
    (lit 0x3F3B9F07#32)

/-- Second output of a node. -/
def p1 (a0 a1 a2 a3 a4 : EReal) : EReal :=
  u0 a2 (y2 a0 a4) (y3 a1 a4) * lit 0xBF4DC4ED#32 - u1 a3 (y2 a0 a4) (y3 a1 a4)
    + (u3 (y2 a0 a4) * lit 0x3F9BDA03#32 + u2 a2 (y3 a1 a4))

/-- Output k of a node. -/
def nodeOut (k : Fin 2) (a0 a1 a2 a3 a4 : EReal) : EReal :=
  match k with
  | ⟨0, _⟩ => p0 a0 a1 a2 a3 a4
  | ⟨1, _⟩ => p1 a0 a1 a2 a3 a4

/-! ## The whole computation, from the node features and the edge table -/

open Idealize.ShloMosaic.ValueIdx
open scoped BigOperators

/-- The node a table word names: the word read signed, clamped into the node range (a word in range names itself). -/
def node (w : BitVec 32) : Fin 100000 := ⟨min w.toInt.toNat 99999, by omega⟩

/-- Every word of the edge table names a node: it lies in [0, 100000). -/
def InRange (ei : (⟨2, ![2, 6400000]⟩ : Shape).Idx → BitVec 32) : Prop :=
  ∀ (r : Fin 2) (e : Fin 6400000), 0 ≤ (ei (ix2 r e)).toInt ∧ (ei (ix2 r e)).toInt < 100000

/-- Feature j of edge e's difference: the feature at its dst node (table row 1) minus that at its src node (row 0). -/
def dfeat (h : (⟨2, ![100000, 4]⟩ : Shape).Idx → EReal) (ei : (⟨2, ![2, 6400000]⟩ : Shape).Idx → BitVec 32)
    (e : Fin 6400000) (j : Fin 4) : EReal :=
  h (ix2 (node (ei (ix2 1 e))) j) - h (ix2 (node (ei (ix2 0 e))) j)

/-- Component k of edge e's message. -/
def emsg (h : (⟨2, ![100000, 4]⟩ : Shape).Idx → EReal) (ei : (⟨2, ![2, 6400000]⟩ : Shape).Idx → BitVec 32)
    (k : Fin 5) (e : Fin 6400000) : EReal :=
  edgeMsg k (dfeat h ei e 0) (dfeat h ei e 1) (dfeat h ei e 2) (dfeat h ei e 3)

/-- Component k accumulated at node n: from zero, the sum over the edges whose dst word is n. -/
def agg (h : (⟨2, ![100000, 4]⟩ : Shape).Idx → EReal) (ei : (⟨2, ![2, 6400000]⟩ : Shape).Idx → BitVec 32)
    (k : Fin 5) (n : Fin 100000) : EReal :=
  lit 0x00000000#32 + ∑ e : Fin 6400000, if (ei (ix2 1 e)).toInt = (n.val : ℤ) then emsg h ei k e else 0

/-- Output k of node n. -/
def G (h : (⟨2, ![100000, 4]⟩ : Shape).Idx → EReal) (ei : (⟨2, ![2, 6400000]⟩ : Shape).Idx → BitVec 32)
    (n : Fin 100000) (k : Fin 2) : EReal :=
  nodeOut k (agg h ei 0 n) (agg h ei 1 n) (agg h ei 2 n) (agg h ei 3 n) (agg h ei 4 n)

end Cert.Spec

end
-- ==== Proof.PreRange.lean ====
/-
  From the precondition to the range of the edge table.

  The precondition is a conjunction of four "for all entries" tests, each a reduction by "and" over both axes
  of an array of one-bit words, the four joined by "and" as ((c0 ∧ c1) ∧ c2) ∧ c3. The last two say that every
  word of the edge table, read signed, is at least 0 and is below 100000. Here the conjunction is taken apart,
  each reduction is read back entry by entry, and the two comparisons are read as inequalities on the signed values.
-/
import proofs.«402730_j53644141527384_3_alg».proof.Pre_finite_inputs
import proofs.«402730_j53644141527384_3_alg».proof.Proof.Spec
import Idealize.ShloMosaic.Lib.ReduceAll
import Idealize.ShloMosaic.Lib.StableHlo.Predicate
import Idealize.ShloMosaic.Lib.ValueIdx

namespace Cert.PreRange

open Idealize.ShloMosaic
open Idealize.ShloMosaic.ValueIdx

/-- The scalar shape has one index. -/
instance : Subsingleton Cert.Pre_finite_inputs.S_.Idx := ⟨fun a b => funext fun d => d.elim0⟩

/-- Under the precondition every word of the edge table, read signed, lies in [0, 100000). -/
theorem inRange_of_pre [Cert.Pre_finite_inputs.Facts]
    (a0 a1 : FVec Ideal Cert.Pre_finite_inputs.S100000x2 .f32) (a2 : IVec Cert.Pre_finite_inputs.S2x6400000 32)
    (h : Cert.Pre_finite_inputs.fn (F := Ideal) a0 a1 a2 = fun _ => 1#1) : Cert.Spec.InRange a2 := by
  have h0 := congrFun h ix0
  dsimp only [Cert.Pre_finite_inputs.fn, Cert.Pre_finite_inputs.fn_part1, andi] at h0
  -- the conjunction ((c0 ∧ c1) ∧ c2) ∧ c3: keep c2 (every word ≥ 0) and c3 (every word < 100000)
  obtain ⟨h012, h3⟩ := IntOp.andi_eq_one.1 h0
  obtain ⟨_, h2⟩ := IntOp.andi_eq_one.1 h012
  intro r e
  -- each "for all" read at the entry (r, e)
  have ge := Host.reduce_andi_all _ _ _ _ _ h2 (ix2 r e)
  have lt := Host.reduce_andi_all _ _ _ _ _ h3 (ix2 r e)
  dsimp only [cmpi] at ge lt
  rw [StableHlo.Predicate.bcast_scalar _ Cert.Pre_finite_inputs.Facts.h_S_] at ge lt
  dsimp only [constantI] at ge lt
  -- the two comparisons as inequalities on the signed values
  have ge' := IntOp.cmpi_sge.1 ge
  have lt' := IntOp.cmpi_slt.1 lt
  rw [show (0#32 : BitVec 32).toInt = 0 from by decide] at ge'
  rw [show (100000#32 : BitVec 32).toInt = 100000 from by decide] at lt'
  exact ⟨ge', lt'⟩

end Cert.PreRange
-- ==== Proof.KIEdgeValue.lean ====
import proofs.«402730_j53644141527384_3_alg».proof.Proof.KIEdge
import proofs.«402730_j53644141527384_3_alg».proof.Proof.Spec
import Idealize.ShloMosaic.Lib.ValueIdx
import Idealize.ShloMosaic.Lib.Pipeline.Value
import Idealize.ShloMosaic.PureOps.Ideal.Laws

/-!
# The edge-message region in closed form

Over the extended reals the block the body leaves in the output window is, index by index, the message
function of the specification applied to the four channels of the input block at the same row and lane;
and the 25 blocks the grid writes back tile the output array, so the array the region leaves is that
function of the input array, index by index.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The payloads at an index -/

/-- A slab [1, 2000, 128] viewed [2000, 128] reads (0, r, l) at (r, l). -/
theorem slab_drop {α : Type} (v : S1x2000x128.Idx → α) (r : Fin 2000) (l : Fin 128) :
    shapeCast S2000x128 v shapeCasts_S1x2000x128_S2000x128 (ix2 r l) = v (ix3 0 r l) := by
  refine (shapeCast_dropUnit_apply ![2000, 128] v _ (ix2 r l)).trans (congrArg v ?_)
  funext a
  match a with
  | ⟨0, _⟩ => rfl
  | ⟨1, _⟩ => rfl
  | ⟨2, _⟩ => rfl

/-- A value [2000, 128] stored as a slab [1, 2000, 128] reads (r, l) at (0, r, l). -/
theorem slab_add {α : Type} (v : S2000x128.Idx → α) (r : Fin 2000) (l : Fin 128) :
    shapeCast S1x2000x128 v shapeCasts_S2000x128_S1x2000x128 (ix3 0 r l) = v (ix2 r l) := by
  refine (shapeCast_addUnit_apply ![2000, 128] v _ (ix3 0 r l)).trans (congrArg v ?_)
  funext a
  match a with
  | ⟨0, _⟩ => rfl
  | ⟨1, _⟩ => rfl

/-- The and of four equality tests against zero is the test that all four are zero. -/
theorem zero_test (d0 d1 d2 d3 : EReal) :
    IntOp.andi (IntOp.andi (IntOp.andi (Ideal.cmp .oeq d0 0) (Ideal.cmp .oeq d1 0)) (Ideal.cmp .oeq d2 0)) (Ideal.cmp .oeq d3 0)
      = if d0 = 0 ∧ d1 = 0 ∧ d2 = 0 ∧ d3 = 0 then 1#1 else 0#1 := by
  unfold Ideal.cmp IntOp.andi
  by_cases h0 : d0 = 0 <;> by_cases h1 : d1 = 0 <;> by_cases h2 : d2 = 0 <;> by_cases h3 : d3 = 0 <;> simp [h0, h1, h2, h3]

/-- The zero test of the four channels at (r, l): one exactly when all four are zero there. -/
theorem pay4_apply (v0 v2 v4 v6 : Vec Ideal S1x2000x128 .f32) (r : Fin 2000) (l : Fin 128) :
    k0_pay4 v0 v2 v4 v6 (ix2 r l)
      = if v0 (ix3 0 r l) = 0 ∧ v2 (ix3 0 r l) = 0 ∧ v4 (ix3 0 r l) = 0 ∧ v6 (ix3 0 r l) = 0 then 1#1 else 0#1 := by
  rw [← zero_test]
  unfold k0_pay4 k0_pay2 k0_pay3
  show IntOp.andi (IntOp.andi (IntOp.andi
        (Ideal.cmp .oeq (shapeCast S2000x128 v0 shapeCasts_S1x2000x128_S2000x128 (ix2 r l)) (Ideal.ofBits .f32 0x00000000#32))
        (Ideal.cmp .oeq (shapeCast S2000x128 v2 shapeCasts_S1x2000x128_S2000x128 (ix2 r l)) (Ideal.ofBits .f32 0x00000000#32)))
        (Ideal.cmp .oeq (shapeCast S2000x128 v4 shapeCasts_S1x2000x128_S2000x128 (ix2 r l)) (Ideal.ofBits .f32 0x00000000#32)))
        (Ideal.cmp .oeq (shapeCast S2000x128 v6 shapeCasts_S1x2000x128_S2000x128 (ix2 r l)) (Ideal.ofBits .f32 0x00000000#32)) = _
  rw [slab_drop, slab_drop, slab_drop, slab_drop, Ideal.ofBits_zero_f32]

/-- The zero word of the selects is the extended real zero. -/
theorem pay7_apply (j : S2000x128.Idx) : k0_pay7 (F := Ideal) j = 0 := Ideal.ofBits_zero_f32

/-- A select on the zero test is an if on the proposition it decides. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The first message component before the zero test, at (r, l). -/
theorem pay5_apply (v0 v2 : Vec Ideal S1x2000x128 .f32) (r : Fin 2000) (l : Fin 128) :
    k0_pay5 v0 v2 (ix2 r l) = Cert.Spec.m0 (v0 (ix3 0 r l)) (v2 (ix3 0 r l)) := by
  rw [← slab_drop v0, ← slab_drop v2]; rfl

/-- The second message component before the zero test, at (r, l). -/
theorem pay6_apply (v0 v2 : Vec Ideal S1x2000x128 .f32) (r : Fin 2000) (l : Fin 128) :
    k0_pay6 v0 v2 (ix2 r l) = Cert.Spec.m1 (v0 (ix3 0 r l)) (v2 (ix3 0 r l)) := by
  rw [← slab_drop v0, ← slab_drop v2]; rfl

/-- Slab 0 of the output at (r, l). -/
theorem pay8_apply (v0 v2 v4 v6 : Vec Ideal S1x2000x128 .f32) (r : Fin 2000) (l : Fin 128) :
    k0_pay8 (k0_pay4 v0 v2 v4 v6) (k0_pay5 v0 v2) (ix3 0 r l)
      = Cert.Spec.edgeMsg 0 (v0 (ix3 0 r l)) (v2 (ix3 0 r l)) (v4 (ix3 0 r l)) (v6 (ix3 0 r l)) := by
  unfold k0_pay8
  rw [slab_add, select_apply, pay4_apply, pay5_apply, pay7_apply, select_ite]
  rfl

/-- Slab 1 of the output at (r, l). -/
theorem pay9_apply (v0 v2 v4 v6 : Vec Ideal S1x2000x128 .f32) (r : Fin 2000) (l : Fin 128) :
    k0_pay9 (k0_pay4 v0 v2 v4 v6) (k0_pay6 v0 v2) (ix3 0 r l)
      = Cert.Spec.edgeMsg 1 (v0 (ix3 0 r l)) (v2 (ix3 0 r l)) (v4 (ix3 0 r l)) (v6 (ix3 0 r l)) := by
  unfold k0_pay9
  rw [slab_add, select_apply, pay4_apply, pay6_apply, pay7_apply, select_ite]
  rfl

/-- Slab 2 of the output at (r, l). -/
theorem pay10_apply (v0 v2 v4 v6 : Vec Ideal S1x2000x128 .f32) (r : Fin 2000) (l : Fin 128) :
    k0_pay10 (k0_pay2 v0) (k0_pay4 v0 v2 v4 v6) (ix3 0 r l)
      = Cert.Spec.edgeMsg 2 (v0 (ix3 0 r l)) (v2 (ix3 0 r l)) (v4 (ix3 0 r l)) (v6 (ix3 0 r l)) := by
  unfold k0_pay10
  rw [slab_add, select_apply, pay4_apply, pay7_apply, select_ite]
  show (if _ then (0 : EReal) else Cert.Spec.m2 (k0_pay2 v0 (ix2 r l))) = _
  unfold k0_pay2
  rw [slab_drop]
  rfl

/-- Slab 3 of the output at (r, l). -/
theorem pay11_apply (v0 v2 v4 v6 : Vec Ideal S1x2000x128 .f32) (r : Fin 2000) (l : Fin 128) :
    k0_pay11 (k0_pay2 v0) (k0_pay3 v2) (k0_pay4 v0 v2 v4 v6) (ix3 0 r l)
      = Cert.Spec.edgeMsg 3 (v0 (ix3 0 r l)) (v2 (ix3 0 r l)) (v4 (ix3 0 r l)) (v6 (ix3 0 r l)) := by
  unfold k0_pay11
  rw [slab_add, select_apply, pay4_apply, pay7_apply, select_ite]
  show (if _ then (0 : EReal) else Cert.Spec.m3 (k0_pay2 v0 (ix2 r l)) (k0_pay3 v2 (ix2 r l))) = _
  unfold k0_pay2 k0_pay3
  rw [slab_drop, slab_drop]
  rfl

/-- Slab 4 of the output, the constant one, at (r, l). -/
theorem pay1_apply (r : Fin 2000) (l : Fin 128) :
    k0_pay1 (k0_pay12 (F := Ideal)) (ix3 0 r l) = Cert.Spec.lit 0x3F800000#32 := by
  unfold k0_pay1
  rw [slab_add]
  rfl

/-! ## The block the body leaves, at an index -/

/-- A unit-stride slab rectangle at channel k places (0, r, l) at (k, r, l). -/
theorem slab_idx {n : Nat} (off : Fin 3 → Nat) (k : Fin n) (h0 : off 0 = k.val) (h1 : off 1 = 0) (h2 : off 2 = 0)
    (inb : ∀ a, off a + S1x2000x128.size a ≤ (⟨3, ![n, 2000, 128]⟩ : Shape).size a) (r : Fin 2000) (l : Fin 128) :
    (Rect.unit (s := ⟨3, ![n, 2000, 128]⟩) off S1x2000x128.size inb).idx (ix3 0 r l) = ix3 k r l := by
  funext a
  apply Fin.ext
  match a with
  | ⟨0, _⟩ => show off 0 + 1 * 0 = k.val; omega
  | ⟨1, _⟩ => show off 1 + 1 * r.val = r.val; omega
  | ⟨2, _⟩ => show off 2 + 1 * l.val = l.val; omega

/-- Every index of a slab is (0, r, l). -/
theorem slab_ix (x : S1x2000x128.Idx) : ∃ (r : Fin 2000) (l : Fin 128), x = ix3 0 r l := by
  have h : (x 0).val < 1 := (x 0).isLt
  have h0 : x 0 = (0 : Fin 1) := Fin.ext (by show (x 0).val = 0; omega)
  exact ⟨x 1, x 2, (eq_ix3 x).trans (by rw [h0]; rfl)⟩

/-- The output block as one function of the input block: the message of the four channels at the row and lane. -/
def msgBlock (x0 : Vec Ideal S4x2000x128 .f32) : Vec Ideal S5x2000x128 .f32 := fun i =>
  Cert.Spec.edgeMsg (i 0) (x0 (ix3 0 (i 1) (i 2))) (x0 (ix3 1 (i 1) (i 2))) (x0 (ix3 2 (i 1) (i 2))) (x0 (ix3 3 (i 1) (i 2)))

/-- The four channel slabs of the input block, read at (0, r, l). -/
theorem ld_rin0 (x0 : Vec Ideal S4x2000x128 .f32) (r : Fin 2000) (l : Fin 128) : View.ld x0 rin0 (ix3 0 r l) = x0 (ix3 0 r l) :=
  congrArg x0 (slab_idx (n := 4) ![0, 0, 0] 0 rfl rfl rfl _ r l)
theorem ld_rin1 (x0 : Vec Ideal S4x2000x128 .f32) (r : Fin 2000) (l : Fin 128) : View.ld x0 rin1 (ix3 0 r l) = x0 (ix3 1 r l) :=
  congrArg x0 (slab_idx (n := 4) ![1, 0, 0] 1 rfl rfl rfl _ r l)
theorem ld_rin2 (x0 : Vec Ideal S4x2000x128 .f32) (r : Fin 2000) (l : Fin 128) : View.ld x0 rin2 (ix3 0 r l) = x0 (ix3 2 r l) :=
  congrArg x0 (slab_idx (n := 4) ![2, 0, 0] 2 rfl rfl rfl _ r l)
theorem ld_rin3 (x0 : Vec Ideal S4x2000x128 .f32) (r : Fin 2000) (l : Fin 128) : View.ld x0 rin3 (ix3 0 r l) = x0 (ix3 3 r l) :=
  congrArg x0 (slab_idx (n := 4) ![3, 0, 0] 3 rfl rfl rfl _ r l)

/-- The block the body leaves is the message block: each of the five stored slabs is the message block's
    slab, and the five cover the buffer. -/
theorem out0_1_eq (x0 : Vec Ideal S4x2000x128 .f32) (y : S5x2000x128.Idx) : out0_1 x0 y = msgBlock x0 y := by
  unfold out0_1
  refine View.canon_apply_of_pieces (msgBlock x0) _ ?_ y (cover0_1 _ _ _ _ _ y)
  intro p hp
  simp only [List.mem_cons, List.mem_nil_iff, or_false] at hp
  rcases hp with rfl | rfl | rfl | rfl | rfl
  · intro x
    obtain ⟨r, l, rfl⟩ := slab_ix x
    show k0_pay1 (F := Ideal) k0_pay12 (ix3 0 r l) = msgBlock x0 (rout4.idx (ix3 0 r l))
    rw [pay1_apply, slab_idx (n := 5) ![4, 0, 0] 4 rfl rfl rfl]
    rfl
  · intro x
    obtain ⟨r, l, rfl⟩ := slab_ix x
    show k0_pay11 (F := Ideal) _ _ _ (ix3 0 r l) = msgBlock x0 (rout3.idx (ix3 0 r l))
    rw [pay11_apply, ld_rin0, ld_rin1, ld_rin2, ld_rin3, slab_idx (n := 5) ![3, 0, 0] 3 rfl rfl rfl]
    rfl
  · intro x
    obtain ⟨r, l, rfl⟩ := slab_ix x
    show k0_pay10 (F := Ideal) _ _ (ix3 0 r l) = msgBlock x0 (rout2.idx (ix3 0 r l))
    rw [pay10_apply, ld_rin0, ld_rin1, ld_rin2, ld_rin3, slab_idx (n := 5) ![2, 0, 0] 2 rfl rfl rfl]
    rfl
  · intro x
    obtain ⟨r, l, rfl⟩ := slab_ix x
    show k0_pay9 (F := Ideal) _ _ (ix3 0 r l) = msgBlock x0 (rout1.idx (ix3 0 r l))
    rw [pay9_apply, ld_rin0, ld_rin1, ld_rin2, ld_rin3, slab_idx (n := 5) ![1, 0, 0] 1 rfl rfl rfl]
    rfl
  · intro x
    obtain ⟨r, l, rfl⟩ := slab_ix x
    show k0_pay8 (F := Ideal) _ _ (ix3 0 r l) = msgBlock x0 (rout0.idx (ix3 0 r l))
    rw [pay8_apply, ld_rin0, ld_rin1, ld_rin2, ld_rin3, slab_idx (n := 5) ![0, 0, 0] 0 rfl rfl rfl]
    rfl

/-- The block the body leaves, at channel k, row r, lane l. -/
theorem out0_1_apply (x0 : Vec Ideal S4x2000x128 .f32) (k : Fin 5) (r : Fin 2000) (l : Fin 128) :
    out0_1 x0 (ValueIdx.ix3 k r l)
      = Cert.Spec.edgeMsg k (x0 (ValueIdx.ix3 0 r l)) (x0 (ValueIdx.ix3 1 r l)) (x0 (ValueIdx.ix3 2 r l)) (x0 (ValueIdx.ix3 3 r l)) :=
  out0_1_eq x0 (ix3 k r l)

/-! ## The array the region leaves -/

/-- The message array of an input array: at channel k, row r, lane l the message component k of the four input
    channels at row r, lane l. -/
def edgeArr (x : Vec Ideal S4x50000x128 .f32) : Vec Ideal S5x50000x128 .f32 := fun i =>
  Cert.Spec.edgeMsg (i 0) (x (ValueIdx.ix3 0 (i 1) (i 2))) (x (ValueIdx.ix3 1 (i 1) (i 2))) (x (ValueIdx.ix3 2 (i 1) (i 2))) (x (ValueIdx.ix3 3 (i 1) (i 2)))

/-- The printed index maps over the grid: both windows move along the rows only, together. -/
theorem idx_facts : ∀ t : Fin cfg0.N, win0_0.index t (0 : Fin 3) = 0 ∧ win0_0.index t (1 : Fin 3) = win0_1.index t (1 : Fin 3)
    ∧ win0_0.index t (2 : Fin 3) = 0 ∧ win0_1.index t (0 : Fin 3) = 0 ∧ win0_1.index t (2 : Fin 3) = 0
    ∧ win0_1.index t (1 : Fin 3) = t.val :=
  (by decide +kernel : ∀ t : Fin grid0.N, _)

variable (V : (c : Dev nD) → (b : Ref sig .tc) → Buf (Elt Ideal) ((c : Thread nD τ).loc b))

/-- What point t writes back is block t of the message array of the input array: the block the body leaves is the
    message block of the input block, and the two windows' blocks at t sit at the same rows. -/
theorem flushed_eq (c : Dev nD) (t : Fin cfg0.N) :
    (dat0 (F := Ideal) V c).flushed 1 t = ((cfg0.win 1).blk t).view.read (Elt Ideal) (edgeArr (V c main_v9)) := by
  show (cfg0.win 1).cut (grid0.coords t) ((dat0 (F := Ideal) V c).after 1 t) = _
  rw [after0_1]
  funext j
  show out0_1 (iblk0 V c 0 t) j = edgeArr (V c main_v9) (((cfg0.win 1).blk t).view.emb j)
  rw [out0_1_eq]
  obtain ⟨e0, e1, e2, e3, e4, e5⟩ := idx_facts t
  have hk : ((cfg0.win 1).blk t).view.emb j 0 = j 0 :=
    Fin.ext (by show win0_1.index t (0 : Fin 3) * 5 + 1 * (j 0).val = (j 0).val; omega)
  have hin : ∀ q : Fin 4, iblk0 V c 0 t (ix3 q (j 1) (j 2))
      = V c main_v9 (ix3 q (((cfg0.win 1).blk t).view.emb j 1) (((cfg0.win 1).blk t).view.emb j 2)) := by
    intro q
    show V c main_v9 (((cfg0.win 0).blk t).view.emb (ix3 q (j 1) (j 2))) = _
    congr 1
    funext a
    apply Fin.ext
    match a with
    | ⟨0, _⟩ => show win0_0.index t (0 : Fin 3) * 4 + 1 * q.val = q.val; omega
    | ⟨1, _⟩ => show win0_0.index t (1 : Fin 3) * 2000 + 1 * (j 1).val = win0_1.index t (1 : Fin 3) * 2000 + 1 * (j 1).val; omega
    | ⟨2, _⟩ => show win0_0.index t (2 : Fin 3) * 128 + 1 * (j 2).val = win0_1.index t (2 : Fin 3) * 128 + 1 * (j 2).val; omega
  unfold msgBlock edgeArr
  show Cert.Spec.edgeMsg (j 0) (iblk0 V c 0 t (ix3 0 (j 1) (j 2))) (iblk0 V c 0 t (ix3 1 (j 1) (j 2)))
      (iblk0 V c 0 t (ix3 2 (j 1) (j 2))) (iblk0 V c 0 t (ix3 3 (j 1) (j 2))) = _
  rw [hin 0, hin 1, hin 2, hin 3, hk]

omit V in
/-- An index of the output array is in point t's block iff each coordinate is in the block's range on its axis. -/
theorem mem_blk (t : Fin cfg0.N) (i : S5x50000x128.Idx) :
    i ∈ ((cfg0.win 1).blk t).view.set ↔ ∀ a : Fin 3, win0_1.index t a * S5x2000x128.size a ≤ (i a).val
      ∧ (i a).val < win0_1.index t a * S5x2000x128.size a + S5x2000x128.size a := by
  show i ∈ ((View.whole main_v10).slice (win0_1.rect t)).set ↔ _
  rw [View.set_slice_whole, Rect.mem_set_unit]
  exact Iff.rfl

omit V in
/-- Every index of the output array lies in the block of the point its row falls in: row r in block r / 2000. -/
theorem covered (i : S5x50000x128.Idx) :
    ∃ t : Fin cfg0.N, (cfg0.win 1).flush t = true ∧ i ∈ ((cfg0.win 1).blk t).view.set := by
  have h0 : (i 0).val < 5 := (i 0).isLt
  have h1 : (i 1).val < 50000 := (i 1).isLt
  have h2 : (i 2).val < 128 := (i 2).isLt
  obtain ⟨t, ht⟩ : ∃ t : Fin cfg0.N, t.val = (i 1).val / 2000 :=
    ⟨⟨(i 1).val / 2000, by rw [show cfg0.N = grid0.N from rfl, N_0]; omega⟩, rfl⟩
  obtain ⟨e0, e1, e2, e3, e4, e5⟩ := idx_facts t
  refine ⟨t, flush0_1 t, ?_⟩
  rw [mem_blk]
  intro a
  match a with
  | ⟨0, _⟩ => show win0_1.index t (0 : Fin 3) * 5 ≤ (i 0).val ∧ (i 0).val < win0_1.index t (0 : Fin 3) * 5 + 5; omega
  | ⟨1, _⟩ => show win0_1.index t (1 : Fin 3) * 2000 ≤ (i 1).val ∧ (i 1).val < win0_1.index t (1 : Fin 3) * 2000 + 2000; omega
  | ⟨2, _⟩ => show win0_1.index t (2 : Fin 3) * 128 ≤ (i 2).val ∧ (i 2).val < win0_1.index t (2 : Fin 3) * 128 + 128; omega

/-- The output array after the region: the message array of the input array as the region finds it. -/
theorem edge_final (V : (c : Dev nD) → (b : Ref sig .tc) → Buf (Elt Ideal) ((c : Thread nD τ).loc b)) (c : Dev nD) :
    (dat0 (F := Ideal) V c).arrAt 1 cfg0.N = edgeArr (V c main_v9) :=
  (dat0 (F := Ideal) V c).arrAt_eq_of_cover 1 (edgeArr (V c main_v9)) (fun t _ => flushed_eq V c t) covered

end Cert.KernelIdeal.Hand

end
-- ==== Proof.KINodeValue.lean ====
/-
  Region 1 of @main in closed form, at the ideal instance: the output block is, column by column, the two node outputs
  of the input block's column (`out1_1_apply`), and the output array after the region's write-backs is, column by
  column, the two node outputs of the input array's column (`node_final`): the seven blocks' parts inside the array
  cover its 100000 columns, and each written part is that function of the input array read through the same columns.
-/
import proofs.«402730_j53644141527384_3_alg».proof.Proof.KINode
import proofs.«402730_j53644141527384_3_alg».proof.Proof.Spec

-- the blocks are 16384 columns wide
set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! # The output block, and the output array, in closed form (at the ideal instance) -/

section Value
open Idealize.ShloMosaic.ValueIdx

/-- Row 0 of the output block at column `j` is the first node output of the five accumulated components there. -/
theorem row0_apply (x0 : Vec Ideal S5x16384 .f32) (j : Fin 16384) :
    row0 x0 (ix2 (0 : Fin 1) j)
      = Cert.Spec.p0 (x0 (ix2 0 j)) (x0 (ix2 1 j)) (x0 (ix2 2 j)) (x0 (ix2 3 j)) (x0 (ix2 4 j)) := by
  have e0 : View.ld x0 rI0 (ix2 (0 : Fin 1) j) = x0 (ix2 0 j) := congrArg x0 (idx_rI0 j)
  have e1 : View.ld x0 rI1 (ix2 (0 : Fin 1) j) = x0 (ix2 1 j) := congrArg x0 (idx_rI1 j)
  have e2 : View.ld x0 rI2 (ix2 (0 : Fin 1) j) = x0 (ix2 2 j) := congrArg x0 (idx_rI2 j)
  have e3 : View.ld x0 rI3 (ix2 (0 : Fin 1) j) = x0 (ix2 3 j) := congrArg x0 (idx_rI3 j)
  have e4 : View.ld x0 rI4 (ix2 (0 : Fin 1) j) = x0 (ix2 4 j) := congrArg x0 (idx_rI4 j)
  simp only [row0, k1_pay2, k1_pay1, k1_pay6, k1_pay8, k1_pay9, k1_pay10, k1_pay11, k1_pay12, k1_pay7, k1_pay5, k1_pay4,
    shapeCast_self, mulf_apply, addf_apply, subf_apply, divf_apply, maximumf_apply, broadcast_apply, e0, e1, e2, e3, e4,
    Cert.Spec.p0, Cert.Spec.u0, Cert.Spec.u1, Cert.Spec.u2, Cert.Spec.u3, Cert.Spec.y2, Cert.Spec.y3]
  rfl

/-- Row 1 is the second node output. -/
theorem row1_apply (x0 : Vec Ideal S5x16384 .f32) (j : Fin 16384) :
    row1 x0 (ix2 (0 : Fin 1) j)
      = Cert.Spec.p1 (x0 (ix2 0 j)) (x0 (ix2 1 j)) (x0 (ix2 2 j)) (x0 (ix2 3 j)) (x0 (ix2 4 j)) := by
  have e0 : View.ld x0 rI0 (ix2 (0 : Fin 1) j) = x0 (ix2 0 j) := congrArg x0 (idx_rI0 j)
  have e1 : View.ld x0 rI1 (ix2 (0 : Fin 1) j) = x0 (ix2 1 j) := congrArg x0 (idx_rI1 j)
  have e2 : View.ld x0 rI2 (ix2 (0 : Fin 1) j) = x0 (ix2 2 j) := congrArg x0 (idx_rI2 j)
  have e3 : View.ld x0 rI3 (ix2 (0 : Fin 1) j) = x0 (ix2 3 j) := congrArg x0 (idx_rI3 j)
  have e4 : View.ld x0 rI4 (ix2 (0 : Fin 1) j) = x0 (ix2 4 j) := congrArg x0 (idx_rI4 j)
  simp only [row1, k1_pay3, k1_pay1, k1_pay6, k1_pay8, k1_pay9, k1_pay10, k1_pay11, k1_pay12, k1_pay7, k1_pay5, k1_pay4,
    shapeCast_self, mulf_apply, addf_apply, subf_apply, divf_apply, maximumf_apply, broadcast_apply, e0, e1, e2, e3, e4,
    Cert.Spec.p1, Cert.Spec.u0, Cert.Spec.u1, Cert.Spec.u2, Cert.Spec.u3, Cert.Spec.y2, Cert.Spec.y3]
  rfl

/-- The output block, index by index: row `k` at column `j` is node output `k` of the input block's column `j`. -/
theorem out1_1_apply (x0 : Vec Ideal S5x16384 .f32) (k : Fin 2) (j : Fin 16384) :
    out1_1 x0 (ix2 k j)
      = Cert.Spec.nodeOut k (x0 (ix2 0 j)) (x0 (ix2 1 j)) (x0 (ix2 2 j)) (x0 (ix2 3 j)) (x0 (ix2 4 j)) := by
  match k with
  | ⟨0, _⟩ => exact (out1_1_row0 x0 j).trans (row0_apply x0 j)
  | ⟨1, _⟩ => exact (out1_1_row1 x0 j).trans (row1_apply x0 j)

/-- The same at any index of the block. -/
theorem out1_1_apply_idx (x0 : Vec Ideal S5x16384 .f32) (i : S2x16384.Idx) :
    out1_1 x0 i
      = Cert.Spec.nodeOut (i 0) (x0 (ix2 0 (i 1))) (x0 (ix2 1 (i 1))) (x0 (ix2 2 (i 1))) (x0 (ix2 3 (i 1))) (x0 (ix2 4 (i 1))) :=
  (congrArg (out1_1 x0) (eq_ix2 i)).trans (out1_1_apply x0 (i 0) (i 1))

end Value

/-! ## From the blocks to the array -/

section Array
open Idealize.ShloMosaic.ValueIdx

/-- The region's output array as a function of its input array: column by column, the two node outputs of the five
    accumulated components. -/
def nodeArr (x : Vec Ideal S5x100000 .f32) : Vec Ideal S2x100000 .f32 := fun i =>
  Cert.Spec.nodeOut (i 0) (x (ix2 0 (i 1))) (x (ix2 1 (i 1))) (x (ix2 2 (i 1))) (x (ix2 3 (i 1))) (x (ix2 4 (i 1)))

/-- The printed index maps and cuts, decided over the grid: at point `t` both windows' blocks start at row 0 and at
    column block `t`; the output's block keeps its two rows and, of its 16384 columns, those inside the array. -/
theorem index_facts : ∀ t : Fin cfg1.N, win1_0.index t (0 : Fin 2) = 0 ∧ win1_1.index t (0 : Fin 2) = 0
    ∧ win1_0.index t (1 : Fin 2) = t.val ∧ win1_1.index t (1 : Fin 2) = t.val
    ∧ win1_1.xsize (grid1.coords t) (0 : Fin 2) = 2
    ∧ win1_1.xsize (grid1.coords t) (1 : Fin 2) = min 16384 (100000 - t.val * 16384) :=
  (by decide +kernel : ∀ t : Fin grid1.N, _)

variable (V : (c : Dev nD) → (b : Ref sig .tc) → Buf (Elt Ideal) ((c : Thread nD τ).loc b))

/-- What point `t` writes back is block `t`, cut at the array's end, of `nodeArr` of the input array as the region
    finds it: a column the write-back moves is a column the fetch filled from the same column of the input array. -/
theorem flushed1_eq (c : Dev nD) (t : Fin cfg1.N) :
    (dat1 (F := Ideal) V c).flushed 1 t = ((cfg1.win 1).blk t).view.read (Elt Ideal) (nodeArr (V c main_v42)) := by
  obtain ⟨h5, hc⟩ := xsize_facts t
  obtain ⟨i00, i10, i01, i11, -, -⟩ := index_facts t
  funext y
  show (dat1 V c).after 1 t ((cfg1.win 1).xinj (cfg1.grid.coords t) y) = nodeArr (V c main_v42) (((cfg1.win 1).blk t).view.emb y)
  rw [after1_1, out1_1_apply_idx]
  unfold nodeArr
  have hy1 : (y 1).val < (cfg1.win 0).xsize (cfg1.grid.coords t) 1 := hc ▸ (y 1).isLt
  have hrow : ((cfg1.win 1).xinj (cfg1.grid.coords t) y) 0 = (((cfg1.win 1).blk t).view.emb y) 0 :=
    Fin.ext (by show (y 0).val = win1_1.index t (0 : Fin 2) * 2 + 1 * (y 0).val; rw [i10]; omega)
  have hcol : ∀ k : Fin 5,
      ((cfg1.win 0).fill (α := Elt Ideal .f32) (cfg1.grid.coords t) (fun _ => (Scalar.ofBits .f32 0#32 : Ideal .f32)) (iblk1 V c 0 t)
          (ix2 k (((cfg1.win 1).xinj (cfg1.grid.coords t) y) 1)) : Elt Ideal .f32)
        = (V c main_v42 (ix2 k ((((cfg1.win 1).blk t).view.emb y) 1)) : Elt Ideal .f32) := fun k => by
    have hm : (cfg1.win 0).moved (cfg1.grid.coords t) (ix2 k (((cfg1.win 1).xinj (cfg1.grid.coords t) y) 1)) = true :=
      ((cfg1.win 0).moved_iff _ _).mpr fun a => match a with
        | ⟨0, _⟩ => lt_of_lt_of_eq k.isLt h5.symm
        | ⟨1, _⟩ => hy1
    unfold Window.fill
    rw [dif_pos hm]
    unfold iblk1
    show V c main_v42 (((cfg1.win 0).blk t).view.emb _) = V c main_v42 _
    refine congrArg _ (Shape.idx_ext₂ ?_ ?_)
    · show win1_0.index t (0 : Fin 2) * 5 + 1 * k.val = k.val
      rw [i00]; omega
    · show win1_0.index t (1 : Fin 2) * 16384 + 1 * (y 1).val = win1_1.index t (1 : Fin 2) * 16384 + 1 * (y 1).val
      rw [i01, i11]
  rw [hrow, hcol 0, hcol 1, hcol 2, hcol 3, hcol 4]

/-- An index of the output array is in point `t`'s block iff each coordinate is among the block's coordinates inside
    the array on its axis. -/
theorem mem_blk1 (t : Fin cfg1.N) (i : S2x100000.Idx) :
    i ∈ ((cfg1.win 1).blk t).view.set ↔ ∀ a : Fin 2, win1_1.index t a * S2x16384.size a ≤ (i a).val
      ∧ (i a).val < win1_1.index t a * S2x16384.size a + win1_1.xsize (grid1.coords t) a := by
  show i ∈ ((View.whole main_v43).slice (win1_1.rect t)).set ↔ _
  rw [View.set_slice_whole, Rect.mem_set_unit]
  exact Iff.rfl

/-- Every index of the output array is in some point's block: column `n` in that of point `n / 16384`, whose block
    reaches to column `min (16384 (t + 1)) 100000`. -/
theorem covered1 (i : S2x100000.Idx) :
    ∃ t : Fin cfg1.N, (cfg1.win 1).flush t = true ∧ i ∈ ((cfg1.win 1).blk t).view.set := by
  have hi0 : (i 0).val < 2 := (i 0).isLt
  have hi1 : (i 1).val < 100000 := (i 1).isLt
  have ht : (i 1).val / 16384 < cfg1.N := by show _ < grid1.N; rw [N_1]; omega
  obtain ⟨-, i10, -, i11, x0, x1⟩ := index_facts ⟨(i 1).val / 16384, ht⟩
  refine ⟨⟨(i 1).val / 16384, ht⟩, flush1_1 _, ?_⟩
  rw [mem_blk1]
  intro a
  match a with
  | ⟨0, _⟩ =>
    show win1_1.index ⟨(i 1).val / 16384, ht⟩ (0 : Fin 2) * 2 ≤ (i 0).val
      ∧ (i 0).val < win1_1.index ⟨(i 1).val / 16384, ht⟩ (0 : Fin 2) * 2 + win1_1.xsize (grid1.coords ⟨(i 1).val / 16384, ht⟩) (0 : Fin 2)
    rw [i10, x0]; omega
  | ⟨1, _⟩ =>
    show win1_1.index ⟨(i 1).val / 16384, ht⟩ (1 : Fin 2) * 16384 ≤ (i 1).val
      ∧ (i 1).val < win1_1.index ⟨(i 1).val / 16384, ht⟩ (1 : Fin 2) * 16384 + win1_1.xsize (grid1.coords ⟨(i 1).val / 16384, ht⟩) (1 : Fin 2)
    rw [i11, x1]
    show (i 1).val / 16384 * 16384 ≤ (i 1).val ∧ (i 1).val < (i 1).val / 16384 * 16384 + min 16384 (100000 - (i 1).val / 16384 * 16384)
    omega

/-- The output array after the region's write-backs: `nodeArr` of the input array as the region finds it. -/
theorem node_final (c : Dev nD) : (dat1 (F := Ideal) V c).arrAt 1 cfg1.N = nodeArr (V c main_v42) :=
  (dat1 (F := Ideal) V c).arrAt_eq_of_cover 1 (nodeArr (V c main_v42)) (fun t _ => flushed1_eq V c t) covered1

end Array

end Cert.KernelIdeal.Hand

end
-- ==== Proof.LibHostRows.lean ====
/-
  Host operations along the rows of a two-axis array, read at an index, on the extended reals.

  Three readings, for any extents: a gather that picks columns of an [n, c] array by a table of k column numbers
  (result (r, q) is the operand at row r and the q-th table entry, the entry read as a signed integer and clamped
  into the columns [0, c - 1], as the gather clamps every start index); the maximum of each row from an initial
  value; and the sum of each row added to an initial value. One fact about a bit pattern goes with them: the
  pattern of negative infinity denotes the bottom of the extended reals.
-/
import Idealize.ShloMosaic.PureOps.Ideal
import Idealize.ShloMosaic.PureOps.Ideal.Laws
import Idealize.ShloMosaic.Lib.ValueIdx

noncomputable section

open scoped BigOperators

namespace Cert.LibHostRows

open Idealize.ShloMosaic Idealize.ShloMosaic.ValueIdx

/-! ## Picking columns by a table -/

section Gather
variable {α : Type}

/-- The dimension numbers of a gather that keeps the operand's rows whole and picks one column per table entry:
    the result's axis 0 is the operand's axis 0, the operand's axis 1 is collapsed and indexed by the table, whose
    axis 1 holds the one-component index. -/
abbrev colsDims (n c k : Nat)
    (wf : GatherDims.WF ⟨2, ![n, c]⟩ ⟨2, ![k, 1]⟩ ⟨2, ![n, k]⟩ [0] [1] [] [1] [] 1 ![n, 1]) :
    GatherDims ⟨2, ![n, c]⟩ ⟨2, ![k, 1]⟩ ⟨2, ![n, k]⟩ where
  offsetDims := [0]
  collapsedSliceDims := [1]
  operandBatchingDims := []
  startIndicesBatchingDims := []
  startIndexMap := [1]
  indexVectorDim := 1
  sliceSizes := ![n, 1]
  wf := wf

/-- The gather read at (r, q): the operand at row r and column the q-th table entry, clamped into [0, c - 1]. -/
theorem gather_cols_apply {n c k w : Nat} (hc : 0 < c)
    (wf : GatherDims.WF ⟨2, ![n, c]⟩ ⟨2, ![k, 1]⟩ ⟨2, ![n, k]⟩ [0] [1] [] [1] [] 1 ![n, 1])
    (x : (⟨2, ![n, c]⟩ : Shape).Idx → α) (idx : IVec ⟨2, ![k, 1]⟩ w) (r : Fin n) (q : Fin k) :
    Host.gather (colsDims n c k wf) x idx (ix2 r q)
      = x (ix2 r ⟨min (idx (ix2 q (0 : Fin 1))).toInt.toNat (c - 1), by omega⟩) := by
  unfold Host.gather
  congr 1
  funext a
  refine Fin.ext ?_
  match a with
  | ⟨0, _⟩ =>
    show (colsDims n c k wf).start (ix2 r q) idx 0 + (colsDims n c k wf).batchCoord (ix2 r q) 0
        + (colsDims n c k wf).offCoord (ix2 r q) 0 = r.val
    rw [GatherDims.batchCoord_eq_zero _ _ _ List.not_mem_nil]
    unfold GatherDims.start
    rw [dif_neg (show (0 : Fin 2) ∉ (colsDims n c k wf).startIndexMap from
      show (0 : Fin 2) ∉ ([1] : List (Fin 2)) from by decide)]
    unfold GatherDims.offCoord
    rw [dif_pos (show (0 : Fin 2) ∈ (colsDims n c k wf).sKept from (GatherDims.mem_sKept _ _).mpr
      ⟨show (0 : Fin 2) ∉ ([1] : List (Fin 2)) from by decide, List.not_mem_nil⟩)]
    simp only [Nat.zero_add, Nat.add_zero]
    rfl
  | ⟨1, _⟩ =>
    show (colsDims n c k wf).start (ix2 r q) idx 1 + (colsDims n c k wf).batchCoord (ix2 r q) 1
        + (colsDims n c k wf).offCoord (ix2 r q) 1 = min (idx (ix2 q (0 : Fin 1))).toInt.toNat (c - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims n c k wf).startIndexMap from List.mem_singleton.mpr rfl)]
    have hsi : (colsDims n c k wf).siIdx (ix2 r q) ⟨List.idxOf (1 : Fin 2) (colsDims n c k wf).startIndexMap,
        List.idxOf_lt_length_iff.2 (List.mem_singleton.mpr rfl)⟩ = ix2 q (0 : Fin 1) := by
      funext b; refine Fin.ext ?_
      match b with
      | ⟨0, _⟩ => rfl
      | ⟨1, _⟩ => rfl
    rw [hsi]
    rfl

end Gather

/-! ## A row's maximum and a row's sum on the host -/

/-- The host's maximum-reduction of an [m, n] array over axis 1 reads, at p, the maximum from the initial value
    over k of the array at (p, k). -/
theorem hostReduceMax_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  show (Finset.univ : Finset (Fin n)).fold max (init (Shape.Idx.first hu)) (x ∘ h.lift (ix1 p)) = _
  refine congrArg (fun f => Finset.fold max (init (Shape.Idx.first hu)) f Finset.univ) (funext fun k => ?_)
  refine congrArg x (funext fun e => Fin.ext ?_)
  match e with
  | ⟨0, _⟩ => rfl
  | ⟨1, _⟩ => rfl

/-- The host's sum of an [m, n] array over axis 1 reads, at p, the initial value plus the sum over k of the array
    at (p, k). -/
theorem hostReduceAdd_row {φ : FTy} {m n : ℕ} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h]
  refine congrArg (init (Shape.Idx.first hu) + ·) (Finset.sum_congr rfl fun k _ => ?_)
  refine congrArg x (funext fun e => Fin.ext ?_)
  match e with
  | ⟨0, _⟩ => rfl
  | ⟨1, _⟩ => rfl

/-! ## Negative infinity -/

/-- The single-precision pattern of negative infinity denotes the bottom of the extended reals. -/
theorem ofBits_neg_inf_f32 : Ideal.ofBits .f32 0xFF800000#32 = ⊥ := by simp [Ideal.ofBits, Ideal.ieee]

end Cert.LibHostRows

end
-- ==== Proof.LibEdgeTable.lean ====
/-
  A table of k index words, held as a [k, 1] array, used two ways on the host, each read at an index.

  Picking: the gather that takes one entry of an [n] array, or one whole row of an [n, c] array, per table word.
  Result e (or (e, q)) is the operand at position min (word e read signed, negatives to 0) (n - 1): the gather
  clamps every start index into the operand.

  Accumulating: the scatter with an adding body that sends update e of a [k] array (or row e of a [k, c] array) to
  position (word e read signed) of an [n] operand (or to that row of an [n, c] operand), NOT clamped: an update whose
  word is negative or at least n lands nowhere. On the extended reals the result at position p is the operand there
  plus the sum over all e of the update at e when word e is p, and of 0 otherwise; for rows, component by component.
-/
import Idealize.ShloMosaic.PureOps.Ideal
import Idealize.ShloMosaic.Lib.ValueIdx

noncomputable section

open scoped BigOperators

namespace Cert.LibEdgeTable

open Idealize.ShloMosaic Idealize.ShloMosaic.ValueIdx

/-! ## Sums over a one-axis index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Picking entries and rows by a table -/

section Gather
variable {α : Type}

/-- The dimension numbers of the gather that picks one entry of an [n] array per word of a [k, 1] table. -/
abbrev pickDims (n k : Nat) (wf : GatherDims.WF ⟨1, ![n]⟩ ⟨2, ![k, 1]⟩ ⟨1, ![k]⟩ [] [0] [] [0] [] 1 ![1]) :
    GatherDims ⟨1, ![n]⟩ ⟨2, ![k, 1]⟩ ⟨1, ![k]⟩ where
  offsetDims := []
  collapsedSliceDims := [0]
  operandBatchingDims := []
  startIndicesBatchingDims := []
  startIndexMap := [0]
  indexVectorDim := 1
  sliceSizes := ![1]
  wf := wf

/-- The entry gather read at e: the operand at word e, read signed and clamped into [0, n - 1]. -/
theorem gather_pick_apply {n k w : Nat} (hn : 0 < n)
    (wf : GatherDims.WF ⟨1, ![n]⟩ ⟨2, ![k, 1]⟩ ⟨1, ![k]⟩ [] [0] [] [0] [] 1 ![1])
    (x : (⟨1, ![n]⟩ : Shape).Idx → α) (idx : IVec ⟨2, ![k, 1]⟩ w) (e : Fin k) :
    Host.gather (pickDims n k wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (pickDims n k wf).start (ix1 e) idx 0 + (pickDims n k wf).batchCoord (ix1 e) 0
      + (pickDims n k wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n k wf).startIndexMap from List.mem_singleton.mpr rfl)]
  have hsi : (pickDims n k wf).siIdx (ix1 e) ⟨List.idxOf (0 : Fin 1) (pickDims n k wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of the gather that picks one whole row of an [n, c] array per word of a [k, 1] table. -/
abbrev rowsDims (n c k : Nat)
    (wf : GatherDims.WF ⟨2, ![n, c]⟩ ⟨2, ![k, 1]⟩ ⟨2, ![k, c]⟩ [1] [0] [] [0] [] 1 ![1, c]) :
    GatherDims ⟨2, ![n, c]⟩ ⟨2, ![k, 1]⟩ ⟨2, ![k, c]⟩ where
  offsetDims := [1]
  collapsedSliceDims := [0]
  operandBatchingDims := []
  startIndicesBatchingDims := []
  startIndexMap := [0]
  indexVectorDim := 1
  sliceSizes := ![1, c]
  wf := wf

/-- The row gather read at (e, q): the operand at row word e, read signed and clamped into [0, n - 1], column q. -/
theorem gather_rows_apply {n c k w : Nat} (hn : 0 < n)
    (wf : GatherDims.WF ⟨2, ![n, c]⟩ ⟨2, ![k, 1]⟩ ⟨2, ![k, c]⟩ [1] [0] [] [0] [] 1 ![1, c])
    (x : (⟨2, ![n, c]⟩ : Shape).Idx → α) (idx : IVec ⟨2, ![k, 1]⟩ w) (e : Fin k) (q : Fin c) :
    Host.gather (rowsDims n c k wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ =>
    show (rowsDims n c k wf).start (ix2 e q) idx 0 + (rowsDims n c k wf).batchCoord (ix2 e q) 0
        + (rowsDims n c k wf).offCoord (ix2 e q) 0 = min (idx (ix2 e (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n c k wf).startIndexMap from List.mem_singleton.mpr rfl)]
    have hsi : (rowsDims n c k wf).siIdx (ix2 e q) ⟨List.idxOf (0 : Fin 2) (rowsDims n c k wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n c k wf).start (ix2 e q) idx 1 + (rowsDims n c k wf).batchCoord (ix2 e q) 1
        + (rowsDims n c k wf).offCoord (ix2 e q) 1 = q.val
    rw [GatherDims.batchCoord_eq_zero _ _ _ List.not_mem_nil]
    unfold GatherDims.start
    rw [dif_neg (show (1 : Fin 2) ∉ (rowsDims n c k wf).startIndexMap from
      show (1 : Fin 2) ∉ ([0] : List (Fin 2)) from by decide)]
    unfold GatherDims.offCoord
    rw [dif_pos (show (1 : Fin 2) ∈ (rowsDims n c k wf).sKept from (GatherDims.mem_sKept _ _).mpr
      ⟨show (1 : Fin 2) ∉ ([0] : List (Fin 2)) from by decide, List.not_mem_nil⟩)]
    simp only [Nat.zero_add, Nat.add_zero]
    rfl

end Gather

/-! ## Where an update lands -/

/-- An update lands on operand index i exactly when, on every axis, its start (read signed off the table) plus its
    window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      intro a
      have ha : (d.start j idx a + (d.window j a : ℤ)).toNat = (i a).val :=
        congrArg Fin.val (congrFun (Option.some.inj h) a)
      have := hh a
      omega
    · exact absurd h (by simp)
  · intro h
    have hh : ∀ a, 0 ≤ d.start j idx a + (d.window j a : ℤ) ∧ d.start j idx a + (d.window j a : ℤ) < s.size a :=
      fun a => by
        rw [h a]
        exact ⟨Int.natCast_nonneg _, by exact_mod_cast (i a).isLt⟩
    rw [dif_pos hh]
    congr 1
    funext a
    refine Fin.ext ?_
    show (d.start j idx a + (d.window j a : ℤ)).toNat = (i a).val
    rw [h a]
    exact Int.toNat_natCast _

/-- On the extended reals the host's accumulating scatter is the exact sum of the landing updates, whatever its
    dimension numbers. -/
theorem hostScatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## Accumulating into an [n] array -/

/-- The dimension numbers of the scatter that sends update e of a [k] array to position word e of an [n] operand. -/
abbrev addDims1 (n k : Nat) (wf : ScatterDims.WF ⟨1, ![n]⟩ ⟨2, ![k, 1]⟩ ⟨1, ![k]⟩ [] [0] [0] 1) :
    ScatterDims ⟨1, ![n]⟩ ⟨2, ![k, 1]⟩ ⟨1, ![k]⟩ where
  updateWindowDims := []
  insertedWindowDims := [0]
  scatterDimsToOperandDims := [0]
  indexVectorDim := 1
  wf := wf

section Add1
variable {n k w : Nat} (wf : ScatterDims.WF ⟨1, ![n]⟩ ⟨2, ![k, 1]⟩ ⟨1, ![k]⟩ [] [0] [0] 1)
  (idx : IVec ⟨2, ![k, 1]⟩ w) (e : Fin k)

theorem addDims1_start : (addDims1 n k wf).start (ix1 e) idx 0 = (idx (ix2 e (0 : Fin 1))).toInt := by
  unfold ScatterDims.start
  rw [dif_pos (show (0 : Fin 1) ∈ (addDims1 n k wf).scatterDimsToOperandDims from List.mem_singleton.mpr rfl)]
  have hsi : (addDims1 n k wf).siIdx (ix1 e) ⟨List.idxOf (0 : Fin 1) (addDims1 n k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims1_window : (addDims1 n k wf).window (ix1 e) 0 = 0 := by
  unfold ScatterDims.window
  rw [dif_neg (show (0 : Fin 1) ∉ (addDims1 n k wf).sKept from by
    simp [ScatterDims.sKept, Shape.kept])]

/-- Update e lands on position p exactly when word e, read signed, is p. -/
theorem addDims1_lands (p : Fin n) :
    (addDims1 n k wf).resultIdx? (ix1 e) idx = some (ix1 p) ↔ (idx (ix2 e (0 : Fin 1))).toInt = (p.val : ℤ) := by
  rw [resultIdx?_eq_some_iff, Fin.forall_fin_one, addDims1_start, addDims1_window]
  show (idx (ix2 e (0 : Fin 1))).toInt + ((0 : ℕ) : ℤ) = (p.val : ℤ) ↔ _
  rw [Int.natCast_zero, Int.add_zero]

end Add1

/-- The accumulating scatter into an [n] array read at p: the operand there plus, over all e, the update at e
    when word e is p. -/
theorem scatterAdd1_apply {n k w : Nat} (wf : ScatterDims.WF ⟨1, ![n]⟩ ⟨2, ![k, 1]⟩ ⟨1, ![k]⟩ [] [0] [0] 1)
    (x : (⟨1, ![n]⟩ : Shape).Idx → EReal) (idx : IVec ⟨2, ![k, 1]⟩ w) (upd : (⟨1, ![k]⟩ : Shape).Idx → EReal)
    (p : Fin n) :
    Ideal.hostScatterAdd (addDims1 n k wf) x idx upd (ix1 p)
      = x (ix1 p) + ∑ e : Fin k, if (idx (ix2 e (0 : Fin 1))).toInt = (p.val : ℤ) then upd (ix1 e) else 0 := by
  unfold Ideal.hostScatterAdd
  congr 1
  rw [Finset.sum_filter, sum_idx1]
  refine Finset.sum_congr rfl fun e _ => ?_
  by_cases h : (idx (ix2 e (0 : Fin 1))).toInt = (p.val : ℤ)
  · rw [if_pos ((addDims1_lands wf idx e p).mpr h), if_pos h]
  · rw [if_neg (fun h' => h ((addDims1_lands wf idx e p).mp h')), if_neg h]

/-! ## Accumulating rows into an [n, c] array -/

/-- The dimension numbers of the scatter that sends row e of a [k, c] array to row word e of an [n, c] operand. -/
abbrev addDims2 (n c k : Nat) (wf : ScatterDims.WF ⟨2, ![n, c]⟩ ⟨2, ![k, 1]⟩ ⟨2, ![k, c]⟩ [1] [0] [0] 1) :
    ScatterDims ⟨2, ![n, c]⟩ ⟨2, ![k, 1]⟩ ⟨2, ![k, c]⟩ where
  updateWindowDims := [1]
  insertedWindowDims := [0]
  scatterDimsToOperandDims := [0]
  indexVectorDim := 1
  wf := wf

section Add2
variable {n c k w : Nat} (wf : ScatterDims.WF ⟨2, ![n, c]⟩ ⟨2, ![k, 1]⟩ ⟨2, ![k, c]⟩ [1] [0] [0] 1)
  (idx : IVec ⟨2, ![k, 1]⟩ w) (e : Fin k) (q : Fin c)

theorem addDims2_start0 : (addDims2 n c k wf).start (ix2 e q) idx 0 = (idx (ix2 e (0 : Fin 1))).toInt := by
  unfold ScatterDims.start
  rw [dif_pos (show (0 : Fin 2) ∈ (addDims2 n c k wf).scatterDimsToOperandDims from List.mem_singleton.mpr rfl)]
  have hsi : (addDims2 n c k wf).siIdx (ix2 e q) ⟨List.idxOf (0 : Fin 2) (addDims2 n c k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims2_start1 : (addDims2 n c k wf).start (ix2 e q) idx 1 = 0 := by
  unfold ScatterDims.start
  rw [dif_neg (show (1 : Fin 2) ∉ (addDims2 n c k wf).scatterDimsToOperandDims from
    show (1 : Fin 2) ∉ ([0] : List (Fin 2)) from by decide)]

theorem addDims2_window0 : (addDims2 n c k wf).window (ix2 e q) 0 = 0 := by
  unfold ScatterDims.window
  rw [dif_neg (show (0 : Fin 2) ∉ (addDims2 n c k wf).sKept from by
    simp [ScatterDims.sKept, Shape.kept])]

theorem addDims2_window1 : (addDims2 n c k wf).window (ix2 e q) 1 = q.val := by
  unfold ScatterDims.window
  rw [dif_pos (show (1 : Fin 2) ∈ (addDims2 n c k wf).sKept from by
    simp [ScatterDims.sKept, Shape.kept])]
  rfl

/-- Entry (e, q) lands on (p, r) exactly when word e, read signed, is p and q is r. -/
theorem addDims2_lands (p : Fin n) (r : Fin c) :
    (addDims2 n c k wf).resultIdx? (ix2 e q) idx = some (ix2 p r)
      ↔ (idx (ix2 e (0 : Fin 1))).toInt = (p.val : ℤ) ∧ q = r := by
  rw [resultIdx?_eq_some_iff, Fin.forall_fin_two, addDims2_start0, addDims2_start1, addDims2_window0, addDims2_window1]
  show (idx (ix2 e (0 : Fin 1))).toInt + ((0 : ℕ) : ℤ) = (p.val : ℤ) ∧ (0 : ℤ) + (q.val : ℤ) = (r.val : ℤ) ↔ _
  rw [Int.natCast_zero, Int.add_zero, Int.zero_add]
  exact and_congr_right fun _ => ⟨fun h => Fin.ext (by exact_mod_cast h), fun h => by rw [h]⟩

end Add2

/-- The accumulating scatter of rows into an [n, c] array read at (p, r): the operand there plus, over all e, the
    update at (e, r) when word e is p. -/
theorem scatterAdd2_apply {n c k w : Nat}
    (wf : ScatterDims.WF ⟨2, ![n, c]⟩ ⟨2, ![k, 1]⟩ ⟨2, ![k, c]⟩ [1] [0] [0] 1)
    (x : (⟨2, ![n, c]⟩ : Shape).Idx → EReal) (idx : IVec ⟨2, ![k, 1]⟩ w) (upd : (⟨2, ![k, c]⟩ : Shape).Idx → EReal)
    (p : Fin n) (r : Fin c) :
    Ideal.hostScatterAdd (addDims2 n c k wf) x idx upd (ix2 p r)
      = x (ix2 p r)
        + ∑ e : Fin k, if (idx (ix2 e (0 : Fin 1))).toInt = (p.val : ℤ) then upd (ix2 e r) else 0 := by
  unfold Ideal.hostScatterAdd
  congr 1
  rw [Finset.sum_filter, sum_idx2]
  refine Finset.sum_congr rfl fun e _ => ?_
  by_cases h : (idx (ix2 e (0 : Fin 1))).toInt = (p.val : ℤ)
  · rw [if_pos h, Finset.sum_eq_single r]
    · rw [if_pos ((addDims2_lands wf idx e r p r).mpr ⟨h, rfl⟩)]
    · intro q _ hq
      rw [if_neg (fun h' => hq ((addDims2_lands wf idx e q p r).mp h').2)]
    · intro hr; exact absurd (Finset.mem_univ r) hr
  · rw [if_neg h]
    refine Finset.sum_eq_zero fun q _ => ?_
    rw [if_neg (fun h' => h ((addDims2_lands wf idx e q p r).mp h').1)]

end Cert.LibEdgeTable

end
-- ==== Proof.KIHostAgg.lean ====
/-
  The host operations after the first kernel region, read at an index, on the extended reals.

  Between the two regions the program reshapes the five-channel message array [5, 50000, 128] to [5, E], and for each
  channel slices its row out, flattens it, and adds it segment-wise into a zero array of N entries by the dst words
  of the edge table (a scatter with an adding body); the five results, each given a leading unit axis, are stacked
  into [5, N]. Read at (k, n) that is, from the zero constant, the sum over the edges whose dst word is n of channel k
  of the messages at the edge's (row, lane) = (e / 128, e % 128). After the second region the [2, N] result is
  transposed to [N, 2].
-/
import proofs.«402730_j53644141527384_3_alg».proof.Proof.Gen.KernelIdeal.Launch
import proofs.«402730_j53644141527384_3_alg».proof.Proof.Spec
import proofs.«402730_j53644141527384_3_alg».proof.Proof.LibEdgeTable
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open scoped BigOperators

/-! ## The five segment sums and their stacking -/

/-- Channel c's segment sum as the stretch composes it: the messages reshaped to [5, E], row c sliced out and
    flattened, scattered with an adding body by the table (as a one-column array) into the zero array, and the
    result given a leading unit axis. -/
def segOf (c : Fin 5) (hS : S5x6400000.Slices ![c.val, 0] S1x6400000)
    (x10 : S5x50000x128.Idx → EReal) (w5 : S6400000.Idx → BitVec 32) : S1x100000.Idx → EReal :=
  broadcastInDim S1x100000 ![1] bcast_S100000_S1x100000_1
    (Host.scatterAdd (F := Ideal) (φ := .f32) scatter_S100000_S6400000x1_S6400000_n_0_0_1
      (broadcastInDim S100000 ![] bcast_S_S100000 (constant (F := Ideal) S_ .f32 0x00000000#32))
      (broadcastInDim S6400000x1 ![0] bcast_S6400000_S6400000x1_0 w5)
      (shapeCast S6400000 (extractStridedSlice S1x6400000 ![c.val, 0]
        (shapeCast S5x6400000 x10 shapeCasts_S5x50000x128_S5x6400000) hS) shapeCasts_S1x6400000_S6400000))

/-- One channel's segment sum read at a node: from the zero constant, the sum over the edges whose table word is
    the node of that channel's message, the messages read through the two reshapes and the row slice. -/
theorem seg_read (c : Fin 5) (hS : S5x6400000.Slices ![c.val, 0] S1x6400000)
    (x10 : S5x50000x128.Idx → EReal) (w5 : S6400000.Idx → BitVec 32) (n : Fin 100000) :
    segOf c hS x10 w5 (ix2 (0 : Fin 1) n)
      = Cert.Spec.lit 0x00000000#32 + ∑ e : Fin 6400000,
          if (w5 (ix1 e)).toInt = (n.val : ℤ)
          then x10 (ix3 c ⟨e.val / 128, by omega⟩ ⟨e.val % 128, Nat.mod_lt _ (by decide)⟩) else 0 := by
  unfold segOf
  -- the leading unit axis
  rw [broadcastInDim_apply _ _ _ (ix2 (0 : Fin 1) n) (ix1 n) (fun a => match a with | ⟨0, _⟩ => rfl)]
  -- the accumulating scatter, exact on the extended reals
  rw [Cert.LibEdgeTable.hostScatterAdd_ideal]
  rw [show (scatter_S100000_S6400000x1_S6400000_n_0_0_1 : ScatterDims S100000 S6400000x1 S6400000)
      = Cert.LibEdgeTable.addDims1 100000 6400000 scatter_S100000_S6400000x1_S6400000_n_0_0_1_wf from rfl]
  rw [Cert.LibEdgeTable.scatterAdd1_apply]
  have h0 : broadcastInDim S100000 ![] bcast_S_S100000 (constant (F := Ideal) S_ .f32 0x00000000#32) (ix1 n)
      = Cert.Spec.lit 0x00000000#32 :=
    broadcastInDim_apply _ _ _ (ix1 n) ix0 (fun a => a.elim0)
  rw [h0]
  refine congrArg (Cert.Spec.lit 0x00000000#32 + ·) (Finset.sum_congr rfl fun e _ => ?_)
  have hidx : broadcastInDim S6400000x1 ![0] bcast_S6400000_S6400000x1_0 w5 (ix2 e (0 : Fin 1)) = w5 (ix1 e) :=
    broadcastInDim_apply _ _ _ (ix2 e (0 : Fin 1)) (ix1 e) (fun a => match a with | ⟨0, _⟩ => rfl)
  have hupd : shapeCast S6400000 (extractStridedSlice S1x6400000 ![c.val, 0]
        (shapeCast S5x6400000 x10 shapeCasts_S5x50000x128_S5x6400000) hS) shapeCasts_S1x6400000_S6400000 (ix1 e)
      = x10 (ix3 c ⟨e.val / 128, by omega⟩ ⟨e.val % 128, Nat.mod_lt _ (by decide)⟩) := by
    rw [shapeCast_1a_a_apply]
    rw [slice2_axis0_apply c.val _ hS (0 : Fin 1) e c (by simp)]
    refine shapeCast_apply _ _ _ _ ?_
    rw [Shape.rowMajor_val_three, Shape.rowMajor_val_two]
    show (c.val * 50000 + e.val / 128) * 128 + e.val % 128 = c.val * 6400000 + e.val
    omega
  rw [hidx, hupd]

/-- The five one-row pieces stacked along axis 0 read, at (k, n), piece k at (0, n). -/
theorem stack5_apply (x0 x1 x2 x3 x4 : S1x100000.Idx → EReal) (k : Fin 5) (n : Fin 100000) :
    concatenate S5x100000 0 [⟨S1x100000, x0⟩, ⟨S1x100000, x1⟩, ⟨S1x100000, x2⟩, ⟨S1x100000, x3⟩, ⟨S1x100000, x4⟩]
        concatenates_S1x100000_S1x100000_S1x100000_S1x100000_S1x100000_S5x100000_d0 (ix2 k n)
      = (match k with | ⟨0, _⟩ => x0 | ⟨1, _⟩ => x1 | ⟨2, _⟩ => x2 | ⟨3, _⟩ => x3 | ⟨_ + 4, _⟩ => x4) (ix2 (0 : Fin 1) n) := by
  match k with
  | ⟨0, _⟩ =>
    refine concatenate_apply_piece (t := S5x100000) 0 _ _ _ 0 ?_ S1x100000 x0 ?_ rfl 0 ?_ (ix2 (0 : Fin 1) n) ?_ ?_
    · show (0 : Nat) < 5; decide
    · rfl
    · rfl
    · exact fun b hb => match b, hb with
        | ⟨0, _⟩, hb => absurd rfl hb
        | ⟨1, _⟩, _ => rfl
    · rfl
  | ⟨1, _⟩ =>
    refine concatenate_apply_piece (t := S5x100000) 0 _ _ _ 1 ?_ S1x100000 x1 ?_ rfl 1 ?_ (ix2 (0 : Fin 1) n) ?_ ?_
    · show (1 : Nat) < 5; decide
    · rfl
    · rfl
    · exact fun b hb => match b, hb with
        | ⟨0, _⟩, hb => absurd rfl hb
        | ⟨1, _⟩, _ => rfl
    · rfl
  | ⟨2, _⟩ =>
    refine concatenate_apply_piece (t := S5x100000) 0 _ _ _ 2 ?_ S1x100000 x2 ?_ rfl 2 ?_ (ix2 (0 : Fin 1) n) ?_ ?_
    · show (2 : Nat) < 5; decide
    · rfl
    · rfl
    · exact fun b hb => match b, hb with
        | ⟨0, _⟩, hb => absurd rfl hb
        | ⟨1, _⟩, _ => rfl
    · rfl
  | ⟨3, _⟩ =>
    refine concatenate_apply_piece (t := S5x100000) 0 _ _ _ 3 ?_ S1x100000 x3 ?_ rfl 3 ?_ (ix2 (0 : Fin 1) n) ?_ ?_
    · show (3 : Nat) < 5; decide
    · rfl
    · rfl
    · exact fun b hb => match b, hb with
        | ⟨0, _⟩, hb => absurd rfl hb
        | ⟨1, _⟩, _ => rfl
    · rfl
  | ⟨4, _⟩ =>
    refine concatenate_apply_piece (t := S5x100000) 0 _ _ _ 4 ?_ S1x100000 x4 ?_ rfl 4 ?_ (ix2 (0 : Fin 1) n) ?_ ?_
    · show (4 : Nat) < 5; decide
    · rfl
    · rfl
    · exact fun b hb => match b, hb with
        | ⟨0, _⟩, hb => absurd rfl hb
        | ⟨1, _⟩, _ => rfl
    · rfl

variable (W : Valuation τ sig (Elt Ideal))

/-! Each channel's piece of the stretch, as composed from the entry buffers. -/

theorem seg_piece0 : StableHlo.after (hostOps1 (F := Ideal)) W (Proc.devRef .tc main_v37)
    = segOf 0 slices_S5x6400000_S1x6400000_0_0 (W (Proc.devRef .tc main_v10)) (W (Proc.devRef .tc main_v5)) := by
  after_results_simp
  rfl

theorem seg_piece1 : StableHlo.after (hostOps1 (F := Ideal)) W (Proc.devRef .tc main_v38)
    = segOf 1 slices_S5x6400000_S1x6400000_1_0 (W (Proc.devRef .tc main_v10)) (W (Proc.devRef .tc main_v5)) := by
  after_results_simp
  rfl

theorem seg_piece2 : StableHlo.after (hostOps1 (F := Ideal)) W (Proc.devRef .tc main_v39)
    = segOf 2 slices_S5x6400000_S1x6400000_2_0 (W (Proc.devRef .tc main_v10)) (W (Proc.devRef .tc main_v5)) := by
  after_results_simp
  rfl

theorem seg_piece3 : StableHlo.after (hostOps1 (F := Ideal)) W (Proc.devRef .tc main_v40)
    = segOf 3 slices_S5x6400000_S1x6400000_3_0 (W (Proc.devRef .tc main_v10)) (W (Proc.devRef .tc main_v5)) := by
  after_results_simp
  rfl

theorem seg_piece4 : StableHlo.after (hostOps1 (F := Ideal)) W (Proc.devRef .tc main_v41)
    = segOf 4 slices_S5x6400000_S1x6400000_4_0 (W (Proc.devRef .tc main_v10)) (W (Proc.devRef .tc main_v5)) := by
  after_results_simp
  rfl

/-- The stretch's result is the five pieces stacked. -/
theorem agg_stack : StableHlo.after (hostOps1 (F := Ideal)) W (Proc.devRef .tc main_v42)
    = concatenate S5x100000 0
        [⟨S1x100000, StableHlo.after (hostOps1 (F := Ideal)) W (Proc.devRef .tc main_v37)⟩,
         ⟨S1x100000, StableHlo.after (hostOps1 (F := Ideal)) W (Proc.devRef .tc main_v38)⟩,
         ⟨S1x100000, StableHlo.after (hostOps1 (F := Ideal)) W (Proc.devRef .tc main_v39)⟩,
         ⟨S1x100000, StableHlo.after (hostOps1 (F := Ideal)) W (Proc.devRef .tc main_v40)⟩,
         ⟨S1x100000, StableHlo.after (hostOps1 (F := Ideal)) W (Proc.devRef .tc main_v41)⟩]
        concatenates_S1x100000_S1x100000_S1x100000_S1x100000_S1x100000_S5x100000_d0 := by
  simp only [StableHlo.after_cons, StableHlo.after_nil]
  rw [StableHlo.nary_result]
  rw [StableHlo.nary_result_ne (r := main_v37) (h := by decide), StableHlo.nary_result_ne (r := main_v38) (h := by decide),
    StableHlo.nary_result_ne (r := main_v39) (h := by decide), StableHlo.nary_result_ne (r := main_v40) (h := by decide),
    StableHlo.nary_result_ne (r := main_v41) (h := by decide)]
  rfl

/-- The aggregate the second region reads: channel k at node n is, from the zero constant, the sum over the edges
    whose dst word is n of channel k of the first region's output at the edge's (row, lane). -/
theorem agg_apply (k : Fin 5) (n : Fin 100000) :
    StableHlo.after (hostOps1 (F := Ideal)) W (Proc.devRef .tc main_v42) (ValueIdx.ix2 k n)
      = Cert.Spec.lit 0x00000000#32 + ∑ e : Fin 6400000,
          (if (W (Proc.devRef .tc main_v5) (ValueIdx.ix1 e)).toInt = (n.val : ℤ)
           then W (Proc.devRef .tc main_v10) (ValueIdx.ix3 k ⟨e.val / 128, by omega⟩ ⟨e.val % 128, Nat.mod_lt _ (by decide)⟩)
           else 0 : EReal) := by
  rw [agg_stack, stack5_apply]
  match k with
  | ⟨0, _⟩ => show StableHlo.after (hostOps1 (F := Ideal)) W (Proc.devRef .tc main_v37) (ix2 (0 : Fin 1) n) = _
              rw [seg_piece0]; exact seg_read 0 _ _ _ n
  | ⟨1, _⟩ => show StableHlo.after (hostOps1 (F := Ideal)) W (Proc.devRef .tc main_v38) (ix2 (0 : Fin 1) n) = _
              rw [seg_piece1]; exact seg_read 1 _ _ _ n
  | ⟨2, _⟩ => show StableHlo.after (hostOps1 (F := Ideal)) W (Proc.devRef .tc main_v39) (ix2 (0 : Fin 1) n) = _
              rw [seg_piece2]; exact seg_read 2 _ _ _ n
  | ⟨3, _⟩ => show StableHlo.after (hostOps1 (F := Ideal)) W (Proc.devRef .tc main_v40) (ix2 (0 : Fin 1) n) = _
              rw [seg_piece3]; exact seg_read 3 _ _ _ n
  | ⟨4, _⟩ => show StableHlo.after (hostOps1 (F := Ideal)) W (Proc.devRef .tc main_v41) (ix2 (0 : Fin 1) n) = _
              rw [seg_piece4]; exact seg_read 4 _ _ _ n

/-! ## The final transpose -/

/-- The program's result at (n, k) is the second region's output at (k, n). -/
theorem out_apply (n : Fin 100000) (k : Fin 2) :
    StableHlo.after (hostOps2 (F := Ideal)) W (Proc.devRef .tc main_v44) (ValueIdx.ix2 n k)
      = W (Proc.devRef .tc main_v43) (ValueIdx.ix2 k n) := by
  have e : StableHlo.after (hostOps2 (F := Ideal)) W (Proc.devRef .tc main_v44)
      = transpose S100000x2 [1, 0] (W (Proc.devRef .tc main_v43)) transposes_S2x100000_S100000x2_1_0 := by
    after_results
  rw [e]
  exact transpose_ix2_apply _ _ n k

end Cert.KernelIdeal.Hand

end
-- ==== Proof.KIHost.lean ====
/-
  The host operations before the first kernel region, read at an index, on the extended reals.

  The program concatenates positions and velocities into the [N, 4] node features and transposes them to [4, N];
  slices the two rows of the [2, E] edge table out and flattens them (row 0 the src words, row 1 the dst words);
  takes the columns of the transposed features by the dst words and by the src words; subtracts the second from the
  first; and reshapes the [4, E] difference to [4, E / 128, 128] for the first region.

  A take is composed of: the table with every word below zero moved up by N; a gather of columns by that table
  (the gather clamps each start index into [0, N - 1]); the mask "0 ≤ word ≤ N - 1", both tests and-ed and
  and-reduced over the one-component axis from 1; and a select that keeps the gather where the mask is 1 and puts a
  NaN elsewhere. When every table word lies in [0, N) no word is moved, the mask is 1 everywhere, and the take reads
  the features at the node the word names. So the first region's input at (j, r, l) is feature j at the dst node of
  edge r * 128 + l less feature j at its src node.
-/
import proofs.«402730_j53644141527384_3_alg».proof.Proof.Gen.KernelIdeal.Launch
import proofs.«402730_j53644141527384_3_alg».proof.Proof.Gen.KernelIdeal.Regions
import proofs.«402730_j53644141527384_3_alg».proof.Proof.Spec
import proofs.«402730_j53644141527384_3_alg».proof.Proof.LibHostRows
import proofs.«402730_j53644141527384_3_alg».proof.Proof.KIHostAgg
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open scoped BigOperators

/-! ## Words in the node range -/

/-- A table word that reads non-negative is not wrapped: the select on "word < 0" keeps it. -/
theorem wrap_word (a : BitVec 32) (h0 : 0 ≤ a.toInt) :
    Scalar.select (IntOp.cmpi .slt a 0#32) (IntOp.addi a 100000#32) a = a := by
  have hz : (0#32 : BitVec 32).toInt = 0 := by decide
  have hc : IntOp.cmpi .slt a 0#32 = 0#1 := by
    show BitVec.ofBool (a.slt 0#32) = 0#1
    have : a.slt 0#32 = false := by
      simp only [BitVec.slt, hz, decide_eq_false_iff_not, not_lt]
      exact h0
    rw [this]; rfl
  rw [hc, select_zero]

/-- A table word in [0, 100000) passes both range tests, and the conjunction with the reduction's initial 1 is 1. -/
theorem inrange_word (a : BitVec 32) (h0 : 0 ≤ a.toInt) (h1 : a.toInt < 100000) :
    IntOp.andi (IntOp.andi (IntOp.cmpi .sge a 0#32) (IntOp.cmpi .sle a 99999#32)) 1#1 = 1#1 := by
  have hz : (0#32 : BitVec 32).toInt = 0 := by decide
  have hm : (99999#32 : BitVec 32).toInt = 99999 := by decide
  have hge : IntOp.cmpi .sge a 0#32 = 1#1 := by
    show BitVec.ofBool ((0#32 : BitVec 32).sle a) = 1#1
    have : (0#32 : BitVec 32).sle a = true := by
      simp only [BitVec.sle, hz, decide_eq_true_eq]
      exact h0
    rw [this]; rfl
  have hle : IntOp.cmpi .sle a 99999#32 = 1#1 := by
    show BitVec.ofBool (a.sle 99999#32) = 1#1
    have : a.sle 99999#32 = true := by
      simp only [BitVec.sle, hm, decide_eq_true_eq]
      omega
    rw [this]; rfl
  rw [hge, hle]; decide

/-- A fold over a one-element index set is one application of the operation. -/
theorem fold_fin_one {α : Type} (f : α → α → α) [Std.Commutative f] [Std.Associative f] (b : α) (g : Fin 1 → α) :
    (Finset.univ : Finset (Fin 1)).fold f b g = f (g 0) b := by
  rw [Finset.univ_unique, Finset.fold_singleton]
  rfl

/-! ## Taking columns by a table, as the program composes it -/

/-- The table as the gather's one-column start indices: each word below zero moved up by the column count. -/
def wrapIdx (w : S6400000.Idx → BitVec 32) : IVec S6400000x1 32 :=
  broadcastInDim S6400000x1 ![0] bcast_S6400000_S6400000x1_0
    (select (cmpi .slt w (broadcastInDim S6400000 ![] bcast_S_S6400000 (constantI S_ 32 0#32)))
      (addi w (broadcastInDim S6400000 ![] bcast_S_S6400000 (constantI S_ 32 100000#32))) w)

/-- Taking the columns of a [4, N] array by a table of E words: the gather at the wrapped table (which clamps),
    kept where the wrapped word lies in [0, N - 1] (both tests, and-reduced over the one-component axis from 1) and
    replaced by the NaN fill elsewhere. -/
def takeOf (x1 : S4x100000.Idx → EReal) (w : S6400000.Idx → BitVec 32) : S4x6400000.Idx → EReal :=
  select
    (broadcastInDim S4x6400000 ![1] bcast_S6400000_S4x6400000_1
      (Host.reduce IntOp.andi
        (andi (cmpi .sge (wrapIdx w) (broadcastInDim S6400000x1 ![] bcast_S_S6400000x1 (constantI S_ 32 0#32)))
          (cmpi .sle (wrapIdx w) (broadcastInDim S6400000x1 ![0, 1] bcast_S1x1_S6400000x1_0_1
            (broadcastInDim S1x1 ![1] bcast_S1_S1x1_1 (constantI S1 32 99999#32)))))
        (constantI S_ 1 1#1) reducesTo_S6400000x1_S6400000_d1 h_S_))
    (Host.gather gather_S4x100000_S6400000x1_S4x6400000_0_1_n_n_1_1_41 x1 (wrapIdx w))
    (broadcastInDim S4x6400000 ![] bcast_S_S4x6400000 (constant (F := Ideal) S_ .f32 0x7FC00000#32))

/-- The wrapped table at entry e is the table's word there when that word reads non-negative. -/
theorem wrapIdx_apply (w : S6400000.Idx → BitVec 32) (e : Fin 6400000) (h0 : 0 ≤ (w (ix1 e)).toInt) :
    wrapIdx w (ix2 e (0 : Fin 1)) = w (ix1 e) := by
  unfold wrapIdx
  rw [broadcastInDim_apply _ _ _ (ix2 e (0 : Fin 1)) (ix1 e) (fun a => match a with | ⟨0, _⟩ => rfl)]
  exact wrap_word (w (ix1 e)) h0

/-- Under the range condition the take reads the array at the column the table word names. -/
theorem takeOf_apply (x1 : S4x100000.Idx → EReal) (w : S6400000.Idx → BitVec 32) (j : Fin 4) (e : Fin 6400000)
    (h0 : 0 ≤ (w (ix1 e)).toInt) (h1 : (w (ix1 e)).toInt < 100000) :
    takeOf x1 w (ix2 j e) = x1 (ix2 j (Cert.Spec.node (w (ix1 e)))) := by
  have hred : S6400000x1.Reduces [1] S6400000 := by decide
  -- the in-range mask at e is 1
  have hmask : Host.reduce IntOp.andi
        (andi (cmpi .sge (wrapIdx w) (broadcastInDim S6400000x1 ![] bcast_S_S6400000x1 (constantI S_ 32 0#32)))
          (cmpi .sle (wrapIdx w) (broadcastInDim S6400000x1 ![0, 1] bcast_S1x1_S6400000x1_0_1
            (broadcastInDim S1x1 ![1] bcast_S1_S1x1_1 (constantI S1 32 99999#32)))))
        (constantI S_ 1 1#1) reducesTo_S6400000x1_S6400000_d1 h_S_ (ix1 e) = 1#1 := by
    rw [Host.reduce_eq_fold_single IntOp.andi _ _ reducesTo_S6400000x1_S6400000_d1 hred h_S_ (ix1 e)]
    refine (fold_fin_one IntOp.andi _ _).trans ?_
    have hl : hred.lift (ix1 e) (0 : Fin 1) = ix2 e (0 : Fin 1) := by
      funext c; refine Fin.ext ?_
      match c with
      | ⟨0, _⟩ => rfl
      | ⟨1, _⟩ => rfl
    show IntOp.andi (IntOp.andi (IntOp.cmpi .sge (wrapIdx w (hred.lift (ix1 e) (0 : Fin 1))) 0#32)
      (IntOp.cmpi .sle (wrapIdx w (hred.lift (ix1 e) (0 : Fin 1))) 99999#32)) 1#1 = 1#1
    rw [hl, wrapIdx_apply w e h0]
    exact inrange_word _ h0 h1
  unfold takeOf
  rw [select_apply]
  rw [broadcastInDim_apply _ _ _ (ix2 j e) (ix1 e) (fun a => match a with | ⟨0, _⟩ => rfl)]
  rw [hmask, select_one]
  rw [show (gather_S4x100000_S6400000x1_S4x6400000_0_1_n_n_1_1_41 : GatherDims S4x100000 S6400000x1 S4x6400000)
      = Cert.LibHostRows.colsDims 4 100000 6400000 gather_S4x100000_S6400000x1_S4x6400000_0_1_n_n_1_1_41_wf from rfl]
  rw [Cert.LibHostRows.gather_cols_apply (by decide)]
  refine congrArg (fun c => x1 (ix2 j c)) (Fin.ext ?_)
  show min (wrapIdx w (ix2 e (0 : Fin 1))).toInt.toNat (100000 - 1) = min (w (ix1 e)).toInt.toNat 99999
  rw [wrapIdx_apply w e h0]

/-! ## A tensor value's buffer holds the value -/

variable (W : Valuation τ sig (Elt Ideal))

/-- A tensor value's contents moved to its buffer's type and back are unchanged. -/
theorem ofBuf_toBuf {T : BufTy} (x : StableHlo.TRef sig T) (v : T.Contents (Elt Ideal)) :
    x.ofBuf (x.toBuf v) = v := by
  simp [StableHlo.TRef.ofBuf, StableHlo.TRef.toBuf]

theorem ofBuf_v5 (h1 h2 h3) : (StableHlo.TRef.of main_v5 h1 h2 h3 : StableHlo.TRef sig ⟨S6400000, .i32⟩).ofBuf (W (Proc.devRef .tc main_v5)) = W (Proc.devRef .tc main_v5) := rfl
theorem ofBuf_v3 (h1 h2 h3) : (StableHlo.TRef.of main_v3 h1 h2 h3 : StableHlo.TRef sig ⟨S6400000, .i32⟩).ofBuf (W (Proc.devRef .tc main_v3)) = W (Proc.devRef .tc main_v3) := rfl
theorem ofBuf_v1 (h1 h2 h3) : (StableHlo.TRef.of main_v1 h1 h2 h3 : StableHlo.TRef sig ⟨S4x100000, .f32⟩).ofBuf (W (Proc.devRef .tc main_v1)) = W (Proc.devRef .tc main_v1) := rfl
theorem toBuf_v6 (h1 h2 h3) (x : S4x6400000.Idx → EReal) :
    ((StableHlo.TRef.of main_v6 h1 h2 h3 : StableHlo.TRef sig ⟨S4x6400000, .f32⟩).toBuf (Val := Elt Ideal) x) = (x : (Proc.devRef (τ := τ) .tc main_v6).ty.Contents (Elt Ideal)) := rfl
theorem toBuf_v7 (h1 h2 h3) (x : S4x6400000.Idx → EReal) :
    ((StableHlo.TRef.of main_v7 h1 h2 h3 : StableHlo.TRef sig ⟨S4x6400000, .f32⟩).toBuf (Val := Elt Ideal) x) = (x : (Proc.devRef (τ := τ) .tc main_v7).ty.Contents (Elt Ideal)) := rfl

/-! ## The stretches, as composed from their entry buffers -/

/-- The first stretch: the transposed features, and the two rows of the edge table flattened. -/
theorem feat_eq : StableHlo.after (hostOps0 (F := Ideal)) W (Proc.devRef .tc main_v1)
    = transpose S4x100000 [1, 0]
        (concatenate S100000x4 1 [⟨S100000x2, W (Proc.devRef .tc main_arg0)⟩, ⟨S100000x2, W (Proc.devRef .tc main_arg1)⟩]
          concatenates_S100000x2_S100000x2_S100000x4_d1)
        transposes_S100000x4_S4x100000_1_0 := by
  after_results_simp

theorem src_eq : StableHlo.after (hostOps0 (F := Ideal)) W (Proc.devRef .tc main_v3)
    = shapeCast S6400000 (extractStridedSlice S1x6400000 ![0, 0] (W (Proc.devRef .tc main_arg2))
        slices_S2x6400000_S1x6400000_0_0) shapeCasts_S1x6400000_S6400000 := by
  after_results_simp
  rfl

theorem dst_eq : StableHlo.after (hostOps0 (F := Ideal)) W (Proc.devRef .tc main_v5)
    = shapeCast S6400000 (extractStridedSlice S1x6400000 ![1, 0] (W (Proc.devRef .tc main_arg2))
        slices_S2x6400000_S1x6400000_1_0) shapeCasts_S1x6400000_S6400000 := by
  after_results_simp
  rfl

/-- The take by the dst words. -/
theorem take1_eq : StableHlo.after (hostOps0_1 (F := Ideal)) W (Proc.devRef .tc main_v6)
    = takeOf (W (Proc.devRef .tc main_v1)) (W (Proc.devRef .tc main_v5)) := by
  after_results_simp
  simp only [ofBuf_toBuf, ofBuf_v5, ofBuf_v1]
  refine (toBuf_v6 _ _ _ _).trans ?_
  rfl

/-- The take by the src words. -/
theorem take2_eq : StableHlo.after (hostOps0_2 (F := Ideal)) W (Proc.devRef .tc main_v7)
    = takeOf (W (Proc.devRef .tc main_v1)) (W (Proc.devRef .tc main_v3)) := by
  after_results_simp
  simp only [ofBuf_toBuf, ofBuf_v3, ofBuf_v1]
  refine (toBuf_v7 _ _ _ _).trans ?_
  rfl

/-- The difference, reshaped to rows of 128 lanes. -/
theorem diff_eq : StableHlo.after (hostOps0_3 (F := Ideal)) W (Proc.devRef .tc main_v9)
    = shapeCast S4x50000x128 (subf (F := Ideal) (φ := .f32) (W (Proc.devRef .tc main_v6)) (W (Proc.devRef .tc main_v7)))
        shapeCasts_S4x6400000_S4x50000x128 := by
  after_results_simp
  rfl

/-! ## The value bridge on the kernel's host side, before the first region -/

variable (V : Valuation τ sig (Elt Ideal))

/-- The node features as the program's first host operation builds them: positions and velocities side by side. -/
abbrev hfeat : (⟨S100000x4, .f32⟩ : BufTy).Contents (Elt Ideal) :=
  concatenate S100000x4 1 [⟨S100000x2, V (Proc.devRef .tc main_arg0)⟩, ⟨S100000x2, V (Proc.devRef .tc main_arg1)⟩]
    concatenates_S100000x2_S100000x2_S100000x4_d1

/-- The buffers' contents when the first region is entered: the four host stretches in order. -/
abbrev V4 : Valuation τ sig (Elt Ideal) :=
  StableHlo.after hostOps0_3 (StableHlo.after hostOps0_2 (StableHlo.after hostOps0_1 (StableHlo.after hostOps0 V)))

/-- A row of the edge table sliced out and flattened reads, at e, the table at (row, e). -/
theorem row_apply (ei : S2x6400000.Idx → BitVec 32) (r : Fin 2) (hS : S2x6400000.Slices ![r.val, 0] S1x6400000)
    (e : Fin 6400000) :
    shapeCast S6400000 (extractStridedSlice S1x6400000 ![r.val, 0] ei hS) shapeCasts_S1x6400000_S6400000 (ix1 e)
      = ei (ix2 r e) := by
  rw [shapeCast_1a_a_apply]
  exact slice2_axis0_apply r.val ei hS (0 : Fin 1) e r (by simp)

/-- The dst words the later segment sums read are row 1 of the edge table. -/
theorem dst_apply (e : Fin 6400000) :
    V4 V (Proc.devRef .tc main_v5) (ValueIdx.ix1 e) = V (Proc.devRef .tc main_arg2) (ValueIdx.ix2 1 e) := by
  show StableHlo.after hostOps0_3 (StableHlo.after hostOps0_2 (StableHlo.after hostOps0_1 (StableHlo.after hostOps0 V)))
    (Proc.devRef .tc main_v5) (ix1 e) = _
  rw [StableHlo.after_of_writes_sub (r := main_v5) hostOps0_3 _ hostOps0_3_writes (by decide),
    StableHlo.after_of_writes_sub (r := main_v5) hostOps0_2 _ hostOps0_2_writes (by decide),
    StableHlo.after_of_writes_sub (r := main_v5) hostOps0_1 _ hostOps0_1_writes (by decide), dst_eq]
  exact row_apply (V (Proc.devRef .tc main_arg2)) 1 slices_S2x6400000_S1x6400000_1_0 e

/-- What the first region reads: at (j, r, l), feature j of the difference of edge r * 128 + l, the feature at its
    dst node less that at its src node, every table word being a node. -/
theorem diff_apply (hr : Cert.Spec.InRange (V (Proc.devRef .tc main_arg2))) (j : Fin 4) (r : Fin 50000) (l : Fin 128) :
    V4 V (Proc.devRef .tc main_v9) (ValueIdx.ix3 j r l)
      = Cert.Spec.dfeat (hfeat V) (V (Proc.devRef .tc main_arg2)) ⟨r.val * 128 + l.val, by omega⟩ j := by
  have hd := hr 1 ⟨r.val * 128 + l.val, by omega⟩
  have hs := hr 0 ⟨r.val * 128 + l.val, by omega⟩
  generalize hE : (⟨r.val * 128 + l.val, by omega⟩ : Fin 6400000) = e at hd hs ⊢
  have hev : e.val = r.val * 128 + l.val := by rw [← hE]
  show StableHlo.after hostOps0_3 (StableHlo.after hostOps0_2 (StableHlo.after hostOps0_1 (StableHlo.after hostOps0 V)))
    (Proc.devRef .tc main_v9) (ix3 j r l) = _
  -- the reshape and the subtraction
  rw [diff_eq]
  rw [shapeCast_apply _ _ (ix3 j r l) (ix2 j e) (by
    rw [Shape.rowMajor_val_two, Shape.rowMajor_val_three]
    show j.val * 6400000 + e.val = (j.val * 50000 + r.val) * 128 + l.val
    omega)]
  rw [subf_apply]
  -- the two takes, each from the first stretch's buffers
  rw [StableHlo.after_of_writes_sub (r := main_v6) hostOps0_2 _ hostOps0_2_writes (by decide)]
  rw [take1_eq, take2_eq]
  rw [StableHlo.after_of_writes_sub (r := main_v1) hostOps0_1 _ hostOps0_1_writes (by decide),
    StableHlo.after_of_writes_sub (r := main_v3) hostOps0_1 _ hostOps0_1_writes (by decide)]
  rw [feat_eq, src_eq, dst_eq]
  have hwd : shapeCast S6400000 (extractStridedSlice S1x6400000 ![1, 0] (V (Proc.devRef .tc main_arg2))
        slices_S2x6400000_S1x6400000_1_0) shapeCasts_S1x6400000_S6400000 (ix1 e)
      = V (Proc.devRef .tc main_arg2) (ix2 1 e) :=
    row_apply (V (Proc.devRef .tc main_arg2)) 1 slices_S2x6400000_S1x6400000_1_0 e
  have hws : shapeCast S6400000 (extractStridedSlice S1x6400000 ![0, 0] (V (Proc.devRef .tc main_arg2))
        slices_S2x6400000_S1x6400000_0_0) shapeCasts_S1x6400000_S6400000 (ix1 e)
      = V (Proc.devRef .tc main_arg2) (ix2 0 e) :=
    row_apply (V (Proc.devRef .tc main_arg2)) 0 slices_S2x6400000_S1x6400000_0_0 e
  rw [takeOf_apply _ _ j e (by rw [hwd]; exact hd.1) (by rw [hwd]; exact hd.2),
    takeOf_apply _ _ j e (by rw [hws]; exact hs.1) (by rw [hws]; exact hs.2)]
  rw [hwd, hws, transpose_ix2_apply, transpose_ix2_apply]
  rfl

end Cert.KernelIdeal.Hand

end
-- ==== Proof.KIValue.lean ====
import proofs.«402730_j53644141527384_3_alg».proof.Proof.KIRun
import proofs.«402730_j53644141527384_3_alg».proof.Proof.KIEdgeValue
import proofs.«402730_j53644141527384_3_alg».proof.Proof.KINodeValue
import proofs.«402730_j53644141527384_3_alg».proof.Proof.KIHost
import proofs.«402730_j53644141527384_3_alg».proof.Proof.Spec

/-!
# The kernel program's result, index by index

The result buffer ends at the last boundary's contents.  Read backwards: the last host stretch transposes the second
call's output array; that array holds, at node n, the two outputs of the five components accumulated at n; each
accumulated component is, from zero, the sum over the edges whose dst word is n of the first call's output at that
edge; the first call's output at an edge is the message of the edge's feature difference; and the feature difference
is the node features picked at the edge's two words, which name nodes because every word of the table is in range.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ)

local notation "HF" => hfeat

/-- The second call's output array at (k, n): output k of the five components at node n. -/
theorem nodeArr_apply (x : Vec Ideal S5x100000 .f32) (k : Fin 2) (n : Fin 100000) :
    nodeArr x (ix2 k n) = Cert.Spec.nodeOut k (x (ix2 0 n)) (x (ix2 1 n)) (x (ix2 2 n)) (x (ix2 3 n)) (x (ix2 4 n)) := rfl

/-- Output k of node n, from the five accumulated components. -/
theorem G_unfold (h : (⟨2, ![100000, 4]⟩ : Shape).Idx → EReal) (ei : (⟨2, ![2, 6400000]⟩ : Shape).Idx → BitVec 32) (n : Fin 100000) (k : Fin 2) :
    Cert.Spec.G h ei n k = Cert.Spec.nodeOut k (Cert.Spec.agg h ei 0 n) (Cert.Spec.agg h ei 1 n) (Cert.Spec.agg h ei 2 n)
      (Cert.Spec.agg h ei 3 n) (Cert.Spec.agg h ei 4 n) := rfl

set_option maxHeartbeats 1000000 in
/-- Under the table's range condition the result at (n, k) is output k of node n. -/
theorem kernel_value (c : Dev nD) (hr : Cert.Spec.InRange (B0 m c (Proc.devRef .tc main_arg2))) (n : Fin 100000) (k : Fin 2) :
    B8 m c (Proc.devRef .tc main_v44) (ix2 n k) = Cert.Spec.G (hfeat (B0 m c)) (B0 m c (Proc.devRef .tc main_arg2)) n k := by
  have hagg : ∀ j : Fin 5, B6 m c (Proc.devRef .tc main_v42) (ix2 j n)
      = Cert.Spec.agg (HF (B0 m c)) (B0 m c (Proc.devRef .tc main_arg2)) j n := by
    intro j
    refine (agg_apply (B5 m c) j n).trans ?_
    refine congrArg (Cert.Spec.lit 0x00000000#32 + ·) (Finset.sum_congr rfl fun e _ => ?_)
    have h5 : B5 m c (Proc.devRef .tc main_v5) (ix1 e) = B0 m c (Proc.devRef .tc main_arg2) (ix2 1 e) :=
      (congrFun (B5_of_ne m c main_v5 (by decide)) (ix1 e)).trans (dst_apply (B0 m c) e)
    have he : (⟨e.val / 128 * 128 + e.val % 128, by omega⟩ : Fin 6400000) = e := Fin.ext (Nat.div_add_mod' _ _)
    have hd : ∀ j' : Fin 4, R4 m c main_v9 (ix3 j' ⟨e.val / 128, by omega⟩ ⟨e.val % 128, Nat.mod_lt _ (by decide)⟩)
        = Cert.Spec.dfeat (HF (B0 m c)) (B0 m c (Proc.devRef .tc main_arg2)) e j' := fun j' =>
      (diff_apply (B0 m c) hr j' ⟨e.val / 128, by omega⟩ ⟨e.val % 128, Nat.mod_lt _ (by decide)⟩).trans
        (congrArg (fun e' => Cert.Spec.dfeat (HF (B0 m c)) (B0 m c (Proc.devRef .tc main_arg2)) e' j') he)
    have h10 : B5 m c (Proc.devRef .tc main_v10) (ix3 j ⟨e.val / 128, by omega⟩ ⟨e.val % 128, Nat.mod_lt _ (by decide)⟩)
        = Cert.Spec.emsg (HF (B0 m c)) (B0 m c (Proc.devRef .tc main_arg2)) j e :=
      (congrFun ((B5_arr m c 1).trans (edge_final (R4 m) c)) _).trans
        (congr (congr (congr (congrArg (Cert.Spec.edgeMsg j) (hd 0)) (hd 1)) (hd 2)) (hd 3))
    exact if_congr (by rw [h5]) h10 rfl
  -- the last stretch transposes the second call's output; that output, node by node, is the two outputs of the
  -- node's five accumulated components
  refine (out_apply (B7 m c) n k).trans ?_
  refine (congrFun ((B7_arr m c 1).trans (node_final (R6 m) c)) (ix2 k n)).trans ?_
  refine (nodeArr_apply _ k n).trans ?_
  refine Eq.trans ?_ (G_unfold _ _ n k).symm
  exact congr (congr (congr (congr (congrArg (Cert.Spec.nodeOut k) (hagg 0)) (hagg 1)) (hagg 2)) (hagg 3)) (hagg 4)

end Cert.KernelIdeal.Hand

end
-- ==== Proof.RefChunks.lean ====
/-
  The reference program's operation list cut into four consecutive stretches, and the value its last
  operation writes as the composition of the per-operation stage functions of the reading module.

  The stretches end at the values everything later depends on: the per-edge feature difference, the
  zero-masked per-edge message, the per-node aggregate (sums and means side by side), and the result. Each
  stretch is run from an ARBITRARY entry valuation, with the values it needs from before as hypotheses, so no
  term ever holds more than one stretch's composition.
-/
import proofs.«402730_j53644141527384_3_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations up to the per-edge feature difference (it also writes the raw destination table, read again by the scatters). -/
abbrev c1 : List (HloOp τ sig (Elt F)) :=
  [ binary main_arg0 main_arg1 main_v0 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)),
    unary main_arg2 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    unary main_arg2 main_v3 ((extractStridedSlice S1x6400000 ![1, 0] · slices_S2x6400000_S1x6400000_1_0) : (⟨S2x6400000, .i32⟩ : BufTy).Contents (Elt F) → (⟨S1x6400000, .i32⟩ : BufTy).Contents (Elt F)),
    reshape main_v3 main_v4 rfl shapeCasts_S1x6400000_S6400000,
    nullary main_c (constantI S_ 32 0#32),
    unary main_c main_v5 (broadcastInDim S6400000 ![] bcast_S_S6400000 : (⟨S_, .i32⟩ : BufTy).Contents (Elt F) → (⟨S6400000, .i32⟩ : BufTy).Contents (Elt F)),
    binary main_v4 main_v5 main_v6 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v7 (broadcastInDim S6400000 ![] bcast_S_S6400000 : (⟨S_, .i32⟩ : BufTy).Contents (Elt F) → (⟨S6400000, .i32⟩ : BufTy).Contents (Elt F)),
    binary main_v4 main_v7 main_v8 (addi : (⟨S6400000, .i32⟩ : BufTy).Contents (Elt F) → (⟨S6400000, .i32⟩ : BufTy).Contents (Elt F) → (⟨S6400000, .i32⟩ : BufTy).Contents (Elt F)),
    ternary main_v6 main_v8 main_v4 main_v9 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v9 main_v10 (broadcastInDim S6400000x1 ![0] bcast_S6400000_S6400000x1_0 : (⟨S6400000, .i32⟩ : BufTy).Contents (Elt F) → (⟨S6400000x1, .i32⟩ : BufTy).Contents (Elt F)),
    binary main_v0 main_v10 main_v11 ((fun x i => Host.gather gather_S100000x4_S6400000x1_S6400000x4_1_0_n_n_0_1_14 x i) : (⟨S100000x4, .f32⟩ : BufTy).Contents (Elt F) → (⟨S6400000x1, .i32⟩ : BufTy).Contents (Elt F) → (⟨S6400000x4, .f32⟩ : BufTy).Contents (Elt F)),
    nullary main_c_1 (constantI S_ 32 0#32),
    unary main_c_1 main_v12 (broadcastInDim S6400000 ![] bcast_S_S6400000 : (⟨S_, .i32⟩ : BufTy).Contents (Elt F) → (⟨S6400000, .i32⟩ : BufTy).Contents (Elt F)),
    binary main_v2 main_v12 main_v13 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v14 (broadcastInDim S6400000 ![] bcast_S_S6400000 : (⟨S_, .i32⟩ : BufTy).Contents (Elt F) → (⟨S6400000, .i32⟩ : BufTy).Contents (Elt F)),
    binary main_v2 main_v14 main_v15 (addi : (⟨S6400000, .i32⟩ : BufTy).Contents (Elt F) → (⟨S6400000, .i32⟩ : BufTy).Contents (Elt F) → (⟨S6400000, .i32⟩ : BufTy).Contents (Elt F)),
    ternary main_v13 main_v15 main_v2 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v16 main_v17 (broadcastInDim S6400000x1 ![0] bcast_S6400000_S6400000x1_0 : (⟨S6400000, .i32⟩ : BufTy).Contents (Elt F) → (⟨S6400000x1, .i32⟩ : BufTy).Contents (Elt F)),
    binary main_v0 main_v17 main_v18 ((fun x i => Host.gather gather_S100000x4_S6400000x1_S6400000x4_1_0_n_n_0_1_14 x i) : (⟨S100000x4, .f32⟩ : BufTy).Contents (Elt F) → (⟨S6400000x1, .i32⟩ : BufTy).Contents (Elt F) → (⟨S6400000x4, .f32⟩ : BufTy).Contents (Elt F)),
    binary main_v11 main_v18 main_v19 (subf : (⟨S6400000x4, .f32⟩ : BufTy).Contents (Elt F) → (⟨S6400000x4, .f32⟩ : BufTy).Contents (Elt F) → (⟨S6400000x4, .f32⟩ : BufTy).Contents (Elt F)) ]

/-- From the feature difference to the four message components, before they are laid side by side. -/
abbrev c2 : List (HloOp τ sig (Elt F)) :=
  [ unary main_v19 main_v20 ((extractStridedSlice S6400000x1 ![0, 0] · slices_S6400000x4_S6400000x1_0_0) : (⟨S6400000x4, .f32⟩ : BufTy).Contents (Elt F) → (⟨S6400000x1, .f32⟩ : BufTy).Contents (Elt F)),
    unary main_v19 main_v21 ((extractStridedSlice S6400000x1 ![0, 1] · slices_S6400000x4_S6400000x1_0_1) : (⟨S6400000x4, .f32⟩ : BufTy).Contents (Elt F) → (⟨S6400000x1, .f32⟩ : BufTy).Contents (Elt F)),
    nullary main_cst (constant S_ .f32 0x3D9180E5#32),
    unary main_cst main_v22 (broadcastInDim S6400000x1 ![] bcast_S_S6400000x1 : (⟨S_, .f32⟩ : BufTy).Contents (Elt F) → (⟨S6400000x1, .f32⟩ : BufTy).Contents (Elt F)),
    binary main_v20 main_v22 main_v23 (mulf : (⟨S6400000x1, .f32⟩ : BufTy).Contents (Elt F) → (⟨S6400000x1, .f32⟩ : BufTy).Contents (Elt F) → (⟨S6400000x1, .f32⟩ : BufTy).Contents (Elt F)),
    binary main_v23 main_v23 main_v24 (mulf : (⟨S6400000x1, .f32⟩ : BufTy).Contents (Elt F) → (⟨S6400000x1, .f32⟩ : BufTy).Contents (Elt F) → (⟨S6400000x1, .f32⟩ : BufTy).Contents (Elt F)),
    nullary main_cst_3 (constant S_ .f32 0x3FC4BC49#32),
    unary main_cst_3 main_v25 (broadcastInDim S6400000x1 ![] bcast_S_S6400000x1 : (⟨S_, .f32⟩ : BufTy).Contents (Elt F) → (⟨S6400000x1, .f32⟩ : BufTy).Contents (Elt F)),
    binary main_v24 main_v25 main_v26 (addf : (⟨S6400000x1, .f32⟩ : BufTy).Contents (Elt F) → (⟨S6400000x1, .f32⟩ : BufTy).Contents (Elt F) → (⟨S6400000x1, .f32⟩ : BufTy).Contents (Elt F)),
    binary main_v21 main_v26 main_v27 (Host.divf : (⟨S6400000x1, .f32⟩ : BufTy).Contents (Elt F) → (⟨S6400000x1, .f32⟩ : BufTy).Contents (Elt F) → (⟨S6400000x1, .f32⟩ : BufTy).Contents (Elt F)),
    binary main_v20 main_v27 main_v28 (subf : (⟨S6400000x1, .f32⟩ : BufTy).Contents (Elt F) → (⟨S6400000x1, .f32⟩ : BufTy).Contents (Elt F) → (⟨S6400000x1, .f32⟩ : BufTy).Contents (Elt F)),
    nullary main_cst_4 (constant S_ .f32 0xBCED370F#32),
    unary main_cst_4 main_v29 (broadcastInDim S6400000x1 ![] bcast_S_S6400000x1 : (⟨S_, .f32⟩ : BufTy).Contents (Elt F) → (⟨S6400000x1, .f32⟩ : BufTy).Contents (Elt F)),
    binary main_v28 main_v29 main_v30 (mulf : (⟨S6400000x1, .f32⟩ : BufTy).Contents (Elt F) → (⟨S6400000x1, .f32⟩ : BufTy).Contents (Elt F) → (⟨S6400000x1, .f32⟩ : BufTy).Contents (Elt F)),
    nullary main_cst_5 (constant S_ .f32 0xBCB429EF#32),
    unary main_cst_5 main_v31 (broadcastInDim S6400000x1 ![] bcast_S_S6400000x1 : (⟨S_, .f32⟩ : BufTy).Contents (Elt F) → (⟨S6400000x1, .f32⟩ : BufTy).Contents (Elt F)),
    binary main_v20 main_v31 main_v32 (mulf : (⟨S6400000x1, .f32⟩ : BufTy).Contents (Elt F) → (⟨S6400000x1, .f32⟩ : BufTy).Contents (Elt F) → (⟨S6400000x1, .f32⟩ : BufTy).Contents (Elt F)),
    binary main_v32 main_v32 main_v33 (mulf : (⟨S6400000x1, .f32⟩ : BufTy).Contents (Elt F) → (⟨S6400000x1, .f32⟩ : BufTy).Contents (Elt F) → (⟨S6400000x1, .f32⟩ : BufTy).Contents (Elt F)),
    nullary main_cst_6 (constant S_ .f32 0x3F5439C8#32),
    unary main_cst_6 main_v34 (broadcastInDim S6400000x1 ![] bcast_S_S6400000x1 : (⟨S_, .f32⟩ : BufTy).Contents (Elt F) → (⟨S6400000x1, .f32⟩ : BufTy).Contents (Elt F)),
    binary main_v34 main_v33 main_v35 (subf : (⟨S6400000x1, .f32⟩ : BufTy).Contents (Elt F) → (⟨S6400000x1, .f32⟩ : BufTy).Contents (Elt F) → (⟨S6400000x1, .f32⟩ : BufTy).Contents (Elt F)),
    binary main_v21 main_v35 main_v36 (mulf : (⟨S6400000x1, .f32⟩ : BufTy).Contents (Elt F) → (⟨S6400000x1, .f32⟩ : BufTy).Contents (Elt F) → (⟨S6400000x1, .f32⟩ : BufTy).Contents (Elt F)),
    binary main_v20 main_v36 main_v37 (subf : (⟨S6400000x1, .f32⟩ : BufTy).Contents (Elt F) → (⟨S6400000x1, .f32⟩ : BufTy).Contents (Elt F) → (⟨S6400000x1, .f32⟩ : BufTy).Contents (Elt F)),
    nullary main_cst_7 (constant S_ .f32 0x3CD04A08#32),
    unary main_cst_7 main_v38 (broadcastInDim S6400000x1 ![] bcast_S_S6400000x1 : (⟨S_, .f32⟩ : BufTy).Contents (Elt F) → (⟨S6400000x1, .f32⟩ : BufTy).Contents (Elt F)),
    binary main_v37 main_v38 main_v39 (mulf : (⟨S6400000x1, .f32⟩ : BufTy).Contents (Elt F) → (⟨S6400000x1, .f32⟩ : BufTy).Contents (Elt F) → (⟨S6400000x1, .f32⟩ : BufTy).Contents (Elt F)),
    nullary main_cst_8 (constant S_ .f32 0xBDAA98E1#32),
    unary main_cst_8 main_v40 (broadcastInDim S6400000x1 ![] bcast_S_S6400000x1 : (⟨S_, .f32⟩ : BufTy).Contents (Elt F) → (⟨S6400000x1, .f32⟩ : BufTy).Contents (Elt F)),
    binary main_v20 main_v40 main_v41 (mulf : (⟨S6400000x1, .f32⟩ : BufTy).Contents (Elt F) → (⟨S6400000x1, .f32⟩ : BufTy).Contents (Elt F) → (⟨S6400000x1, .f32⟩ : BufTy).Contents (Elt F)),
    binary main_v41 main_v41 main_v42 (mulf : (⟨S6400000x1, .f32⟩ : BufTy).Contents (Elt F) → (⟨S6400000x1, .f32⟩ : BufTy).Contents (Elt F) → (⟨S6400000x1, .f32⟩ : BufTy).Contents (Elt F)),
    binary main_v20 main_v42 main_v43 (subf : (⟨S6400000x1, .f32⟩ : BufTy).Contents (Elt F) → (⟨S6400000x1, .f32⟩ : BufTy).Contents (Elt F) → (⟨S6400000x1, .f32⟩ : BufTy).Contents (Elt F)),
    nullary main_cst_9 (constant S_ .f32 0xBCC4A00F#32),
    unary main_cst_9 main_v44 (broadcastInDim S6400000x1 ![] bcast_S_S6400000x1 : (⟨S_, .f32⟩ : BufTy).Contents (Elt F) → (⟨S6400000x1, .f32⟩ : BufTy).Contents (Elt F)),
    binary main_v43 main_v44 main_v45 (mulf : (⟨S6400000x1, .f32⟩ : BufTy).Contents (Elt F) → (⟨S6400000x1, .f32⟩ : BufTy).Contents (Elt F) → (⟨S6400000x1, .f32⟩ : BufTy).Contents (Elt F)),
    nullary main_cst_10 (constant S_ .f32 0x3E6455DD#32),
    unary main_cst_10 main_v46 (broadcastInDim S6400000x1 ![] bcast_S_S6400000x1 : (⟨S_, .f32⟩ : BufTy).Contents (Elt F) → (⟨S6400000x1, .f32⟩ : BufTy).Contents (Elt F)),
    binary main_v45 main_v46 main_v47 (subf : (⟨S6400000x1, .f32⟩ : BufTy).Contents (Elt F) → (⟨S6400000x1, .f32⟩ : BufTy).Contents (Elt F) → (⟨S6400000x1, .f32⟩ : BufTy).Contents (Elt F)),
    nullary main_cst_11 (constant S_ .f32 0x4027AEE3#32),
    unary main_cst_11 main_v48 (broadcastInDim S6400000x1 ![] bcast_S_S6400000x1 : (⟨S_, .f32⟩ : BufTy).Contents (Elt F) → (⟨S6400000x1, .f32⟩ : BufTy).Contents (Elt F)),
    binary main_v21 main_v48 main_v49 (addf : (⟨S6400000x1, .f32⟩ : BufTy).Contents (Elt F) → (⟨S6400000x1, .f32⟩ : BufTy).Contents (Elt F) → (⟨S6400000x1, .f32⟩ : BufTy).Contents (Elt F)),
    nullary main_cst_12 (constant S_ .f32 0xBE241554#32),
    unary main_cst_12 main_v50 (broadcastInDim S6400000x1 ![] bcast_S_S6400000x1 : (⟨S_, .f32⟩ : BufTy).Contents (Elt F) → (⟨S6400000x1, .f32⟩ : BufTy).Contents (Elt F)),
    binary main_v20 main_v50 main_v51 (mulf : (⟨S6400000x1, .f32⟩ : BufTy).Contents (Elt F) → (⟨S6400000x1, .f32⟩ : BufTy).Contents (Elt F) → (⟨S6400000x1, .f32⟩ : BufTy).Contents (Elt F)),
    binary main_v49 main_v51 main_v52 (addf : (⟨S6400000x1, .f32⟩ : BufTy).Contents (Elt F) → (⟨S6400000x1, .f32⟩ : BufTy).Contents (Elt F) → (⟨S6400000x1, .f32⟩ : BufTy).Contents (Elt F)),
    nullary main_cst_13 (constant S_ .f32 0x3CCD0F7A#32),
    unary main_cst_13 main_v53 (broadcastInDim S6400000x1 ![] bcast_S_S6400000x1 : (⟨S_, .f32⟩ : BufTy).Contents (Elt F) → (⟨S6400000x1, .f32⟩ : BufTy).Contents (Elt F)),
    binary main_v52 main_v53 main_v54 (mulf : (⟨S6400000x1, .f32⟩ : BufTy).Contents (Elt F) → (⟨S6400000x1, .f32⟩ : BufTy).Contents (Elt F) → (⟨S6400000x1, .f32⟩ : BufTy).Contents (Elt F)) ]

/-- The four message components laid side by side. -/
abbrev c3 : List (HloOp τ sig (Elt F)) :=
  [ nary ![main_v30, main_v39, main_v47, main_v54] main_v55 (fun u => concatenate S6400000x4 1 [⟨S6400000x1, u 0⟩, ⟨S6400000x1, u 1⟩, ⟨S6400000x1, u 2⟩, ⟨S6400000x1, u 3⟩] concatenates_S6400000x1_S6400000x1_S6400000x1_S6400000x1_S6400000x4_d1) ]

/-- The message masked where the difference is the zero vector (the masking's four operations are printed as a called function's, over references that carry their types; here they are written over the plain references, which is the same operation), then accumulated per node: the sums of the last two components, and the means of the first two. -/
abbrev c4 : List (HloOp τ sig (Elt F)) :=
  [ nullary main_cst_14 (constant S_ .f32 0x00000000#32),
    unary main_cst_14 main_v56 (broadcastInDim S6400000x4 ![] bcast_S_S6400000x4 : (⟨S_, .f32⟩ : BufTy).Contents (Elt F) → (⟨S6400000x4, .f32⟩ : BufTy).Contents (Elt F)),
    binary main_v19 main_v56 main_v57 (cmpf .oeq : (⟨S6400000x4, .f32⟩ : BufTy).Contents (Elt F) → (⟨S6400000x4, .f32⟩ : BufTy).Contents (Elt F) → (⟨S6400000x4, .i1⟩ : BufTy).Contents (Elt F)),
    nullary main_c_15 (constantI S_ 1 1#1),
    binary main_v57 main_c_15 main_v58 ((fun x v => Host.reduce IntOp.andi x v reducesTo_S6400000x4_S6400000_d1 h_S_) : (⟨S6400000x4, .i1⟩ : BufTy).Contents (Elt F) → (⟨S_, .i1⟩ : BufTy).Contents (Elt F) → (⟨S6400000, .i1⟩ : BufTy).Contents (Elt F)),
    unary main_v58 main_v59 (broadcastInDim S6400000x1 ![0] bcast_S6400000_S6400000x1_0 : (⟨S6400000, .i1⟩ : BufTy).Contents (Elt F) → (⟨S6400000x1, .i1⟩ : BufTy).Contents (Elt F)),
    nullary main_cst_16 (constant S_ .f32 0x00000000#32),
    unary main_cst_16 main_call0_v0 (id : (⟨S_, .f32⟩ : BufTy).Contents (Elt F) → (⟨S_, .f32⟩ : BufTy).Contents (Elt F)),
    unary main_v59 main_call0_v1 (broadcastInDim S6400000x4 ![0, 1] bcast_S6400000x1_S6400000x4_0_1 : (⟨S6400000x1, .i1⟩ : BufTy).Contents (Elt F) → (⟨S6400000x4, .i1⟩ : BufTy).Contents (Elt F)),
    unary main_call0_v0 main_call0_v2 (broadcastInDim S6400000x4 ![] bcast_S_S6400000x4 : (⟨S_, .f32⟩ : BufTy).Contents (Elt F) → (⟨S6400000x4, .f32⟩ : BufTy).Contents (Elt F)),
    ternary main_call0_v1 main_call0_v2 main_v55 main_v60 (select : (⟨S6400000x4, .i1⟩ : BufTy).Contents (Elt F) → (⟨S6400000x4, .f32⟩ : BufTy).Contents (Elt F) → (⟨S6400000x4, .f32⟩ : BufTy).Contents (Elt F) → (⟨S6400000x4, .f32⟩ : BufTy).Contents (Elt F)),
    unary main_v60 main_v61 ((extractStridedSlice S6400000x2 ![0, 2] · slices_S6400000x4_S6400000x2_0_2) : (⟨S6400000x4, .f32⟩ : BufTy).Contents (Elt F) → (⟨S6400000x2, .f32⟩ : BufTy).Contents (Elt F)),
    nullary main_cst_17 (constant S_ .f32 0x00000000#32),
    unary main_cst_17 main_v62 (broadcastInDim S100000x2 ![] bcast_S_S100000x2 : (⟨S_, .f32⟩ : BufTy).Contents (Elt F) → (⟨S100000x2, .f32⟩ : BufTy).Contents (Elt F)),
    unary main_v4 main_v63 (broadcastInDim S6400000x1 ![0] bcast_S6400000_S6400000x1_0 : (⟨S6400000, .i32⟩ : BufTy).Contents (Elt F) → (⟨S6400000x1, .i32⟩ : BufTy).Contents (Elt F)),
    ternary main_v62 main_v63 main_v61 main_v64 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    unary main_v60 main_v65 ((extractStridedSlice S6400000x2 ![0, 0] · slices_S6400000x4_S6400000x2_0_0) : (⟨S6400000x4, .f32⟩ : BufTy).Contents (Elt F) → (⟨S6400000x2, .f32⟩ : BufTy).Contents (Elt F)),
    nullary main_cst_18 (constant S_ .f32 0x00000000#32),
    unary main_cst_18 main_v66 (broadcastInDim S100000x2 ![] bcast_S_S100000x2 : (⟨S_, .f32⟩ : BufTy).Contents (Elt F) → (⟨S100000x2, .f32⟩ : BufTy).Contents (Elt F)),
    unary main_v4 main_v67 (broadcastInDim S6400000x1 ![0] bcast_S6400000_S6400000x1_0 : (⟨S6400000, .i32⟩ : BufTy).Contents (Elt F) → (⟨S6400000x1, .i32⟩ : BufTy).Contents (Elt F)),
    ternary main_v66 main_v67 main_v65 main_v68 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    nullary main_cst_19 (constant S_ .f32 0x3F800000#32),
    unary main_cst_19 main_v69 (broadcastInDim S6400000 ![] bcast_S_S6400000 : (⟨S_, .f32⟩ : BufTy).Contents (Elt F) → (⟨S6400000, .f32⟩ : BufTy).Contents (Elt F)),
    nullary main_cst_20 (constant S_ .f32 0x00000000#32),
    unary main_cst_20 main_v70 (broadcastInDim S100000 ![] bcast_S_S100000 : (⟨S_, .f32⟩ : BufTy).Contents (Elt F) → (⟨S100000, .f32⟩ : BufTy).Contents (Elt F)),
    unary main_v4 main_v71 (broadcastInDim S6400000x1 ![0] bcast_S6400000_S6400000x1_0 : (⟨S6400000, .i32⟩ : BufTy).Contents (Elt F) → (⟨S6400000x1, .i32⟩ : BufTy).Contents (Elt F)),
    ternary main_v70 main_v71 main_v69 main_v72 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    unary main_v72 main_v73 (broadcastInDim S100000x1 ![0] bcast_S100000_S100000x1_0 : (⟨S100000, .f32⟩ : BufTy).Contents (Elt F) → (⟨S100000x1, .f32⟩ : BufTy).Contents (Elt F)),
    nullary main_cst_21 (constant S_ .f32 0x3F800000#32),
    unary main_cst_21 main_v74 (broadcastInDim S100000x1 ![] bcast_S_S100000x1 : (⟨S_, .f32⟩ : BufTy).Contents (Elt F) → (⟨S100000x1, .f32⟩ : BufTy).Contents (Elt F)),
    binary main_v73 main_v74 main_v75 (maximumf : (⟨S100000x1, .f32⟩ : BufTy).Contents (Elt F) → (⟨S100000x1, .f32⟩ : BufTy).Contents (Elt F) → (⟨S100000x1, .f32⟩ : BufTy).Contents (Elt F)),
    unary main_v75 main_v76 (broadcastInDim S100000x2 ![0, 1] bcast_S100000x1_S100000x2_0_1 : (⟨S100000x1, .f32⟩ : BufTy).Contents (Elt F) → (⟨S100000x2, .f32⟩ : BufTy).Contents (Elt F)),
    binary main_v68 main_v76 main_v77 (Host.divf : (⟨S100000x2, .f32⟩ : BufTy).Contents (Elt F) → (⟨S100000x2, .f32⟩ : BufTy).Contents (Elt F) → (⟨S100000x2, .f32⟩ : BufTy).Contents (Elt F)) ]

/-- The sums and the means laid side by side, and the two outputs computed from them. -/
abbrev c5 : List (HloOp τ sig (Elt F)) :=
  [ binary main_v64 main_v77 main_v78 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)),
    unary main_v78 main_v79 ((extractStridedSlice S100000x1 ![0, 0] · slices_S100000x4_S100000x1_0_0) : (⟨S100000x4, .f32⟩ : BufTy).Contents (Elt F) → (⟨S100000x1, .f32⟩ : BufTy).Contents (Elt F)),
    unary main_v78 main_v80 ((extractStridedSlice S100000x1 ![0, 1] · slices_S100000x4_S100000x1_0_1) : (⟨S100000x4, .f32⟩ : BufTy).Contents (Elt F) → (⟨S100000x1, .f32⟩ : BufTy).Contents (Elt F)),
    unary main_v78 main_v81 ((extractStridedSlice S100000x1 ![0, 2] · slices_S100000x4_S100000x1_0_2) : (⟨S100000x4, .f32⟩ : BufTy).Contents (Elt F) → (⟨S100000x1, .f32⟩ : BufTy).Contents (Elt F)),
    unary main_v78 main_v82 ((extractStridedSlice S100000x1 ![0, 3] · slices_S100000x4_S100000x1_0_3) : (⟨S100000x4, .f32⟩ : BufTy).Contents (Elt F) → (⟨S100000x1, .f32⟩ : BufTy).Contents (Elt F)),
    nullary main_cst_22 (constant S_ .f32 0x3E23C830#32),
    unary main_cst_22 main_v83 (broadcastInDim S100000x1 ![] bcast_S_S100000x1 : (⟨S_, .f32⟩ : BufTy).Contents (Elt F) → (⟨S100000x1, .f32⟩ : BufTy).Contents (Elt F)),
    binary main_v81 main_v83 main_v84 (mulf : (⟨S100000x1, .f32⟩ : BufTy).Contents (Elt F) → (⟨S100000x1, .f32⟩ : BufTy).Contents (Elt F) → (⟨S100000x1, .f32⟩ : BufTy).Contents (Elt F)),
    binary main_v84 main_v84 main_v85 (mulf : (⟨S100000x1, .f32⟩ : BufTy).Contents (Elt F) → (⟨S100000x1, .f32⟩ : BufTy).Contents (Elt F) → (⟨S100000x1, .f32⟩ : BufTy).Contents (Elt F)),
    binary main_v82 main_v85 main_v86 (addf : (⟨S100000x1, .f32⟩ : BufTy).Contents (Elt F) → (⟨S100000x1, .f32⟩ : BufTy).Contents (Elt F) → (⟨S100000x1, .f32⟩ : BufTy).Contents (Elt F)),
    nullary main_cst_23 (constant S_ .f32 0x3FDA2C18#32),
    unary main_cst_23 main_v87 (broadcastInDim S100000x1 ![] bcast_S_S100000x1 : (⟨S_, .f32⟩ : BufTy).Contents (Elt F) → (⟨S100000x1, .f32⟩ : BufTy).Contents (Elt F)),
    binary main_v86 main_v87 main_v88 (Host.divf : (⟨S100000x1, .f32⟩ : BufTy).Contents (Elt F) → (⟨S100000x1, .f32⟩ : BufTy).Contents (Elt F) → (⟨S100000x1, .f32⟩ : BufTy).Contents (Elt F)),
    binary main_v79 main_v88 main_v89 (subf : (⟨S100000x1, .f32⟩ : BufTy).Contents (Elt F) → (⟨S100000x1, .f32⟩ : BufTy).Contents (Elt F) → (⟨S100000x1, .f32⟩ : BufTy).Contents (Elt F)),
    binary main_v89 main_v81 main_v90 (subf : (⟨S100000x1, .f32⟩ : BufTy).Contents (Elt F) → (⟨S100000x1, .f32⟩ : BufTy).Contents (Elt F) → (⟨S100000x1, .f32⟩ : BufTy).Contents (Elt F)),
    nullary main_cst_24 (constant S_ .f32 0x3E29F29F#32),
    unary main_cst_24 main_v91 (broadcastInDim S100000x1 ![] bcast_S_S100000x1 : (⟨S_, .f32⟩ : BufTy).Contents (Elt F) → (⟨S100000x1, .f32⟩ : BufTy).Contents (Elt F)),
    binary main_v90 main_v91 main_v92 (mulf : (⟨S100000x1, .f32⟩ : BufTy).Contents (Elt F) → (⟨S100000x1, .f32⟩ : BufTy).Contents (Elt F) → (⟨S100000x1, .f32⟩ : BufTy).Contents (Elt F)),
    nullary main_cst_25 (constant S_ .f32 0xBDB6A1D6#32),
    unary main_cst_25 main_v93 (broadcastInDim S100000x1 ![] bcast_S_S100000x1 : (⟨S_, .f32⟩ : BufTy).Contents (Elt F) → (⟨S100000x1, .f32⟩ : BufTy).Contents (Elt F)),
    binary main_v81 main_v93 main_v94 (mulf : (⟨S100000x1, .f32⟩ : BufTy).Contents (Elt F) → (⟨S100000x1, .f32⟩ : BufTy).Contents (Elt F) → (⟨S100000x1, .f32⟩ : BufTy).Contents (Elt F)),
    binary main_v94 main_v94 main_v95 (mulf : (⟨S100000x1, .f32⟩ : BufTy).Contents (Elt F) → (⟨S100000x1, .f32⟩ : BufTy).Contents (Elt F) → (⟨S100000x1, .f32⟩ : BufTy).Contents (Elt F)),
    binary main_v95 main_v82 main_v96 (mulf : (⟨S100000x1, .f32⟩ : BufTy).Contents (Elt F) → (⟨S100000x1, .f32⟩ : BufTy).Contents (Elt F) → (⟨S100000x1, .f32⟩ : BufTy).Contents (Elt F)),
    binary main_v80 main_v96 main_v97 (subf : (⟨S100000x1, .f32⟩ : BufTy).Contents (Elt F) → (⟨S100000x1, .f32⟩ : BufTy).Contents (Elt F) → (⟨S100000x1, .f32⟩ : BufTy).Contents (Elt F)),
    binary main_v97 main_v81 main_v98 (subf : (⟨S100000x1, .f32⟩ : BufTy).Contents (Elt F) → (⟨S100000x1, .f32⟩ : BufTy).Contents (Elt F) → (⟨S100000x1, .f32⟩ : BufTy).Contents (Elt F)),
    binary main_v98 main_v82 main_v99 (addf : (⟨S100000x1, .f32⟩ : BufTy).Contents (Elt F) → (⟨S100000x1, .f32⟩ : BufTy).Contents (Elt F) → (⟨S100000x1, .f32⟩ : BufTy).Contents (Elt F)),
    nullary main_cst_26 (constant S_ .f32 0xBD5FA2D0#32),
    unary main_cst_26 main_v100 (broadcastInDim S100000x1 ![] bcast_S_S100000x1 : (⟨S_, .f32⟩ : BufTy).Contents (Elt F) → (⟨S100000x1, .f32⟩ : BufTy).Contents (Elt F)),
    binary main_v99 main_v100 main_v101 (mulf : (⟨S100000x1, .f32⟩ : BufTy).Contents (Elt F) → (⟨S100000x1, .f32⟩ : BufTy).Contents (Elt F) → (⟨S100000x1, .f32⟩ : BufTy).Contents (Elt F)),
    binary main_v82 main_v79 main_v102 (addf : (⟨S100000x1, .f32⟩ : BufTy).Contents (Elt F) → (⟨S100000x1, .f32⟩ : BufTy).Contents (Elt F) → (⟨S100000x1, .f32⟩ : BufTy).Contents (Elt F)),
    nullary main_cst_27 (constant S_ .f32 0x3D5CE546#32),
    unary main_cst_27 main_v103 (broadcastInDim S100000x1 ![] bcast_S_S100000x1 : (⟨S_, .f32⟩ : BufTy).Contents (Elt F) → (⟨S100000x1, .f32⟩ : BufTy).Contents (Elt F)),
    binary main_v102 main_v103 main_v104 (mulf : (⟨S100000x1, .f32⟩ : BufTy).Contents (Elt F) → (⟨S100000x1, .f32⟩ : BufTy).Contents (Elt F) → (⟨S100000x1, .f32⟩ : BufTy).Contents (Elt F)),
    binary main_v81 main_v81 main_v105 (mulf : (⟨S100000x1, .f32⟩ : BufTy).Contents (Elt F) → (⟨S100000x1, .f32⟩ : BufTy).Contents (Elt F) → (⟨S100000x1, .f32⟩ : BufTy).Contents (Elt F)),
    nullary main_cst_28 (constant S_ .f32 0x427C8483#32),
    unary main_cst_28 main_v106 (broadcastInDim S100000x1 ![] bcast_S_S100000x1 : (⟨S_, .f32⟩ : BufTy).Contents (Elt F) → (⟨S100000x1, .f32⟩ : BufTy).Contents (Elt F)),
    binary main_v105 main_v106 main_v107 (addf : (⟨S100000x1, .f32⟩ : BufTy).Contents (Elt F) → (⟨S100000x1, .f32⟩ : BufTy).Contents (Elt F) → (⟨S100000x1, .f32⟩ : BufTy).Contents (Elt F)),
    nullary main_cst_29 (constant S_ .f32 0x4144E473#32),
    unary main_cst_29 main_v108 (broadcastInDim S100000x1 ![] bcast_S_S100000x1 : (⟨S_, .f32⟩ : BufTy).Contents (Elt F) → (⟨S100000x1, .f32⟩ : BufTy).Contents (Elt F)),
    binary main_v108 main_v107 main_v109 (Host.divf : (⟨S100000x1, .f32⟩ : BufTy).Contents (Elt F) → (⟨S100000x1, .f32⟩ : BufTy).Contents (Elt F) → (⟨S100000x1, .f32⟩ : BufTy).Contents (Elt F)),
    binary main_v81 main_v109 main_v110 (mulf : (⟨S100000x1, .f32⟩ : BufTy).Contents (Elt F) → (⟨S100000x1, .f32⟩ : BufTy).Contents (Elt F) → (⟨S100000x1, .f32⟩ : BufTy).Contents (Elt F)),
    nullary main_cst_30 (constant S_ .f32 0x3F06E1C7#32),
    unary main_cst_30 main_v111 (broadcastInDim S100000x1 ![] bcast_S_S100000x1 : (⟨S_, .f32⟩ : BufTy).Contents (Elt F) → (⟨S100000x1, .f32⟩ : BufTy).Contents (Elt F)),
    binary main_v92 main_v111 main_v112 (Host.divf : (⟨S100000x1, .f32⟩ : BufTy).Contents (Elt F) → (⟨S100000x1, .f32⟩ : BufTy).Contents (Elt F) → (⟨S100000x1, .f32⟩ : BufTy).Contents (Elt F)),
    binary main_v112 main_v110 main_v113 (addf : (⟨S100000x1, .f32⟩ : BufTy).Contents (Elt F) → (⟨S100000x1, .f32⟩ : BufTy).Contents (Elt F) → (⟨S100000x1, .f32⟩ : BufTy).Contents (Elt F)),
    binary main_v113 main_v104 main_v114 (subf : (⟨S100000x1, .f32⟩ : BufTy).Contents (Elt F) → (⟨S100000x1, .f32⟩ : BufTy).Contents (Elt F) → (⟨S100000x1, .f32⟩ : BufTy).Contents (Elt F)),
    nullary main_cst_31 (constant S_ .f32 0xBE3DF39F#32),
    unary main_cst_31 main_v115 (broadcastInDim S100000x1 ![] bcast_S_S100000x1 : (⟨S_, .f32⟩ : BufTy).Contents (Elt F) → (⟨S100000x1, .f32⟩ : BufTy).Contents (Elt F)),
    binary main_v114 main_v115 main_v116 (mulf : (⟨S100000x1, .f32⟩ : BufTy).Contents (Elt F) → (⟨S100000x1, .f32⟩ : BufTy).Contents (Elt F) → (⟨S100000x1, .f32⟩ : BufTy).Contents (Elt F)),
    binary main_v101 main_v104 main_v117 (addf : (⟨S100000x1, .f32⟩ : BufTy).Contents (Elt F) → (⟨S100000x1, .f32⟩ : BufTy).Contents (Elt F) → (⟨S100000x1, .f32⟩ : BufTy).Contents (Elt F)),
    binary main_v116 main_v117 main_v118 (subf : (⟨S100000x1, .f32⟩ : BufTy).Contents (Elt F) → (⟨S100000x1, .f32⟩ : BufTy).Contents (Elt F) → (⟨S100000x1, .f32⟩ : BufTy).Contents (Elt F)),
    nullary main_cst_32 (constant S_ .f32 0x3F3B9F07#32),
    unary main_cst_32 main_v119 (broadcastInDim S100000x1 ![] bcast_S_S100000x1 : (⟨S_, .f32⟩ : BufTy).Contents (Elt F) → (⟨S100000x1, .f32⟩ : BufTy).Contents (Elt F)),
    binary main_v118 main_v119 main_v120 (Host.divf : (⟨S100000x1, .f32⟩ : BufTy).Contents (Elt F) → (⟨S100000x1, .f32⟩ : BufTy).Contents (Elt F) → (⟨S100000x1, .f32⟩ : BufTy).Contents (Elt F)),
    nullary main_cst_33 (constant S_ .f32 0xBF4DC4ED#32),
    unary main_cst_33 main_v121 (broadcastInDim S100000x1 ![] bcast_S_S100000x1 : (⟨S_, .f32⟩ : BufTy).Contents (Elt F) → (⟨S100000x1, .f32⟩ : BufTy).Contents (Elt F)),
    binary main_v92 main_v121 main_v122 (mulf : (⟨S100000x1, .f32⟩ : BufTy).Contents (Elt F) → (⟨S100000x1, .f32⟩ : BufTy).Contents (Elt F) → (⟨S100000x1, .f32⟩ : BufTy).Contents (Elt F)),
    binary main_v122 main_v101 main_v123 (subf : (⟨S100000x1, .f32⟩ : BufTy).Contents (Elt F) → (⟨S100000x1, .f32⟩ : BufTy).Contents (Elt F) → (⟨S100000x1, .f32⟩ : BufTy).Contents (Elt F)),
    nullary main_cst_34 (constant S_ .f32 0x3F9BDA03#32),
    unary main_cst_34 main_v124 (broadcastInDim S100000x1 ![] bcast_S_S100000x1 : (⟨S_, .f32⟩ : BufTy).Contents (Elt F) → (⟨S100000x1, .f32⟩ : BufTy).Contents (Elt F)),
    binary main_v110 main_v124 main_v125 (mulf : (⟨S100000x1, .f32⟩ : BufTy).Contents (Elt F) → (⟨S100000x1, .f32⟩ : BufTy).Contents (Elt F) → (⟨S100000x1, .f32⟩ : BufTy).Contents (Elt F)),
    binary main_v125 main_v104 main_v126 (addf : (⟨S100000x1, .f32⟩ : BufTy).Contents (Elt F) → (⟨S100000x1, .f32⟩ : BufTy).Contents (Elt F) → (⟨S100000x1, .f32⟩ : BufTy).Contents (Elt F)),
    binary main_v123 main_v126 main_v127 (addf : (⟨S100000x1, .f32⟩ : BufTy).Contents (Elt F) → (⟨S100000x1, .f32⟩ : BufTy).Contents (Elt F) → (⟨S100000x1, .f32⟩ : BufTy).Contents (Elt F)) ]

/-- The two outputs laid side by side. -/
abbrev c6 : List (HloOp τ sig (Elt F)) :=
  [ binary main_v120 main_v127 main_v128 ((fun a b => concatenate S100000x2 1 [⟨S100000x1, a⟩, ⟨S100000x1, b⟩] concatenates_S100000x1_S100000x1_S100000x2_d1) : (⟨S100000x1, .f32⟩ : BufTy).Contents (Elt F) → (⟨S100000x1, .f32⟩ : BufTy).Contents (Elt F) → (⟨S100000x2, .f32⟩ : BufTy).Contents (Elt F)) ]

/-- The whole list is the six stretches in order. -/
theorem ops_split : (RunP.ops : List (HloOp τ sig (Elt F))) = c1 ++ (c2 ++ (c3 ++ (c4 ++ (c5 ++ c6)))) := rfl

/-! ## First stretch: the feature difference and the destination table, from the arguments -/

set_option maxRecDepth 65536 in
set_option maxHeartbeats 2000000 in
/-- The feature difference after the first stretch, as the stage function of the three arguments at entry. -/
theorem c1_v19 (W : Valuation τ sig (Elt F)) :
    after c1 W (Proc.devRef .tc main_v19)
      = ReadP.val_main_v19 (F := F) (W (Proc.devRef .tc main_arg0)) (W (Proc.devRef .tc main_arg1)) (W (Proc.devRef .tc main_arg2)) := by
  after_results_simp
  simp only [ReadP.val_main_v19, ReadP.val_main_v18, ReadP.val_main_v17, ReadP.val_main_v16, ReadP.val_main_v15, ReadP.val_main_v14, ReadP.val_main_c_2, ReadP.val_main_v13, ReadP.val_main_v12, ReadP.val_main_c_1, ReadP.val_main_v11, ReadP.val_main_v10, ReadP.val_main_v9, ReadP.val_main_v8, ReadP.val_main_v7, ReadP.val_main_c_0, ReadP.val_main_v6, ReadP.val_main_v5, ReadP.val_main_c, ReadP.val_main_v4, ReadP.val_main_v3, ReadP.val_main_v2, ReadP.val_main_v1, ReadP.val_main_v0]
  rfl

set_option maxRecDepth 65536 in
set_option maxHeartbeats 2000000 in
/-- The destination table after the first stretch. -/
theorem c1_v4 (W : Valuation τ sig (Elt F)) :
    after c1 W (Proc.devRef .tc main_v4) = ReadP.val_main_v4 (F := F) (W (Proc.devRef .tc main_arg2)) := by
  after_results_simp
  simp only [ReadP.val_main_v4, ReadP.val_main_v3]
  rfl

/-! ## Second stretch: the four message components, from the feature difference -/

set_option maxRecDepth 65536 in
set_option maxHeartbeats 2000000 in
/-- Message component 0 after the second stretch, from the feature difference at entry. -/
theorem c2_v30 (W : Valuation τ sig (Elt F)) (x0 x1 : (⟨S100000x2, .f32⟩ : BufTy).Contents (Elt F)) (x2 : (⟨S2x6400000, .i32⟩ : BufTy).Contents (Elt F))
    (h19 : W (Proc.devRef .tc main_v19) = ReadP.val_main_v19 (F := F) x0 x1 x2) :
    after c2 W (Proc.devRef .tc main_v30) = ReadP.val_main_v30 (F := F) x0 x1 x2 := by
  after_results_simp
  rw [h19]
  simp only [ReadP.val_main_v54, ReadP.val_main_v53, ReadP.val_main_cst_13, ReadP.val_main_v52, ReadP.val_main_v51, ReadP.val_main_v50, ReadP.val_main_cst_12, ReadP.val_main_v49, ReadP.val_main_v48, ReadP.val_main_cst_11, ReadP.val_main_v47, ReadP.val_main_v46, ReadP.val_main_cst_10, ReadP.val_main_v45, ReadP.val_main_v44, ReadP.val_main_cst_9, ReadP.val_main_v43, ReadP.val_main_v42, ReadP.val_main_v41, ReadP.val_main_v40, ReadP.val_main_cst_8, ReadP.val_main_v39, ReadP.val_main_v38, ReadP.val_main_cst_7, ReadP.val_main_v37, ReadP.val_main_v36, ReadP.val_main_v35, ReadP.val_main_v34, ReadP.val_main_cst_6, ReadP.val_main_v33, ReadP.val_main_v32, ReadP.val_main_v31, ReadP.val_main_cst_5, ReadP.val_main_v30, ReadP.val_main_v29, ReadP.val_main_cst_4, ReadP.val_main_v28, ReadP.val_main_v27, ReadP.val_main_v26, ReadP.val_main_v25, ReadP.val_main_cst_3, ReadP.val_main_v24, ReadP.val_main_v23, ReadP.val_main_v22, ReadP.val_main_cst, ReadP.val_main_v21, ReadP.val_main_v20]

set_option maxRecDepth 65536 in
set_option maxHeartbeats 2000000 in
/-- Message component 1 after the second stretch, from the feature difference at entry. -/
theorem c2_v39 (W : Valuation τ sig (Elt F)) (x0 x1 : (⟨S100000x2, .f32⟩ : BufTy).Contents (Elt F)) (x2 : (⟨S2x6400000, .i32⟩ : BufTy).Contents (Elt F))
    (h19 : W (Proc.devRef .tc main_v19) = ReadP.val_main_v19 (F := F) x0 x1 x2) :
    after c2 W (Proc.devRef .tc main_v39) = ReadP.val_main_v39 (F := F) x0 x1 x2 := by
  after_results_simp
  rw [h19]
  simp only [ReadP.val_main_v54, ReadP.val_main_v53, ReadP.val_main_cst_13, ReadP.val_main_v52, ReadP.val_main_v51, ReadP.val_main_v50, ReadP.val_main_cst_12, ReadP.val_main_v49, ReadP.val_main_v48, ReadP.val_main_cst_11, ReadP.val_main_v47, ReadP.val_main_v46, ReadP.val_main_cst_10, ReadP.val_main_v45, ReadP.val_main_v44, ReadP.val_main_cst_9, ReadP.val_main_v43, ReadP.val_main_v42, ReadP.val_main_v41, ReadP.val_main_v40, ReadP.val_main_cst_8, ReadP.val_main_v39, ReadP.val_main_v38, ReadP.val_main_cst_7, ReadP.val_main_v37, ReadP.val_main_v36, ReadP.val_main_v35, ReadP.val_main_v34, ReadP.val_main_cst_6, ReadP.val_main_v33, ReadP.val_main_v32, ReadP.val_main_v31, ReadP.val_main_cst_5, ReadP.val_main_v30, ReadP.val_main_v29, ReadP.val_main_cst_4, ReadP.val_main_v28, ReadP.val_main_v27, ReadP.val_main_v26, ReadP.val_main_v25, ReadP.val_main_cst_3, ReadP.val_main_v24, ReadP.val_main_v23, ReadP.val_main_v22, ReadP.val_main_cst, ReadP.val_main_v21, ReadP.val_main_v20]

set_option maxRecDepth 65536 in
set_option maxHeartbeats 2000000 in
/-- Message component 2 after the second stretch, from the feature difference at entry. -/
theorem c2_v47 (W : Valuation τ sig (Elt F)) (x0 x1 : (⟨S100000x2, .f32⟩ : BufTy).Contents (Elt F)) (x2 : (⟨S2x6400000, .i32⟩ : BufTy).Contents (Elt F))
    (h19 : W (Proc.devRef .tc main_v19) = ReadP.val_main_v19 (F := F) x0 x1 x2) :
    after c2 W (Proc.devRef .tc main_v47) = ReadP.val_main_v47 (F := F) x0 x1 x2 := by
  after_results_simp
  rw [h19]
  simp only [ReadP.val_main_v54, ReadP.val_main_v53, ReadP.val_main_cst_13, ReadP.val_main_v52, ReadP.val_main_v51, ReadP.val_main_v50, ReadP.val_main_cst_12, ReadP.val_main_v49, ReadP.val_main_v48, ReadP.val_main_cst_11, ReadP.val_main_v47, ReadP.val_main_v46, ReadP.val_main_cst_10, ReadP.val_main_v45, ReadP.val_main_v44, ReadP.val_main_cst_9, ReadP.val_main_v43, ReadP.val_main_v42, ReadP.val_main_v41, ReadP.val_main_v40, ReadP.val_main_cst_8, ReadP.val_main_v39, ReadP.val_main_v38, ReadP.val_main_cst_7, ReadP.val_main_v37, ReadP.val_main_v36, ReadP.val_main_v35, ReadP.val_main_v34, ReadP.val_main_cst_6, ReadP.val_main_v33, ReadP.val_main_v32, ReadP.val_main_v31, ReadP.val_main_cst_5, ReadP.val_main_v30, ReadP.val_main_v29, ReadP.val_main_cst_4, ReadP.val_main_v28, ReadP.val_main_v27, ReadP.val_main_v26, ReadP.val_main_v25, ReadP.val_main_cst_3, ReadP.val_main_v24, ReadP.val_main_v23, ReadP.val_main_v22, ReadP.val_main_cst, ReadP.val_main_v21, ReadP.val_main_v20]

set_option maxRecDepth 65536 in
set_option maxHeartbeats 2000000 in
/-- Message component 3 after the second stretch, from the feature difference at entry. -/
theorem c2_v54 (W : Valuation τ sig (Elt F)) (x0 x1 : (⟨S100000x2, .f32⟩ : BufTy).Contents (Elt F)) (x2 : (⟨S2x6400000, .i32⟩ : BufTy).Contents (Elt F))
    (h19 : W (Proc.devRef .tc main_v19) = ReadP.val_main_v19 (F := F) x0 x1 x2) :
    after c2 W (Proc.devRef .tc main_v54) = ReadP.val_main_v54 (F := F) x0 x1 x2 := by
  after_results_simp
  rw [h19]
  simp only [ReadP.val_main_v54, ReadP.val_main_v53, ReadP.val_main_cst_13, ReadP.val_main_v52, ReadP.val_main_v51, ReadP.val_main_v50, ReadP.val_main_cst_12, ReadP.val_main_v49, ReadP.val_main_v48, ReadP.val_main_cst_11, ReadP.val_main_v47, ReadP.val_main_v46, ReadP.val_main_cst_10, ReadP.val_main_v45, ReadP.val_main_v44, ReadP.val_main_cst_9, ReadP.val_main_v43, ReadP.val_main_v42, ReadP.val_main_v41, ReadP.val_main_v40, ReadP.val_main_cst_8, ReadP.val_main_v39, ReadP.val_main_v38, ReadP.val_main_cst_7, ReadP.val_main_v37, ReadP.val_main_v36, ReadP.val_main_v35, ReadP.val_main_v34, ReadP.val_main_cst_6, ReadP.val_main_v33, ReadP.val_main_v32, ReadP.val_main_v31, ReadP.val_main_cst_5, ReadP.val_main_v30, ReadP.val_main_v29, ReadP.val_main_cst_4, ReadP.val_main_v28, ReadP.val_main_v27, ReadP.val_main_v26, ReadP.val_main_v25, ReadP.val_main_cst_3, ReadP.val_main_v24, ReadP.val_main_v23, ReadP.val_main_v22, ReadP.val_main_cst, ReadP.val_main_v21, ReadP.val_main_v20]

set_option maxRecDepth 65536 in
set_option maxHeartbeats 2000000 in
/-- The second stretch does not write the feature difference. -/
theorem c2_v19 (W : Valuation τ sig (Elt F)) :
    after c2 W (Proc.devRef .tc main_v19) = W (Proc.devRef .tc main_v19) := by
  after_results_simp

set_option maxRecDepth 65536 in
set_option maxHeartbeats 2000000 in
/-- The second stretch does not write the destination table. -/
theorem c2_v4 (W : Valuation τ sig (Elt F)) :
    after c2 W (Proc.devRef .tc main_v4) = W (Proc.devRef .tc main_v4) := by
  after_results_simp

/-! ## Third stretch: the four components side by side -/

set_option maxRecDepth 65536 in
set_option maxHeartbeats 2000000 in
/-- The message, its four components side by side, from the components at entry. -/
theorem c3_v55 (W : Valuation τ sig (Elt F)) (x0 x1 : (⟨S100000x2, .f32⟩ : BufTy).Contents (Elt F)) (x2 : (⟨S2x6400000, .i32⟩ : BufTy).Contents (Elt F))
    (h30 : W (Proc.devRef .tc main_v30) = ReadP.val_main_v30 (F := F) x0 x1 x2)
    (h39 : W (Proc.devRef .tc main_v39) = ReadP.val_main_v39 (F := F) x0 x1 x2)
    (h47 : W (Proc.devRef .tc main_v47) = ReadP.val_main_v47 (F := F) x0 x1 x2)
    (h54 : W (Proc.devRef .tc main_v54) = ReadP.val_main_v54 (F := F) x0 x1 x2) :
    after c3 W (Proc.devRef .tc main_v55) = ReadP.val_main_v55 (F := F) x0 x1 x2 := by
  after_results
  rw [ReadP.val_main_v55, ← h30, ← h39, ← h47, ← h54]
  rfl

set_option maxRecDepth 65536 in
set_option maxHeartbeats 2000000 in
/-- The third stretch does not write the feature difference. -/
theorem c3_v19 (W : Valuation τ sig (Elt F)) :
    after c3 W (Proc.devRef .tc main_v19) = W (Proc.devRef .tc main_v19) := by
  after_results_simp

set_option maxRecDepth 65536 in
set_option maxHeartbeats 2000000 in
/-- The third stretch does not write the destination table. -/
theorem c3_v4 (W : Valuation τ sig (Elt F)) :
    after c3 W (Proc.devRef .tc main_v4) = W (Proc.devRef .tc main_v4) := by
  after_results_simp

/-! ## Fourth stretch: the sums and the means per node -/

set_option maxRecDepth 65536 in
set_option maxHeartbeats 2000000 in
/-- The per-node sums of the last two masked components after the fourth stretch. -/
theorem c4_v64 (W : Valuation τ sig (Elt F)) (x0 x1 : (⟨S100000x2, .f32⟩ : BufTy).Contents (Elt F)) (x2 : (⟨S2x6400000, .i32⟩ : BufTy).Contents (Elt F))
    (h55 : W (Proc.devRef .tc main_v55) = ReadP.val_main_v55 (F := F) x0 x1 x2)
    (h19 : W (Proc.devRef .tc main_v19) = ReadP.val_main_v19 (F := F) x0 x1 x2)
    (h4 : W (Proc.devRef .tc main_v4) = ReadP.val_main_v4 (F := F) x2) :
    after c4 W (Proc.devRef .tc main_v64) = ReadP.val_main_v64 (F := F) x0 x1 x2 := by
  after_results_simp
  rw [h55, h19, h4]
  simp only [ReadP.val_main_v77, ReadP.val_main_v76, ReadP.val_main_v75, ReadP.val_main_v74, ReadP.val_main_cst_21, ReadP.val_main_v73, ReadP.val_main_v72, ReadP.val_main_v71, ReadP.val_main_v70, ReadP.val_main_cst_20, ReadP.val_main_v69, ReadP.val_main_cst_19, ReadP.val_main_v68, ReadP.val_main_v67, ReadP.val_main_v66, ReadP.val_main_cst_18, ReadP.val_main_v65, ReadP.val_main_v64, ReadP.val_main_v63, ReadP.val_main_v62, ReadP.val_main_cst_17, ReadP.val_main_v61, ReadP.val_main_v60, ReadP.val_main_call0_v2, ReadP.val_main_call0_v1, ReadP.val_main_call0_v0, ReadP.val_main_cst_16, ReadP.val_main_v59, ReadP.val_main_v58, ReadP.val_main_c_15, ReadP.val_main_v57, ReadP.val_main_v56, ReadP.val_main_cst_14]

set_option maxRecDepth 65536 in
set_option maxHeartbeats 2000000 in
/-- The per-node means of the first two masked components after the fourth stretch. -/
theorem c4_v77 (W : Valuation τ sig (Elt F)) (x0 x1 : (⟨S100000x2, .f32⟩ : BufTy).Contents (Elt F)) (x2 : (⟨S2x6400000, .i32⟩ : BufTy).Contents (Elt F))
    (h55 : W (Proc.devRef .tc main_v55) = ReadP.val_main_v55 (F := F) x0 x1 x2)
    (h19 : W (Proc.devRef .tc main_v19) = ReadP.val_main_v19 (F := F) x0 x1 x2)
    (h4 : W (Proc.devRef .tc main_v4) = ReadP.val_main_v4 (F := F) x2) :
    after c4 W (Proc.devRef .tc main_v77) = ReadP.val_main_v77 (F := F) x0 x1 x2 := by
  after_results_simp
  rw [h55, h19, h4]
  simp only [ReadP.val_main_v77, ReadP.val_main_v76, ReadP.val_main_v75, ReadP.val_main_v74, ReadP.val_main_cst_21, ReadP.val_main_v73, ReadP.val_main_v72, ReadP.val_main_v71, ReadP.val_main_v70, ReadP.val_main_cst_20, ReadP.val_main_v69, ReadP.val_main_cst_19, ReadP.val_main_v68, ReadP.val_main_v67, ReadP.val_main_v66, ReadP.val_main_cst_18, ReadP.val_main_v65, ReadP.val_main_v64, ReadP.val_main_v63, ReadP.val_main_v62, ReadP.val_main_cst_17, ReadP.val_main_v61, ReadP.val_main_v60, ReadP.val_main_call0_v2, ReadP.val_main_call0_v1, ReadP.val_main_call0_v0, ReadP.val_main_cst_16, ReadP.val_main_v59, ReadP.val_main_v58, ReadP.val_main_c_15, ReadP.val_main_v57, ReadP.val_main_v56, ReadP.val_main_cst_14]

/-! ## Fifth stretch: the two outputs, each as a column -/

set_option maxRecDepth 65536 in
set_option maxHeartbeats 2000000 in
/-- The first output column after the fifth stretch. -/
theorem c5_v120 (W : Valuation τ sig (Elt F)) (x0 x1 : (⟨S100000x2, .f32⟩ : BufTy).Contents (Elt F)) (x2 : (⟨S2x6400000, .i32⟩ : BufTy).Contents (Elt F))
    (h64 : W (Proc.devRef .tc main_v64) = ReadP.val_main_v64 (F := F) x0 x1 x2)
    (h77 : W (Proc.devRef .tc main_v77) = ReadP.val_main_v77 (F := F) x0 x1 x2) :
    after c5 W (Proc.devRef .tc main_v120) = ReadP.val_main_v120 (F := F) x0 x1 x2 := by
  after_results_simp
  rw [h64, h77]
  simp only [ReadP.val_main_v127, ReadP.val_main_v126, ReadP.val_main_v125, ReadP.val_main_v124, ReadP.val_main_cst_34, ReadP.val_main_v123, ReadP.val_main_v122, ReadP.val_main_v121, ReadP.val_main_cst_33, ReadP.val_main_v120, ReadP.val_main_v119, ReadP.val_main_cst_32, ReadP.val_main_v118, ReadP.val_main_v117, ReadP.val_main_v116, ReadP.val_main_v115, ReadP.val_main_cst_31, ReadP.val_main_v114, ReadP.val_main_v113, ReadP.val_main_v112, ReadP.val_main_v111, ReadP.val_main_cst_30, ReadP.val_main_v110, ReadP.val_main_v109, ReadP.val_main_v108, ReadP.val_main_cst_29, ReadP.val_main_v107, ReadP.val_main_v106, ReadP.val_main_cst_28, ReadP.val_main_v105, ReadP.val_main_v104, ReadP.val_main_v103, ReadP.val_main_cst_27, ReadP.val_main_v102, ReadP.val_main_v101, ReadP.val_main_v100, ReadP.val_main_cst_26, ReadP.val_main_v99, ReadP.val_main_v98, ReadP.val_main_v97, ReadP.val_main_v96, ReadP.val_main_v95, ReadP.val_main_v94, ReadP.val_main_v93, ReadP.val_main_cst_25, ReadP.val_main_v92, ReadP.val_main_v91, ReadP.val_main_cst_24, ReadP.val_main_v90, ReadP.val_main_v89, ReadP.val_main_v88, ReadP.val_main_v87, ReadP.val_main_cst_23, ReadP.val_main_v86, ReadP.val_main_v85, ReadP.val_main_v84, ReadP.val_main_v83, ReadP.val_main_cst_22, ReadP.val_main_v82, ReadP.val_main_v81, ReadP.val_main_v80, ReadP.val_main_v79, ReadP.val_main_v78]

set_option maxRecDepth 65536 in
set_option maxHeartbeats 2000000 in
/-- The second output column after the fifth stretch. -/
theorem c5_v127 (W : Valuation τ sig (Elt F)) (x0 x1 : (⟨S100000x2, .f32⟩ : BufTy).Contents (Elt F)) (x2 : (⟨S2x6400000, .i32⟩ : BufTy).Contents (Elt F))
    (h64 : W (Proc.devRef .tc main_v64) = ReadP.val_main_v64 (F := F) x0 x1 x2)
    (h77 : W (Proc.devRef .tc main_v77) = ReadP.val_main_v77 (F := F) x0 x1 x2) :
    after c5 W (Proc.devRef .tc main_v127) = ReadP.val_main_v127 (F := F) x0 x1 x2 := by
  after_results_simp
  rw [h64, h77]
  simp only [ReadP.val_main_v127, ReadP.val_main_v126, ReadP.val_main_v125, ReadP.val_main_v124, ReadP.val_main_cst_34, ReadP.val_main_v123, ReadP.val_main_v122, ReadP.val_main_v121, ReadP.val_main_cst_33, ReadP.val_main_v120, ReadP.val_main_v119, ReadP.val_main_cst_32, ReadP.val_main_v118, ReadP.val_main_v117, ReadP.val_main_v116, ReadP.val_main_v115, ReadP.val_main_cst_31, ReadP.val_main_v114, ReadP.val_main_v113, ReadP.val_main_v112, ReadP.val_main_v111, ReadP.val_main_cst_30, ReadP.val_main_v110, ReadP.val_main_v109, ReadP.val_main_v108, ReadP.val_main_cst_29, ReadP.val_main_v107, ReadP.val_main_v106, ReadP.val_main_cst_28, ReadP.val_main_v105, ReadP.val_main_v104, ReadP.val_main_v103, ReadP.val_main_cst_27, ReadP.val_main_v102, ReadP.val_main_v101, ReadP.val_main_v100, ReadP.val_main_cst_26, ReadP.val_main_v99, ReadP.val_main_v98, ReadP.val_main_v97, ReadP.val_main_v96, ReadP.val_main_v95, ReadP.val_main_v94, ReadP.val_main_v93, ReadP.val_main_cst_25, ReadP.val_main_v92, ReadP.val_main_v91, ReadP.val_main_cst_24, ReadP.val_main_v90, ReadP.val_main_v89, ReadP.val_main_v88, ReadP.val_main_v87, ReadP.val_main_cst_23, ReadP.val_main_v86, ReadP.val_main_v85, ReadP.val_main_v84, ReadP.val_main_v83, ReadP.val_main_cst_22, ReadP.val_main_v82, ReadP.val_main_v81, ReadP.val_main_v80, ReadP.val_main_v79, ReadP.val_main_v78]

/-! ## Last operation: the two columns side by side -/

set_option maxRecDepth 65536 in
set_option maxHeartbeats 2000000 in
/-- The result after the last operation. -/
theorem c6_v128 (W : Valuation τ sig (Elt F)) (x0 x1 : (⟨S100000x2, .f32⟩ : BufTy).Contents (Elt F)) (x2 : (⟨S2x6400000, .i32⟩ : BufTy).Contents (Elt F))
    (h120 : W (Proc.devRef .tc main_v120) = ReadP.val_main_v120 (F := F) x0 x1 x2)
    (h127 : W (Proc.devRef .tc main_v127) = ReadP.val_main_v127 (F := F) x0 x1 x2) :
    after c6 W (Proc.devRef .tc main_v128) = ReadP.val_main_v128 (F := F) x0 x1 x2 := by
  after_results_simp
  rw [h120, h127]
  simp only [ReadP.val_main_v128]

/-! ## The whole list -/

/-- After all the operations, from any contents, the result buffer holds the last stage function of the three
    arguments' contents. -/
theorem after_eq (V : Valuation τ sig (Elt F)) :
    after RunP.ops V (Proc.devRef .tc main_v128)
      = ReadP.val_main_v128 (F := F) (V (Proc.devRef .tc main_arg0)) (V (Proc.devRef .tc main_arg1)) (V (Proc.devRef .tc main_arg2)) := by
  rw [ops_split, after_append, after_append, after_append, after_append, after_append]
  have e19 := c1_v19 V
  have e4 := c1_v4 V
  have f19 := (c2_v19 (after c1 V)).trans e19
  have f4 := (c2_v4 (after c1 V)).trans e4
  have f30 := c2_v30 (after c1 V) _ _ _ e19
  have f39 := c2_v39 (after c1 V) _ _ _ e19
  have f47 := c2_v47 (after c1 V) _ _ _ e19
  have f54 := c2_v54 (after c1 V) _ _ _ e19
  have g55 := c3_v55 (after c2 (after c1 V)) _ _ _ f30 f39 f47 f54
  have g19 := (c3_v19 (after c2 (after c1 V))).trans f19
  have g4 := (c3_v4 (after c2 (after c1 V))).trans f4
  have k64 := c4_v64 (after c3 (after c2 (after c1 V))) _ _ _ g55 g19 g4
  have k77 := c4_v77 (after c3 (after c2 (after c1 V))) _ _ _ g55 g19 g4
  have l120 := c5_v120 (after c4 (after c3 (after c2 (after c1 V)))) _ _ _ k64 k77
  have l127 := c5_v127 (after c4 (after c3 (after c2 (after c1 V)))) _ _ _ k64 k77
  exact c6_v128 _ _ _ _ l120 l127

end Cert.ReferenceIdeal.RefValue

end
-- ==== Proof.RefMsg.lean ====
/-
  The reference's per-edge values, read at an index, as the specification's scalar functions.

  Under the in-range precondition the index wrap-around (a negative word has the node count added) is the identity,
  so the two row gathers read the node features at the rows the table words name; the feature difference of an edge,
  its four message components, the test for the zero difference and the masked message follow coordinate by
  coordinate.
-/
import proofs.«402730_j53644141527384_3_alg».proof.Proof.RefRead
import proofs.«402730_j53644141527384_3_alg».proof.Proof.Spec
import proofs.«402730_j53644141527384_3_alg».proof.Proof.LibEdgeTable
import Idealize.ShloMosaic.PureOps.Ideal.Laws
import Idealize.ShloMosaic.Lib.Affine

noncomputable section

namespace Cert.ReferenceIdeal.RefValue

open Cert.ReferenceIdeal Cert.ReferenceIdeal.Gen Idealize.ShloMosaic Idealize.ShloMosaic.ValueIdx
open scoped BigOperators

/-- The contents of a node-feature argument, and of the edge table. -/
abbrev NodeArg : Type := (⟨S100000x2, .f32⟩ : BufTy).Contents (Elt Ideal)
abbrev EdgeArg : Type := (⟨S2x6400000, .i32⟩ : BufTy).Contents (Elt Ideal)

variable (x0 x1 : NodeArg) (x2 : EdgeArg)

/-- The node features side by side: the array both gathers read. -/
abbrev feat : (⟨S100000x4, .f32⟩ : BufTy).Contents (Elt Ideal) := ReadP.val_main_v0 (F := Ideal) x0 x1

/-! ## The table rows -/

/-- The destination table at e is the word in row 1. -/
theorem v4_at (e : Fin 6400000) : ReadP.val_main_v4 (F := Ideal) x2 (ix1 e) = x2 (ix2 1 e) := by
  rw [ReadP.val_main_v4_apply, ReadP.val_main_v3_apply]
  refine congrArg x2 (funext fun a => Fin.ext ?_)
  match a with
  | ⟨0, _⟩ => rfl
  | ⟨1, _⟩ => exact Nat.mod_eq_of_lt e.isLt

/-- The source table at e is the word in row 0. -/
theorem v2_at (e : Fin 6400000) : ReadP.val_main_v2 (F := Ideal) x2 (ix1 e) = x2 (ix2 0 e) := by
  rw [ReadP.val_main_v2_apply, ReadP.val_main_v1_apply]
  refine congrArg x2 (funext fun a => Fin.ext ?_)
  match a with
  | ⟨0, _⟩ => rfl
  | ⟨1, _⟩ => exact Nat.mod_eq_of_lt e.isLt

/-- A word that is not negative is not below zero in the signed comparison. -/
theorem slt_zero_of_nonneg (w : BitVec 32) (h : 0 ≤ w.toInt) : ¬ IntOp.cmpi .slt w 0#32 = 1#1 := by
  rw [IntOp.cmpi_slt, show (0#32 : BitVec 32).toInt = 0 from by decide]
  exact not_lt.mpr h

variable {x2}

/-- In range, the wrapped destination index is the word itself. -/
theorem v9_at (hr : Cert.Spec.InRange x2) (e : Fin 6400000) :
    ReadP.val_main_v9 (F := Ideal) x2 (ix1 e) = x2 (ix2 1 e) := by
  rw [ReadP.val_main_v9_apply, ReadP.val_main_v6_apply, ReadP.val_main_v5_apply, ReadP.val_main_c_apply, v4_at]
  exact if_neg (slt_zero_of_nonneg _ (hr 1 e).1)

/-- In range, the wrapped source index is the word itself. -/
theorem v16_at (hr : Cert.Spec.InRange x2) (e : Fin 6400000) :
    ReadP.val_main_v16 (F := Ideal) x2 (ix1 e) = x2 (ix2 0 e) := by
  rw [ReadP.val_main_v16_apply, ReadP.val_main_v13_apply, ReadP.val_main_v12_apply, ReadP.val_main_c_1_apply, v2_at]
  exact if_neg (slt_zero_of_nonneg _ (hr 0 e).1)

theorem v10_at (hr : Cert.Spec.InRange x2) (e : Fin 6400000) :
    ReadP.val_main_v10 (F := Ideal) x2 (ix2 e (0 : Fin 1)) = x2 (ix2 1 e) := by
  rw [ReadP.val_main_v10_apply]
  have hi : ReadP.idx_main_v10 (ix2 e (0 : Fin 1)) = ix1 e := funext fun a => by match a with | ⟨0, _⟩ => rfl
  rw [hi, v9_at hr]

theorem v17_at (hr : Cert.Spec.InRange x2) (e : Fin 6400000) :
    ReadP.val_main_v17 (F := Ideal) x2 (ix2 e (0 : Fin 1)) = x2 (ix2 0 e) := by
  rw [ReadP.val_main_v17_apply]
  have hi : ReadP.idx_main_v17 (ix2 e (0 : Fin 1)) = ix1 e := funext fun a => by match a with | ⟨0, _⟩ => rfl
  rw [hi, v16_at hr]

/-! ## The gathered rows and their difference -/

/-- The destination node's features: row (the node the word in row 1 names) of the features. -/
theorem v11_at (hr : Cert.Spec.InRange x2) (e : Fin 6400000) (j : Fin 4) :
    ReadP.val_main_v11 (F := Ideal) x0 x1 x2 (ix2 e j) = feat x0 x1 (ix2 (Cert.Spec.node (x2 (ix2 1 e))) j) := by
  unfold ReadP.val_main_v11
  refine (Cert.LibEdgeTable.gather_rows_apply (n := 100000) (c := 4) (k := 6400000) (by decide)
    gather_S100000x4_S6400000x1_S6400000x4_1_0_n_n_0_1_14_wf (ReadP.val_main_v0 (F := Ideal) x0 x1)
    (ReadP.val_main_v10 (F := Ideal) x2) e j).trans ?_
  refine congrArg (fun r => feat x0 x1 (ix2 r j)) (Fin.ext ?_)
  show min (ReadP.val_main_v10 (F := Ideal) x2 (ix2 e (0 : Fin 1))).toInt.toNat (100000 - 1) = min (x2 (ix2 1 e)).toInt.toNat 99999
  rw [v10_at hr]

/-- The source node's features. -/
theorem v18_at (hr : Cert.Spec.InRange x2) (e : Fin 6400000) (j : Fin 4) :
    ReadP.val_main_v18 (F := Ideal) x0 x1 x2 (ix2 e j) = feat x0 x1 (ix2 (Cert.Spec.node (x2 (ix2 0 e))) j) := by
  unfold ReadP.val_main_v18
  refine (Cert.LibEdgeTable.gather_rows_apply (n := 100000) (c := 4) (k := 6400000) (by decide)
    gather_S100000x4_S6400000x1_S6400000x4_1_0_n_n_0_1_14_wf (ReadP.val_main_v0 (F := Ideal) x0 x1)
    (ReadP.val_main_v17 (F := Ideal) x2) e j).trans ?_
  refine congrArg (fun r => feat x0 x1 (ix2 r j)) (Fin.ext ?_)
  show min (ReadP.val_main_v17 (F := Ideal) x2 (ix2 e (0 : Fin 1))).toInt.toNat (100000 - 1) = min (x2 (ix2 0 e)).toInt.toNat 99999
  rw [v17_at hr]

/-- The feature difference of edge e, feature j. -/
theorem v19_at (hr : Cert.Spec.InRange x2) (e : Fin 6400000) (j : Fin 4) :
    ReadP.val_main_v19 (F := Ideal) x0 x1 x2 (ix2 e j) = Cert.Spec.dfeat (feat x0 x1) x2 e j := by
  rw [ReadP.val_main_v19_apply, v11_at x0 x1 hr, v18_at x0 x1 hr]
  rfl

/-! ## The four message components -/

/-- The first feature difference, as a column. -/
theorem v20_at (hr : Cert.Spec.InRange x2) (e : Fin 6400000) :
    ReadP.val_main_v20 (F := Ideal) x0 x1 x2 (ix2 e (0 : Fin 1)) = Cert.Spec.dfeat (feat x0 x1) x2 e 0 := by
  rw [ReadP.val_main_v20_apply]
  have hi : ReadP.idx_main_v20 (ix2 e (0 : Fin 1)) = ix2 e (0 : Fin 4) :=
    funext fun a => Fin.ext (by match a with | ⟨0, _⟩ => rfl | ⟨1, _⟩ => rfl)
  rw [hi, v19_at x0 x1 hr]

/-- The second feature difference, as a column. -/
theorem v21_at (hr : Cert.Spec.InRange x2) (e : Fin 6400000) :
    ReadP.val_main_v21 (F := Ideal) x0 x1 x2 (ix2 e (0 : Fin 1)) = Cert.Spec.dfeat (feat x0 x1) x2 e 1 := by
  rw [ReadP.val_main_v21_apply]
  have hi : ReadP.idx_main_v21 (ix2 e (0 : Fin 1)) = ix2 e (1 : Fin 4) :=
    funext fun a => Fin.ext (by match a with | ⟨0, _⟩ => rfl | ⟨1, _⟩ => rfl)
  rw [hi, v19_at x0 x1 hr]

/-- The first message component. -/
theorem v30_at (hr : Cert.Spec.InRange x2) (e : Fin 6400000) :
    ReadP.val_main_v30 (F := Ideal) x0 x1 x2 (ix2 e (0 : Fin 1))
      = Cert.Spec.m0 (Cert.Spec.dfeat (feat x0 x1) x2 e 0) (Cert.Spec.dfeat (feat x0 x1) x2 e 1) := by
  rw [ReadP.val_main_v30_apply, ReadP.val_main_v28_apply, ReadP.val_main_v27_apply, ReadP.val_main_v26_apply,
    ReadP.val_main_v24_apply, ReadP.val_main_v23_apply, ReadP.val_main_v29_apply, ReadP.val_main_v25_apply,
    ReadP.val_main_v22_apply, ReadP.val_main_cst_4_apply, ReadP.val_main_cst_3_apply, ReadP.val_main_cst_apply,
    v20_at x0 x1 hr, v21_at x0 x1 hr]
  rfl

/-- The second message component. -/
theorem v39_at (hr : Cert.Spec.InRange x2) (e : Fin 6400000) :
    ReadP.val_main_v39 (F := Ideal) x0 x1 x2 (ix2 e (0 : Fin 1))
      = Cert.Spec.m1 (Cert.Spec.dfeat (feat x0 x1) x2 e 0) (Cert.Spec.dfeat (feat x0 x1) x2 e 1) := by
  rw [ReadP.val_main_v39_apply, ReadP.val_main_v37_apply, ReadP.val_main_v36_apply, ReadP.val_main_v35_apply,
    ReadP.val_main_v33_apply, ReadP.val_main_v32_apply, ReadP.val_main_v38_apply, ReadP.val_main_v34_apply,
    ReadP.val_main_v31_apply, ReadP.val_main_cst_7_apply, ReadP.val_main_cst_6_apply, ReadP.val_main_cst_5_apply,
    v20_at x0 x1 hr, v21_at x0 x1 hr]
  rfl

/-- The third message component. -/
theorem v47_at (hr : Cert.Spec.InRange x2) (e : Fin 6400000) :
    ReadP.val_main_v47 (F := Ideal) x0 x1 x2 (ix2 e (0 : Fin 1))
      = Cert.Spec.m2 (Cert.Spec.dfeat (feat x0 x1) x2 e 0) := by
  rw [ReadP.val_main_v47_apply, ReadP.val_main_v45_apply, ReadP.val_main_v43_apply, ReadP.val_main_v42_apply,
    ReadP.val_main_v41_apply, ReadP.val_main_v46_apply, ReadP.val_main_v44_apply, ReadP.val_main_v40_apply,
    ReadP.val_main_cst_10_apply, ReadP.val_main_cst_9_apply, ReadP.val_main_cst_8_apply, v20_at x0 x1 hr]
  rfl

/-- The fourth message component. -/
theorem v54_at (hr : Cert.Spec.InRange x2) (e : Fin 6400000) :
    ReadP.val_main_v54 (F := Ideal) x0 x1 x2 (ix2 e (0 : Fin 1))
      = Cert.Spec.m3 (Cert.Spec.dfeat (feat x0 x1) x2 e 0) (Cert.Spec.dfeat (feat x0 x1) x2 e 1) := by
  rw [ReadP.val_main_v54_apply, ReadP.val_main_v52_apply, ReadP.val_main_v51_apply, ReadP.val_main_v49_apply,
    ReadP.val_main_v53_apply, ReadP.val_main_v50_apply, ReadP.val_main_v48_apply,
    ReadP.val_main_cst_13_apply, ReadP.val_main_cst_12_apply, ReadP.val_main_cst_11_apply,
    v20_at x0 x1 hr, v21_at x0 x1 hr]
  rfl

/-! ## The four components side by side -/

/-- Column 0 of the message before masking is component 0. -/
theorem v55_at0 (e : Fin 6400000) :
    ReadP.val_main_v55 (F := Ideal) x0 x1 x2 (ix2 e (0 : Fin 4)) = ReadP.val_main_v30 (F := Ideal) x0 x1 x2 (ix2 e (0 : Fin 1)) := by
  unfold ReadP.val_main_v55
  refine concatenate_apply_piece (1 : Fin 2) _ _ (ix2 e (0 : Fin 4)) 0 ?_ S6400000x1
    (ReadP.val_main_v30 (F := Ideal) x0 x1 x2) ?_ rfl 0 ?_ (ix2 e (0 : Fin 1)) ?_ ?_
  · show 0 < 4
    omega
  · rfl
  · rfl
  · intro b hb
    match b with
    | ⟨0, _⟩ => rfl
    | ⟨1, _⟩ => exact absurd rfl hb
  · rfl

/-- Column 1 of the message before masking is component 1. -/
theorem v55_at1 (e : Fin 6400000) :
    ReadP.val_main_v55 (F := Ideal) x0 x1 x2 (ix2 e (1 : Fin 4)) = ReadP.val_main_v39 (F := Ideal) x0 x1 x2 (ix2 e (0 : Fin 1)) := by
  unfold ReadP.val_main_v55
  refine concatenate_apply_piece (1 : Fin 2) _ _ (ix2 e (1 : Fin 4)) 1 ?_ S6400000x1
    (ReadP.val_main_v39 (F := Ideal) x0 x1 x2) ?_ rfl 1 ?_ (ix2 e (0 : Fin 1)) ?_ ?_
  · show 1 < 4
    omega
  · rfl
  · rfl
  · intro b hb
    match b with
    | ⟨0, _⟩ => rfl
    | ⟨1, _⟩ => exact absurd rfl hb
  · rfl

/-- Column 2 of the message before masking is component 2. -/
theorem v55_at2 (e : Fin 6400000) :
    ReadP.val_main_v55 (F := Ideal) x0 x1 x2 (ix2 e (2 : Fin 4)) = ReadP.val_main_v47 (F := Ideal) x0 x1 x2 (ix2 e (0 : Fin 1)) := by
  unfold ReadP.val_main_v55
  refine concatenate_apply_piece (1 : Fin 2) _ _ (ix2 e (2 : Fin 4)) 2 ?_ S6400000x1
    (ReadP.val_main_v47 (F := Ideal) x0 x1 x2) ?_ rfl 2 ?_ (ix2 e (0 : Fin 1)) ?_ ?_
  · show 2 < 4
    omega
  · rfl
  · rfl
  · intro b hb
    match b with
    | ⟨0, _⟩ => rfl
    | ⟨1, _⟩ => exact absurd rfl hb
  · rfl

/-- Column 3 of the message before masking is component 3. -/
theorem v55_at3 (e : Fin 6400000) :
    ReadP.val_main_v55 (F := Ideal) x0 x1 x2 (ix2 e (3 : Fin 4)) = ReadP.val_main_v54 (F := Ideal) x0 x1 x2 (ix2 e (0 : Fin 1)) := by
  unfold ReadP.val_main_v55
  refine concatenate_apply_piece (1 : Fin 2) _ _ (ix2 e (3 : Fin 4)) 3 ?_ S6400000x1
    (ReadP.val_main_v54 (F := Ideal) x0 x1 x2) ?_ rfl 3 ?_ (ix2 e (0 : Fin 1)) ?_ ?_
  · show 3 < 4
    omega
  · rfl
  · rfl
  · intro b hb
    match b with
    | ⟨0, _⟩ => rfl
    | ⟨1, _⟩ => exact absurd rfl hb
  · rfl

/-! ## The test for the zero difference -/

/-- A conjunction of one-bit words folded from 1 is 1 exactly when every word is. -/
theorem fold_andi_eq_one_iff {ι : Type} [DecidableEq ι] (s : Finset ι) (f : ι → BitVec 1) :
    s.fold IntOp.andi 1#1 f = 1#1 ↔ ∀ i ∈ s, f i = 1#1 := by
  induction s using Finset.induction_on with
  | empty => simp
  | insert a s ha ih => rw [Finset.fold_insert ha, IntOp.andi_eq_one, ih, Finset.forall_mem_insert]

/-- The ordered-equal comparison against the zero word holds exactly of zero. -/
theorem cmp_oeq_zero (x : EReal) : Ideal.cmp .oeq x (Ideal.ofBits .f32 0x00000000#32) = 1#1 ↔ x = 0 := by
  rw [Ideal.ofBits_zero_f32]
  unfold Ideal.cmp
  by_cases h : x = 0
  · simp [h]
  · simp [h]

/-- The comparison of the feature difference against zero, at (e, j). -/
theorem v57_at (hr : Cert.Spec.InRange x2) (e : Fin 6400000) (j : Fin 4) :
    ReadP.val_main_v57 (F := Ideal) x0 x1 x2 (ix2 e j)
      = Ideal.cmp .oeq (Cert.Spec.dfeat (feat x0 x1) x2 e j) (Ideal.ofBits .f32 0x00000000#32) := by
  rw [ReadP.val_main_v57_apply, ReadP.val_main_v56_apply, ReadP.val_main_cst_14_apply, v19_at x0 x1 hr]
  rfl

/-- The row-wise conjunction at e is 1 exactly when the edge's feature difference is the zero vector. -/
theorem v58_at (hr : Cert.Spec.InRange x2) (e : Fin 6400000) :
    ReadP.val_main_v58 (F := Ideal) x0 x1 x2 (ix1 e) = 1#1 ↔ (Cert.Spec.dfeat (feat x0 x1) x2 e 0) = 0 ∧ (Cert.Spec.dfeat (feat x0 x1) x2 e 1) = 0 ∧ (Cert.Spec.dfeat (feat x0 x1) x2 e 2) = 0 ∧ (Cert.Spec.dfeat (feat x0 x1) x2 e 3) = 0 := by
  unfold ReadP.val_main_v58
  have hR : S6400000x4.Reduces [1] S6400000 := by decide
  rw [Host.reduce_eq_fold_single IntOp.andi _ _ reducesTo_S6400000x4_S6400000_d1 hR h_S_ (ix1 e)]
  have hl : ∀ k : Fin 4, hR.lift (ix1 e) k = ix2 e k := fun k => funext fun c => Fin.ext (by
    match c with
    | ⟨0, _⟩ => rfl
    | ⟨1, _⟩ => rfl)
  have hk : ∀ k : Fin 4, ReadP.val_main_v57 (F := Ideal) x0 x1 x2 (hR.lift (ix1 e) k) = 1#1
      ↔ Cert.Spec.dfeat (feat x0 x1) x2 e k = 0 := fun k => by
    rw [hl k, v57_at x0 x1 hr, cmp_oeq_zero]
  have hf := fold_andi_eq_one_iff (Finset.univ : Finset (Fin 4))
    (fun k : Fin 4 => ReadP.val_main_v57 (F := Ideal) x0 x1 x2 (hR.lift (ix1 e) k))
  refine Iff.trans hf ⟨fun h => ?_, fun h k _ => ?_⟩
  · exact ⟨(hk (0 : Fin 4)).mp (h (0 : Fin 4) (Finset.mem_univ _)), (hk (1 : Fin 4)).mp (h (1 : Fin 4) (Finset.mem_univ _)),
      (hk (2 : Fin 4)).mp (h (2 : Fin 4) (Finset.mem_univ _)), (hk (3 : Fin 4)).mp (h (3 : Fin 4) (Finset.mem_univ _))⟩
  · refine (hk k).mpr ?_
    obtain ⟨h0, h1, h2, h3⟩ := h
    match k with
    | ⟨0, _⟩ => exact h0
    | ⟨1, _⟩ => exact h1
    | ⟨2, _⟩ => exact h2
    | ⟨3, _⟩ => exact h3

/-! ## The masked message -/

/-- The masked message at (e, k): the zero word where the row-wise conjunction is 1, else the message. -/
theorem v60_eq (e : Fin 6400000) (k : Fin 4) :
    ReadP.val_main_v60 (F := Ideal) x0 x1 x2 (ix2 e k)
      = if ReadP.val_main_v58 (F := Ideal) x0 x1 x2 (ix1 e) = 1#1 then Ideal.ofBits .f32 0x00000000#32
        else ReadP.val_main_v55 (F := Ideal) x0 x1 x2 (ix2 e k) := by
  rw [ReadP.val_main_v60_apply, ReadP.val_main_call0_v1_apply, ReadP.val_main_v59_apply, ReadP.val_main_call0_v2_apply,
    ReadP.val_main_call0_v0_apply, ReadP.val_main_cst_16_apply]
  have hi : ReadP.idx_main_v59 (ReadP.idx_main_call0_v1 (ix2 e k)) = ix1 e :=
    funext fun a => by match a with | ⟨0, _⟩ => rfl
  rw [hi]
  rfl

/-- Column 0 of the masked message is component 0 of the edge's message. -/
theorem v60_at0 (hr : Cert.Spec.InRange x2) (e : Fin 6400000) :
    ReadP.val_main_v60 (F := Ideal) x0 x1 x2 (ix2 e (0 : Fin 4)) = Cert.Spec.emsg (feat x0 x1) x2 0 e := by
  rw [v60_eq x0 x1 e (0 : Fin 4), v55_at0, v30_at x0 x1 hr]
  show _ = Cert.Spec.edgeMsg 0 (Cert.Spec.dfeat (feat x0 x1) x2 e 0) (Cert.Spec.dfeat (feat x0 x1) x2 e 1) (Cert.Spec.dfeat (feat x0 x1) x2 e 2) (Cert.Spec.dfeat (feat x0 x1) x2 e 3)
  by_cases hz : (Cert.Spec.dfeat (feat x0 x1) x2 e 0) = 0 ∧ (Cert.Spec.dfeat (feat x0 x1) x2 e 1) = 0 ∧ (Cert.Spec.dfeat (feat x0 x1) x2 e 2) = 0 ∧ (Cert.Spec.dfeat (feat x0 x1) x2 e 3) = 0
  · rw [if_pos ((v58_at x0 x1 hr e).mpr hz), Ideal.ofBits_zero_f32]
    exact (if_pos hz).symm
  · rw [if_neg (fun h => hz ((v58_at x0 x1 hr e).mp h))]
    exact (if_neg hz).symm

/-- Column 1 of the masked message is component 1 of the edge's message. -/
theorem v60_at1 (hr : Cert.Spec.InRange x2) (e : Fin 6400000) :
    ReadP.val_main_v60 (F := Ideal) x0 x1 x2 (ix2 e (1 : Fin 4)) = Cert.Spec.emsg (feat x0 x1) x2 1 e := by
  rw [v60_eq x0 x1 e (1 : Fin 4), v55_at1, v39_at x0 x1 hr]
  show _ = Cert.Spec.edgeMsg 1 (Cert.Spec.dfeat (feat x0 x1) x2 e 0) (Cert.Spec.dfeat (feat x0 x1) x2 e 1) (Cert.Spec.dfeat (feat x0 x1) x2 e 2) (Cert.Spec.dfeat (feat x0 x1) x2 e 3)
  by_cases hz : (Cert.Spec.dfeat (feat x0 x1) x2 e 0) = 0 ∧ (Cert.Spec.dfeat (feat x0 x1) x2 e 1) = 0 ∧ (Cert.Spec.dfeat (feat x0 x1) x2 e 2) = 0 ∧ (Cert.Spec.dfeat (feat x0 x1) x2 e 3) = 0
  · rw [if_pos ((v58_at x0 x1 hr e).mpr hz), Ideal.ofBits_zero_f32]
    exact (if_pos hz).symm
  · rw [if_neg (fun h => hz ((v58_at x0 x1 hr e).mp h))]
    exact (if_neg hz).symm

/-- Column 2 of the masked message is component 2 of the edge's message. -/
theorem v60_at2 (hr : Cert.Spec.InRange x2) (e : Fin 6400000) :
    ReadP.val_main_v60 (F := Ideal) x0 x1 x2 (ix2 e (2 : Fin 4)) = Cert.Spec.emsg (feat x0 x1) x2 2 e := by
  rw [v60_eq x0 x1 e (2 : Fin 4), v55_at2, v47_at x0 x1 hr]
  show _ = Cert.Spec.edgeMsg 2 (Cert.Spec.dfeat (feat x0 x1) x2 e 0) (Cert.Spec.dfeat (feat x0 x1) x2 e 1) (Cert.Spec.dfeat (feat x0 x1) x2 e 2) (Cert.Spec.dfeat (feat x0 x1) x2 e 3)
  by_cases hz : (Cert.Spec.dfeat (feat x0 x1) x2 e 0) = 0 ∧ (Cert.Spec.dfeat (feat x0 x1) x2 e 1) = 0 ∧ (Cert.Spec.dfeat (feat x0 x1) x2 e 2) = 0 ∧ (Cert.Spec.dfeat (feat x0 x1) x2 e 3) = 0
  · rw [if_pos ((v58_at x0 x1 hr e).mpr hz), Ideal.ofBits_zero_f32]
    exact (if_pos hz).symm
  · rw [if_neg (fun h => hz ((v58_at x0 x1 hr e).mp h))]
    exact (if_neg hz).symm

/-- Column 3 of the masked message is component 3 of the edge's message. -/
theorem v60_at3 (hr : Cert.Spec.InRange x2) (e : Fin 6400000) :
    ReadP.val_main_v60 (F := Ideal) x0 x1 x2 (ix2 e (3 : Fin 4)) = Cert.Spec.emsg (feat x0 x1) x2 3 e := by
  rw [v60_eq x0 x1 e (3 : Fin 4), v55_at3, v54_at x0 x1 hr]
  show _ = Cert.Spec.edgeMsg 3 (Cert.Spec.dfeat (feat x0 x1) x2 e 0) (Cert.Spec.dfeat (feat x0 x1) x2 e 1) (Cert.Spec.dfeat (feat x0 x1) x2 e 2) (Cert.Spec.dfeat (feat x0 x1) x2 e 3)
  by_cases hz : (Cert.Spec.dfeat (feat x0 x1) x2 e 0) = 0 ∧ (Cert.Spec.dfeat (feat x0 x1) x2 e 1) = 0 ∧ (Cert.Spec.dfeat (feat x0 x1) x2 e 2) = 0 ∧ (Cert.Spec.dfeat (feat x0 x1) x2 e 3) = 0
  · rw [if_pos ((v58_at x0 x1 hr e).mpr hz), Ideal.ofBits_zero_f32]
    exact (if_pos hz).symm
  · rw [if_neg (fun h => hz ((v58_at x0 x1 hr e).mp h))]
    exact (if_neg hz).symm

/-! ## The per-edge message is the specification's -/

/-- Column k of the masked message of edge e is component k of the specification's message: zero when the edge's
    feature difference is the zero vector, else the k-th rational expression in the difference's first two
    components. -/
theorem ref_msg (x0 x1 : (⟨S100000x2, .f32⟩ : BufTy).Contents (Elt Ideal)) (x2 : (⟨S2x6400000, .i32⟩ : BufTy).Contents (Elt Ideal))
    (hr : Cert.Spec.InRange x2) (e : Fin 6400000) (k : Fin 4) :
    ReadP.val_main_v60 (F := Ideal) x0 x1 x2 (ValueIdx.ix2 e k)
      = Cert.Spec.emsg (ReadP.val_main_v0 (F := Ideal) x0 x1) x2 ⟨k.val, by omega⟩ e := by
  match k with
  | ⟨0, _⟩ => exact v60_at0 x0 x1 hr e
  | ⟨1, _⟩ => exact v60_at1 x0 x1 hr e
  | ⟨2, _⟩ => exact v60_at2 x0 x1 hr e
  | ⟨3, _⟩ => exact v60_at3 x0 x1 hr e

end Cert.ReferenceIdeal.RefValue

end
-- ==== Proof.RefOut.lean ====
/-
  The reference program after its per-edge part: from the zeroed message array to the result, index by index.

  The message array msg [E, 4] is taken as given: at (e, k) it is component k of edge e's message. The program then
  accumulates, per node n, over the edges whose dst word (row 1 of the edge table) is n: columns 2, 3 of msg into
  add_out [N, 2], columns 0, 1 into sum_in [N, 2], and ones into cnt [N]; each accumulation starts from zero and an
  edge whose word names no node lands nowhere. These are components 2, 3, then 0, 1, then 4 of the specification's
  accumulation. The mean is sum_in / max (cnt, 1), column by column; the node array a [N, 4] is add_out beside the
  mean, so its columns are y0 = a2, y1 = a3, y2 = a0 / max (a4, 1), y3 = a1 / max (a4, 1). Four rational expressions
  u0 … u3 of the columns follow, then the two outputs p0, p1, set side by side into the result [N, 2].

  Every float literal stays the word it is printed with; none is evaluated.
-/
import proofs.«402730_j53644141527384_3_alg».proof.Proof.RefRead
import proofs.«402730_j53644141527384_3_alg».proof.Proof.LibEdgeTable
import proofs.«402730_j53644141527384_3_alg».proof.Proof.Spec

noncomputable section

namespace Cert.ReferenceIdeal.RefValue

open Cert.ReferenceIdeal Cert.ReferenceIdeal.Gen Cert.ReferenceIdeal.ReadP Idealize.ShloMosaic Idealize.ShloMosaic.ValueIdx
open scoped BigOperators

namespace Out

/-- The contents of a [100000, 2] float argument, and of the [2, 6400000] edge table. -/
abbrev NodeIn := (⟨S100000x2, .f32⟩ : BufTy).Contents (Elt Ideal)
abbrev EdgeIn := (⟨S2x6400000, .i32⟩ : BufTy).Contents (Elt Ideal)

/-! ## The dst table -/

/-- Row 1 of the edge table, reshaped to [E] and broadcast to [E, 1], read at (e, 0): the table's word (1, e). -/
theorem dstTable_apply (x2 : EdgeIn) (e : Fin 6400000) :
    val_main_v63 (F := Ideal) x2 (ix2 e (0 : Fin 1)) = x2 (ix2 (1 : Fin 2) e) := by
  rw [val_main_v63_apply, val_main_v4_apply, val_main_v3_apply]
  refine congrArg x2 ?_
  funext a
  refine Fin.ext ?_
  match a with
  | ⟨0, _⟩ => rfl
  | ⟨1, _⟩ => exact Nat.mod_eq_of_lt e.isLt

/-! ## The three accumulations -/

/-- The printed dimension numbers of the two row accumulations are those of the general row-accumulation lemma. -/
theorem rowDims_eq : scatter_S100000x2_S6400000x1_S6400000x2_1_0_0_1
    = LibEdgeTable.addDims2 100000 2 6400000 Facts₀.scatter_S100000x2_S6400000x1_S6400000x2_1_0_0_1_wf := rfl

/-- The printed dimension numbers of the count accumulation are those of the general entry-accumulation lemma. -/
theorem cntDims_eq : scatter_S100000_S6400000x1_S6400000_n_0_0_1
    = LibEdgeTable.addDims1 100000 6400000 Facts₀.scatter_S100000_S6400000x1_S6400000_n_0_0_1_wf := rfl

/-- The slice of columns 2, 3 of the message array reads the message array two columns on. -/
theorem idx_v61 (e : Fin 6400000) (r : Fin 2) :
    idx_main_v61 (ix2 e r) = ix2 e (⟨2 + r.val, by omega⟩ : Fin 4) := by
  funext a
  refine Fin.ext ?_
  match a with
  | ⟨0, _⟩ => rfl
  | ⟨1, _⟩ => rfl

/-- The slice of columns 0, 1 of the message array reads the message array at the same column. -/
theorem idx_v65 (e : Fin 6400000) (r : Fin 2) :
    idx_main_v65 (ix2 e r) = ix2 e (⟨r.val, by omega⟩ : Fin 4) := by
  funext a
  refine Fin.ext ?_
  match a with
  | ⟨0, _⟩ => rfl
  | ⟨1, _⟩ => rfl

/-- The sum of message columns 2, 3 over the edges whose dst word is n. -/
theorem addOut_apply (x0 x1 : NodeIn) (x2 : EdgeIn) (n : Fin 100000) (r : Fin 2) :
    val_main_v64 (F := Ideal) x0 x1 x2 (ix2 n r)
      = Spec.lit 0x00000000#32 + ∑ e : Fin 6400000, if (x2 (ix2 (1 : Fin 2) e)).toInt = (n.val : ℤ)
          then val_main_v60 (F := Ideal) x0 x1 x2 (ix2 e (⟨2 + r.val, by omega⟩ : Fin 4)) else 0 := by
  unfold val_main_v64
  rw [LibEdgeTable.hostScatterAdd_ideal, rowDims_eq, LibEdgeTable.scatterAdd2_apply, val_main_v62_apply,
    val_main_cst_17_apply, Ideal.ofBits_def]
  refine congrArg (Spec.lit 0x00000000#32 + ·) (Finset.sum_congr rfl fun e _ => ?_)
  rw [dstTable_apply, val_main_v61_apply, idx_v61]

/-- The sum of message columns 0, 1 over the edges whose dst word is n. -/
theorem sumIn_apply (x0 x1 : NodeIn) (x2 : EdgeIn) (n : Fin 100000) (r : Fin 2) :
    val_main_v68 (F := Ideal) x0 x1 x2 (ix2 n r)
      = Spec.lit 0x00000000#32 + ∑ e : Fin 6400000, if (x2 (ix2 (1 : Fin 2) e)).toInt = (n.val : ℤ)
          then val_main_v60 (F := Ideal) x0 x1 x2 (ix2 e (⟨r.val, by omega⟩ : Fin 4)) else 0 := by
  unfold val_main_v68
  rw [LibEdgeTable.hostScatterAdd_ideal, rowDims_eq, LibEdgeTable.scatterAdd2_apply, val_main_v66_apply,
    val_main_cst_18_apply, Ideal.ofBits_def]
  refine congrArg (Spec.lit 0x00000000#32 + ·) (Finset.sum_congr rfl fun e _ => ?_)
  show (if (val_main_v63 (F := Ideal) x2 (ix2 e (0 : Fin 1))).toInt = (n.val : ℤ) then _ else _) = _
  rw [dstTable_apply, val_main_v65_apply, idx_v65]

/-- The number of edges whose dst word is n, as a sum of ones. -/
theorem cnt_apply (x2 : EdgeIn) (n : Fin 100000) :
    val_main_v72 (F := Ideal) x2 (ix1 n)
      = Spec.lit 0x00000000#32 + ∑ e : Fin 6400000, if (x2 (ix2 (1 : Fin 2) e)).toInt = (n.val : ℤ)
          then Spec.lit 0x3F800000#32 else 0 := by
  unfold val_main_v72
  rw [LibEdgeTable.hostScatterAdd_ideal, cntDims_eq, LibEdgeTable.scatterAdd1_apply, val_main_v70_apply,
    val_main_cst_20_apply, Ideal.ofBits_def]
  refine congrArg (Spec.lit 0x00000000#32 + ·) (Finset.sum_congr rfl fun e _ => ?_)
  show (if (val_main_v63 (F := Ideal) x2 (ix2 e (0 : Fin 1))).toInt = (n.val : ℤ) then _ else _) = _
  rw [dstTable_apply, val_main_v69_apply, val_main_cst_19_apply, Ideal.ofBits_def]

/-! ## The accumulations are the specification's, given the per-edge fact -/

/-- The per-edge fact: the zeroed message array at (e, k) is component k of edge e's message. -/
abbrev MsgIs (x0 x1 : NodeIn) (x2 : EdgeIn) : Prop :=
  ∀ (e : Fin 6400000) (k : Fin 4), val_main_v60 (F := Ideal) x0 x1 x2 (ix2 e k)
    = Spec.emsg (val_main_v0 (F := Ideal) x0 x1) x2 ⟨k.val, by omega⟩ e

/-- Columns 2, 3 of the message array accumulate to components 2, 3. -/
theorem addOut_agg (x0 x1 : NodeIn) (x2 : EdgeIn) (hmsg : MsgIs x0 x1 x2) (n : Fin 100000) (r : Fin 2) (k : Fin 5)
    (hk : k.val = 2 + r.val) :
    val_main_v64 (F := Ideal) x0 x1 x2 (ix2 n r) = Spec.agg (val_main_v0 (F := Ideal) x0 x1) x2 k n := by
  rw [addOut_apply]
  unfold Spec.agg
  refine congrArg (Spec.lit 0x00000000#32 + ·) (Finset.sum_congr rfl fun e _ => ?_)
  rw [hmsg]
  exact congrArg (fun j => if (x2 (ix2 (1 : Fin 2) e)).toInt = (n.val : ℤ)
    then Spec.emsg (val_main_v0 (F := Ideal) x0 x1) x2 j e else 0) (Fin.ext hk.symm)

/-- Columns 0, 1 of the message array accumulate to components 0, 1. -/
theorem sumIn_agg (x0 x1 : NodeIn) (x2 : EdgeIn) (hmsg : MsgIs x0 x1 x2) (n : Fin 100000) (r : Fin 2) (k : Fin 5)
    (hk : k.val = r.val) :
    val_main_v68 (F := Ideal) x0 x1 x2 (ix2 n r) = Spec.agg (val_main_v0 (F := Ideal) x0 x1) x2 k n := by
  rw [sumIn_apply]
  unfold Spec.agg
  refine congrArg (Spec.lit 0x00000000#32 + ·) (Finset.sum_congr rfl fun e _ => ?_)
  rw [hmsg]
  exact congrArg (fun j => if (x2 (ix2 (1 : Fin 2) e)).toInt = (n.val : ℤ)
    then Spec.emsg (val_main_v0 (F := Ideal) x0 x1) x2 j e else 0) (Fin.ext hk.symm)

/-- The count is component 4: the fifth message component is the constant one. -/
theorem cnt_agg (x0 x1 : NodeIn) (x2 : EdgeIn) (n : Fin 100000) :
    val_main_v72 (F := Ideal) x2 (ix1 n) = Spec.agg (val_main_v0 (F := Ideal) x0 x1) x2 (4 : Fin 5) n := by
  rw [cnt_apply]
  unfold Spec.agg Spec.emsg
  refine congrArg (Spec.lit 0x00000000#32 + ·) (Finset.sum_congr rfl fun e _ => ?_)
  rfl

/-! ## The mean, and the four columns of the node array -/

/-- The [N] count broadcast to [N, 1] reads the count at the row. -/
theorem idx_v73 (n : Fin 100000) : idx_main_v73 (ix2 n (0 : Fin 1)) = ix1 n := by
  funext a
  refine Fin.ext ?_
  match a with
  | ⟨0, _⟩ => rfl

/-- The floored count broadcast from [N, 1] to [N, 2] reads its one column. -/
theorem idx_v76 (n : Fin 100000) (r : Fin 2) : idx_main_v76 (ix2 n r) = ix2 n (0 : Fin 1) := by
  funext a
  refine Fin.ext ?_
  match a with
  | ⟨0, _⟩ => rfl
  | ⟨1, _⟩ => rfl

/-- The mean of components 0, 1: the accumulated sum over the count floored at one. -/
theorem mean_apply (x0 x1 : NodeIn) (x2 : EdgeIn) (hmsg : MsgIs x0 x1 x2) (n : Fin 100000) (r : Fin 2) (k : Fin 5)
    (hk : k.val = r.val) :
    val_main_v77 (F := Ideal) x0 x1 x2 (ix2 n r)
      = Ideal.div (Spec.agg (val_main_v0 (F := Ideal) x0 x1) x2 k n)
          (max (Spec.agg (val_main_v0 (F := Ideal) x0 x1) x2 (4 : Fin 5) n) (Spec.lit 0x3F800000#32)) := by
  rw [val_main_v77_apply, val_main_v76_apply, idx_v76, val_main_v75_apply, val_main_v73_apply, idx_v73,
    val_main_v74_apply, val_main_cst_21_apply, sumIn_agg x0 x1 x2 hmsg n r k hk, cnt_agg x0 x1 x2 n,
    Ideal.hostDivf_def, Ideal.maximumf_def, Ideal.ofBits_def]

/-- The node array [N, 4] at a column below 2 is the first piece, the accumulated components 2, 3. -/
theorem nodeArr_left (x0 x1 : NodeIn) (x2 : EdgeIn) (n : Fin 100000) (q : Fin 2) (c : Fin 4) (hc : c.val = q.val) :
    val_main_v78 (F := Ideal) x0 x1 x2 (ix2 n c) = val_main_v64 (F := Ideal) x0 x1 x2 (ix2 n q) := by
  unfold val_main_v78
  exact concatenate_pair_apply_left _ _ _ concatenates_S100000x2_S100000x2_S100000x4_d1 (ix2 n c) rfl (ix2 n q)
    (fun b => match b with
      | ⟨0, _⟩ => rfl
      | ⟨1, _⟩ => hc.symm)

/-- The node array [N, 4] at a column from 2 on is the second piece, the means, two columns back. -/
theorem nodeArr_right (x0 x1 : NodeIn) (x2 : EdgeIn) (n : Fin 100000) (q : Fin 2) (c : Fin 4)
    (hc : c.val = 2 + q.val) :
    val_main_v78 (F := Ideal) x0 x1 x2 (ix2 n c) = val_main_v77 (F := Ideal) x0 x1 x2 (ix2 n q) := by
  unfold val_main_v78
  exact concatenate_pair_apply_right _ _ _ concatenates_S100000x2_S100000x2_S100000x4_d1 (ix2 n c) rfl rfl (ix2 n q)
    (fun b hb => match b, hb with
      | ⟨0, _⟩, _ => rfl
      | ⟨1, _⟩, hb => absurd rfl hb)
    (by show q.val + 2 = c.val; omega)

/-- The four one-column slices of the node array read it at their column. -/
theorem idx_v79 (n : Fin 100000) : idx_main_v79 (ix2 n (0 : Fin 1)) = ix2 n (0 : Fin 4) := by
  funext a
  refine Fin.ext ?_
  match a with
  | ⟨0, _⟩ => rfl
  | ⟨1, _⟩ => rfl

theorem idx_v80 (n : Fin 100000) : idx_main_v80 (ix2 n (0 : Fin 1)) = ix2 n (1 : Fin 4) := by
  funext a
  refine Fin.ext ?_
  match a with
  | ⟨0, _⟩ => rfl
  | ⟨1, _⟩ => rfl

theorem idx_v81 (n : Fin 100000) : idx_main_v81 (ix2 n (0 : Fin 1)) = ix2 n (2 : Fin 4) := by
  funext a
  refine Fin.ext ?_
  match a with
  | ⟨0, _⟩ => rfl
  | ⟨1, _⟩ => rfl

theorem idx_v82 (n : Fin 100000) : idx_main_v82 (ix2 n (0 : Fin 1)) = ix2 n (3 : Fin 4) := by
  funext a
  refine Fin.ext ?_
  match a with
  | ⟨0, _⟩ => rfl
  | ⟨1, _⟩ => rfl

section Columns
variable (x0 x1 : NodeIn) (x2 : EdgeIn) (hmsg : MsgIs x0 x1 x2) (n : Fin 100000)
include hmsg

/-- Column 0 of the node array is accumulated component 2. -/
theorem col0_apply : val_main_v79 (F := Ideal) x0 x1 x2 (ix2 n (0 : Fin 1))
    = Spec.agg (val_main_v0 (F := Ideal) x0 x1) x2 (2 : Fin 5) n := by
  rw [val_main_v79_apply, idx_v79, nodeArr_left x0 x1 x2 n (0 : Fin 2) (0 : Fin 4) rfl,
    addOut_agg x0 x1 x2 hmsg n (0 : Fin 2) (2 : Fin 5) rfl]

/-- Column 1 of the node array is accumulated component 3. -/
theorem col1_apply : val_main_v80 (F := Ideal) x0 x1 x2 (ix2 n (0 : Fin 1))
    = Spec.agg (val_main_v0 (F := Ideal) x0 x1) x2 (3 : Fin 5) n := by
  rw [val_main_v80_apply, idx_v80, nodeArr_left x0 x1 x2 n (1 : Fin 2) (1 : Fin 4) rfl,
    addOut_agg x0 x1 x2 hmsg n (1 : Fin 2) (3 : Fin 5) rfl]

/-- Column 2 of the node array is the mean of component 0. -/
theorem col2_apply : val_main_v81 (F := Ideal) x0 x1 x2 (ix2 n (0 : Fin 1))
    = Spec.y2 (Spec.agg (val_main_v0 (F := Ideal) x0 x1) x2 (0 : Fin 5) n)
        (Spec.agg (val_main_v0 (F := Ideal) x0 x1) x2 (4 : Fin 5) n) := by
  rw [val_main_v81_apply, idx_v81, nodeArr_right x0 x1 x2 n (0 : Fin 2) (2 : Fin 4) rfl,
    mean_apply x0 x1 x2 hmsg n (0 : Fin 2) (0 : Fin 5) rfl]
  rfl

/-- Column 3 of the node array is the mean of component 1. -/
theorem col3_apply : val_main_v82 (F := Ideal) x0 x1 x2 (ix2 n (0 : Fin 1))
    = Spec.y3 (Spec.agg (val_main_v0 (F := Ideal) x0 x1) x2 (1 : Fin 5) n)
        (Spec.agg (val_main_v0 (F := Ideal) x0 x1) x2 (4 : Fin 5) n) := by
  rw [val_main_v82_apply, idx_v82, nodeArr_right x0 x1 x2 n (1 : Fin 2) (3 : Fin 4) rfl,
    mean_apply x0 x1 x2 hmsg n (1 : Fin 2) (1 : Fin 5) rfl]
  rfl

end Columns

/-! ## The node's rational expressions -/

section Rational
variable (x0 x1 : NodeIn) (x2 : EdgeIn) (i : S100000x1.Idx)

/-- The first intermediate expression, from columns 0, 2, 3. -/
theorem u0_apply : val_main_v92 (F := Ideal) x0 x1 x2 i
    = Spec.u0 (val_main_v79 (F := Ideal) x0 x1 x2 i) (val_main_v81 (F := Ideal) x0 x1 x2 i)
        (val_main_v82 (F := Ideal) x0 x1 x2 i) := by
  rw [val_main_v92_apply, val_main_v90_apply, val_main_v89_apply, val_main_v88_apply, val_main_v86_apply,
    val_main_v85_apply, val_main_v84_apply, val_main_v83_apply, val_main_cst_22_apply, val_main_v87_apply,
    val_main_cst_23_apply, val_main_v91_apply, val_main_cst_24_apply]
  simp only [Ideal.mulf_def, Ideal.addf_def, Ideal.subf_def, Ideal.hostDivf_def, Ideal.ofBits_def]
  rfl

/-- The second intermediate expression, from columns 1, 2, 3. -/
theorem u1_apply : val_main_v101 (F := Ideal) x0 x1 x2 i
    = Spec.u1 (val_main_v80 (F := Ideal) x0 x1 x2 i) (val_main_v81 (F := Ideal) x0 x1 x2 i)
        (val_main_v82 (F := Ideal) x0 x1 x2 i) := by
  rw [val_main_v101_apply, val_main_v99_apply, val_main_v98_apply, val_main_v97_apply, val_main_v96_apply,
    val_main_v95_apply, val_main_v94_apply, val_main_v93_apply, val_main_cst_25_apply, val_main_v100_apply,
    val_main_cst_26_apply]
  simp only [Ideal.mulf_def, Ideal.addf_def, Ideal.subf_def, Ideal.ofBits_def]
  rfl

/-- The third intermediate expression, from columns 0, 3. -/
theorem u2_apply : val_main_v104 (F := Ideal) x0 x1 x2 i
    = Spec.u2 (val_main_v79 (F := Ideal) x0 x1 x2 i) (val_main_v82 (F := Ideal) x0 x1 x2 i) := by
  rw [val_main_v104_apply, val_main_v102_apply, val_main_v103_apply, val_main_cst_27_apply]
  simp only [Ideal.mulf_def, Ideal.addf_def, Ideal.ofBits_def]
  rfl

/-- The fourth intermediate expression, from column 2. -/
theorem u3_apply : val_main_v110 (F := Ideal) x0 x1 x2 i
    = Spec.u3 (val_main_v81 (F := Ideal) x0 x1 x2 i) := by
  rw [val_main_v110_apply, val_main_v109_apply, val_main_v107_apply, val_main_v105_apply, val_main_v106_apply,
    val_main_cst_28_apply, val_main_v108_apply, val_main_cst_29_apply]
  simp only [Ideal.mulf_def, Ideal.addf_def, Ideal.hostDivf_def, Ideal.ofBits_def]
  rfl

end Rational

section Outputs
variable (x0 x1 : NodeIn) (x2 : EdgeIn) (hmsg : MsgIs x0 x1 x2) (n : Fin 100000)
include hmsg

/-- The first output column is the node's first output. -/
theorem out0_apply : val_main_v120 (F := Ideal) x0 x1 x2 (ix2 n (0 : Fin 1))
    = Spec.p0 (Spec.agg (val_main_v0 (F := Ideal) x0 x1) x2 (0 : Fin 5) n)
        (Spec.agg (val_main_v0 (F := Ideal) x0 x1) x2 (1 : Fin 5) n)
        (Spec.agg (val_main_v0 (F := Ideal) x0 x1) x2 (2 : Fin 5) n)
        (Spec.agg (val_main_v0 (F := Ideal) x0 x1) x2 (3 : Fin 5) n)
        (Spec.agg (val_main_v0 (F := Ideal) x0 x1) x2 (4 : Fin 5) n) := by
  rw [val_main_v120_apply, val_main_v118_apply, val_main_v116_apply, val_main_v114_apply, val_main_v113_apply,
    val_main_v112_apply, val_main_v117_apply, u0_apply, u1_apply, u2_apply, u3_apply, val_main_v111_apply,
    val_main_cst_30_apply, val_main_v115_apply, val_main_cst_31_apply, val_main_v119_apply, val_main_cst_32_apply,
    col0_apply x0 x1 x2 hmsg n, col1_apply x0 x1 x2 hmsg n, col2_apply x0 x1 x2 hmsg n, col3_apply x0 x1 x2 hmsg n]
  simp only [Ideal.mulf_def, Ideal.addf_def, Ideal.subf_def, Ideal.hostDivf_def, Ideal.ofBits_def]
  rfl

/-- The second output column is the node's second output. -/
theorem out1_apply : val_main_v127 (F := Ideal) x0 x1 x2 (ix2 n (0 : Fin 1))
    = Spec.p1 (Spec.agg (val_main_v0 (F := Ideal) x0 x1) x2 (0 : Fin 5) n)
        (Spec.agg (val_main_v0 (F := Ideal) x0 x1) x2 (1 : Fin 5) n)
        (Spec.agg (val_main_v0 (F := Ideal) x0 x1) x2 (2 : Fin 5) n)
        (Spec.agg (val_main_v0 (F := Ideal) x0 x1) x2 (3 : Fin 5) n)
        (Spec.agg (val_main_v0 (F := Ideal) x0 x1) x2 (4 : Fin 5) n) := by
  rw [val_main_v127_apply, val_main_v123_apply, val_main_v122_apply, val_main_v126_apply, val_main_v125_apply,
    u0_apply, u1_apply, u2_apply, u3_apply, val_main_v121_apply, val_main_cst_33_apply, val_main_v124_apply,
    val_main_cst_34_apply,
    col0_apply x0 x1 x2 hmsg n, col1_apply x0 x1 x2 hmsg n, col2_apply x0 x1 x2 hmsg n, col3_apply x0 x1 x2 hmsg n]
  simp only [Ideal.mulf_def, Ideal.addf_def, Ideal.subf_def, Ideal.ofBits_def]
  rfl

end Outputs

/-! ## The result array -/

/-- The result [N, 2] at column 0 is the first output column. -/
theorem result_left (x0 x1 : NodeIn) (x2 : EdgeIn) (n : Fin 100000) (c : Fin 2) (hc : c.val = 0) :
    val_main_v128 (F := Ideal) x0 x1 x2 (ix2 n c) = val_main_v120 (F := Ideal) x0 x1 x2 (ix2 n (0 : Fin 1)) := by
  unfold val_main_v128
  exact concatenate_pair_apply_left _ _ _ concatenates_S100000x1_S100000x1_S100000x2_d1 (ix2 n c) rfl
    (ix2 n (0 : Fin 1))
    (fun b => match b with
      | ⟨0, _⟩ => rfl
      | ⟨1, _⟩ => hc.symm)

/-- The result [N, 2] at column 1 is the second output column. -/
theorem result_right (x0 x1 : NodeIn) (x2 : EdgeIn) (n : Fin 100000) (c : Fin 2) (hc : c.val = 1) :
    val_main_v128 (F := Ideal) x0 x1 x2 (ix2 n c) = val_main_v127 (F := Ideal) x0 x1 x2 (ix2 n (0 : Fin 1)) := by
  unfold val_main_v128
  exact concatenate_pair_apply_right _ _ _ concatenates_S100000x1_S100000x1_S100000x2_d1 (ix2 n c) rfl rfl
    (ix2 n (0 : Fin 1))
    (fun b hb => match b, hb with
      | ⟨0, _⟩, _ => rfl
      | ⟨1, _⟩, hb => absurd rfl hb)
    (by show 0 + 1 = c.val; omega)

end Out

open Out in
/-- Given the per-edge fact, the reference's result at (n, k) is output k of node n. -/
theorem ref_is_G_of_msg (x0 x1 : (⟨S100000x2, .f32⟩ : BufTy).Contents (Elt Ideal))
    (x2 : (⟨S2x6400000, .i32⟩ : BufTy).Contents (Elt Ideal))
    (hmsg : ∀ (e : Fin 6400000) (k : Fin 4), ReadP.val_main_v60 (F := Ideal) x0 x1 x2 (ValueIdx.ix2 e k)
      = Cert.Spec.emsg (ReadP.val_main_v0 (F := Ideal) x0 x1) x2 ⟨k.val, by omega⟩ e)
    (n : Fin 100000) (k : Fin 2) :
    ReadP.val_main_v128 (F := Ideal) x0 x1 x2 (ValueIdx.ix2 n k)
      = Cert.Spec.G (ReadP.val_main_v0 (F := Ideal) x0 x1) x2 n k := by
  match k with
  | ⟨0, _⟩ => exact (result_left x0 x1 x2 n _ rfl).trans (out0_apply x0 x1 x2 hmsg n)
  | ⟨1, _⟩ => exact (result_right x0 x1 x2 n _ rfl).trans (out1_apply x0 x1 x2 hmsg n)

end Cert.ReferenceIdeal.RefValue

end
-- ==== Proof.lean ====
/- The five claims assembled.

   Both printed kernel programs run by the launch theorem for a list of host stretches and pipelined calls, each
   call's body obligation proved from the body's memory operations; the reference runs as a straight line of host
   operations.  Read at the arguments the runs give the three frames.  The idealization rewrote nothing, so there is
   nothing to preserve.  For the algebraic claim the precondition says every word of the edge table names a node;
   then the kernel's result and the reference's are, index by index, the same function of the node features and the
   table: per edge the messages from the difference of its two nodes' features, per node the five sums over its
   incoming edges, and the two outputs from those sums. -/
import proofs.«402730_j53644141527384_3_alg».proof.Defs
import proofs.«402730_j53644141527384_3_alg».proof.Proof.Gen.Kernel
import proofs.«402730_j53644141527384_3_alg».proof.Proof.Gen.KernelIdeal
import proofs.«402730_j53644141527384_3_alg».proof.Proof.Gen.ReferenceIdeal
import proofs.«402730_j53644141527384_3_alg».proof.Proof.Gen.Pre_finite_inputs
import proofs.«402730_j53644141527384_3_alg».proof.Proof.KRun
import proofs.«402730_j53644141527384_3_alg».proof.Proof.KIRun
import proofs.«402730_j53644141527384_3_alg».proof.Proof.RefFrame
import proofs.«402730_j53644141527384_3_alg».proof.Proof.PreRange
import proofs.«402730_j53644141527384_3_alg».proof.Proof.KIValue
import proofs.«402730_j53644141527384_3_alg».proof.Proof.RefChunks
import proofs.«402730_j53644141527384_3_alg».proof.Proof.RefMsg
import proofs.«402730_j53644141527384_3_alg».proof.Proof.RefOut
import proofs.«402730_j53644141527384_3_alg».proof.Proof.Spec
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ
theorem frame_ki [Cert.KernelIdeal.Facts] [Cert.Pre_finite_inputs.Facts] : Cert.frame_KernelIdeal :=
  fun m ρ _ => Cert.KernelIdeal.Hand.frame (F := Ideal) m ρ
theorem frame_ri [Cert.ReferenceIdeal.Facts] [Cert.Pre_finite_inputs.Facts] : Cert.frame_ReferenceIdeal :=
  fun m ρ _ => Cert.ReferenceIdeal.RefFrame.frame (F := Ideal) m ρ

open Cert.KernelIdeal.Hand in
set_option maxHeartbeats 1000000 in
/-- From memories that agree on the arguments, under the precondition, both programs run and end with the same
    result: at (n, k), output k of node n. -/
theorem algebraic [Cert.KernelIdeal.Facts] [Cert.ReferenceIdeal.Facts] [Cert.Pre_finite_inputs.Facts] :
    Cert.algebraic_KernelIdeal_ReferenceIdeal := by
  intro m g m' g' hpre hagree
  have hr : ∀ c : Dev Cert.KernelIdeal.nD, Cert.Spec.InRange (B0 m c (Proc.devRef .tc Cert.KernelIdeal.main_arg2)) := fun c =>
    Cert.PreRange.inRange_of_pre _ _ _ (hpre c)
  refine ⟨fun c => B8 m c (Proc.devRef .tc Cert.KernelIdeal.main_v44), ?_, ?_⟩
  · exact (θ_run Cert.KernelIdeal.defs _ _).mono (fun r h c =>
      ⟨h c _ (mem_uc Cert.KernelIdeal.main_v44 (by decide)),
       (h c _ (mem_uc Cert.KernelIdeal.main_arg0 (by decide))).trans (B8_main_arg0 m c),
       (h c _ (mem_uc Cert.KernelIdeal.main_arg1 (by decide))).trans (B8_main_arg1 m c),
       (h c _ (mem_uc Cert.KernelIdeal.main_arg2 (by decide))).trans (B8_main_arg2 m c)⟩) (run_all (F := Ideal) m g)
  · refine (θ_run Cert.ReferenceIdeal.defs _ _).mono (fun r h c =>
      ⟨(h c Cert.ReferenceIdeal.main_v128).trans ?_,
       (h c Cert.ReferenceIdeal.main_arg0).trans (Cert.ReferenceIdeal.RefFrame.kept_arg0 _),
       (h c Cert.ReferenceIdeal.main_arg1).trans (Cert.ReferenceIdeal.RefFrame.kept_arg1 _),
       (h c Cert.ReferenceIdeal.main_arg2).trans (Cert.ReferenceIdeal.RefFrame.kept_arg2 _)⟩) (Cert.ReferenceIdeal.RunP.run (F := Ideal) m' g')
    refine (Cert.ReferenceIdeal.RefValue.after_eq _).trans ?_
    funext i
    obtain ⟨n, k, rfl⟩ : ∃ (n : Fin 100000) (k : Fin 2), i = ValueIdx.ix2 n k := ⟨i 0, i 1, ValueIdx.eq_ix2 i⟩
    have h0 := (hagree c).1
    have h1 := (hagree c).2.1
    have h2 := (hagree c).2.2
    have hr' : Cert.Spec.InRange (m' ((c.tc : Thread Cert.ReferenceIdeal.nD Cert.ReferenceIdeal.τ).loc Cert.ReferenceIdeal.main_arg2)) := by
      rw [h2]; exact hr c
    refine (Cert.ReferenceIdeal.RefValue.ref_is_G_of_msg _ _ _ (fun e k => Cert.ReferenceIdeal.RefValue.ref_msg _ _ _ hr' e k) n k).trans ?_
    refine Eq.trans ?_ (kernel_value m c (hr c) n k).symm
    show Cert.Spec.G (Cert.ReferenceIdeal.ReadP.val_main_v0 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg2)) n k = _
    rw [h0, h1, h2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
